-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x64 : S_.BroadcastsInDim S1x64 (![] : Fin 0 → Fin S1x64.rank)
  reducesTo_S1x64_S_d0_1 : S1x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x128 : S_.BroadcastsInDim S192x128 (![] : Fin 0 → Fin S192x128.rank)
  reducesTo_S192x128_S_d0_1 : S192x128.ReducesTo [0, 1] S_
  bcast_S_S800000 : S_.BroadcastsInDim S800000 (![] : Fin 0 → Fin S800000.rank)
  reducesTo_S800000_S_d0 : S800000.ReducesTo [0] S_

variable [Facts]

def fn_part5 {F : FTy → Type} [FloatOps F] (main_arg16 : IVec S800000 32) (main_v81 : IVec S_ 1) (main_v83 : IVec S800000 1) (main_c_33 : IVec S_ 1) : IVec S_ 1 :=
  let main_v84 : IVec S_ 1 := (fun x v => Host.reduce IntOp.andi x v reducesTo_S800000_S_d0 h_S_) main_v83 main_c_33
  let main_v85 : IVec S_ 1 := andi main_v81 main_v84
  let main_c_34 : IVec S_ 32 := constantI S_ 32 50000#32
  let main_v86 : IVec S800000 32 := broadcastInDim S800000 ![] bcast_S_S800000 main_c_34
  let main_v87 : IVec S800000 1 := cmpi .slt main_arg16 main_v86
  let main_c_35 : IVec S_ 1 := constantI S_ 1 1#1
  let main_v88 : IVec S_ 1 := (fun x v => Host.reduce IntOp.andi x v reducesTo_S800000_S_d0 h_S_) main_v87 main_c_35
  let main_v89 : IVec S_ 1 := andi main_v85 main_v88
  main_v89

def fn_part4 {F : FTy → Type} [FloatOps F] (main_arg14 : FVec F S64 .f32) (main_arg15 : IVec S800000 32) (main_arg16 : IVec S800000 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_c_28 : IVec S_ 32 := constantI S_ 32 0#32
  let main_v74 : IVec S800000 32 := broadcastInDim S800000 ![] bcast_S_S800000 main_c_28
  let main_v75 : IVec S800000 1 := cmpi .sge main_arg15 main_v74
  let main_c_29 : IVec S_ 1 := constantI S_ 1 1#1
  let main_v76 : IVec S_ 1 := (fun x v => Host.reduce IntOp.andi x v reducesTo_S800000_S_d0 h_S_) main_v75 main_c_29
  let main_v77 : IVec S_ 1 := andi main_v73 main_v76
  let main_c_30 : IVec S_ 32 := constantI S_ 32 50000#32
  let main_v78 : IVec S800000 32 := broadcastInDim S800000 ![] bcast_S_S800000 main_c_30
  let main_v79 : IVec S800000 1 := cmpi .slt main_arg15 main_v78
  let main_c_31 : IVec S_ 1 := constantI S_ 1 1#1
  let main_v80 : IVec S_ 1 := (fun x v => Host.reduce IntOp.andi x v reducesTo_S800000_S_d0 h_S_) main_v79 main_c_31
  let main_v81 : IVec S_ 1 := andi main_v77 main_v80
  let main_c_32 : IVec S_ 32 := constantI S_ 32 0#32
  let main_v82 : IVec S800000 32 := broadcastInDim S800000 ![] bcast_S_S800000 main_c_32
  let main_v83 : IVec S800000 1 := cmpi .sge main_arg16 main_v82
  let main_c_33 : IVec S_ 1 := constantI S_ 1 1#1
  fn_part5 (F := F) main_arg16 main_v81 main_v83 main_c_33

def fn_part3 {F : FTy → Type} [FloatOps F] (main_arg11 : FVec F S192x128 .f32) (main_arg12 : FVec F S128 .f32) (main_arg13 : FVec F S128x64 .f32) (main_arg14 : FVec F S64 .f32) (main_arg15 : IVec S800000 32) (main_arg16 : IVec S800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S192x128 .f32 := Host.absf main_arg11
  let main_cst_20 : FVec F S_ .f32 := constant S_ .f32 0x7F800000#32
  let main_v55 : FVec F S192x128 .f32 := broadcastInDim S192x128 ![] bcast_S_S192x128 main_cst_20
  let main_v56 : IVec S192x128 1 := cmpf .olt main_v54 main_v55
  let main_c_21 : IVec S_ 1 := constantI S_ 1 1#1
  let main_v57 : IVec S_ 1 := (fun x v => Host.reduce IntOp.andi x v reducesTo_S192x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_arg15 main_arg16 main_v63 main_v67

def fn_part2 {F : FTy → Type} [FloatOps F] (main_arg7 : FVec F S192x128 .f32) (main_arg8 : FVec F S128 .f32) (main_arg9 : FVec F S128x64 .f32) (main_arg10 : FVec F S64 .f32) (main_arg11 : FVec F S192x128 .f32) (main_arg12 : FVec F S128 .f32) (main_arg13 : FVec F S128x64 .f32) (main_arg14 : FVec F S64 .f32) (main_arg15 : IVec S800000 32) (main_arg16 : IVec S800000 32) (main_v33 : IVec S_ 1) : IVec S_ 1 :=
  let main_v34 : FVec F S192x128 .f32 := Host.absf main_arg7
  let main_cst_12 : FVec F S_ .f32 := constant S_ .f32 0x7F800000#32
  let main_v35 : FVec F S192x128 .f32 := broadcastInDim S192x128 ![] bcast_S_S192x128 main_cst_12
  let main_v36 : IVec S192x128 1 := cmpf .olt main_v34 main_v35
  let main_c_13 : IVec S_ 1 := constantI S_ 1 1#1
  let main_v37 : IVec S_ 1 := (fun x v => Host.reduce IntOp.andi x v reducesTo_S192x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x64 .f32) (main_arg6 : FVec F S64 .f32) (main_arg7 : FVec F S192x128 .f32) (main_arg8 : FVec F S128 .f32) (main_arg9 : FVec F S128x64 .f32) (main_arg10 : FVec F S64 .f32) (main_arg11 : FVec F S192x128 .f32) (main_arg12 : FVec F S128 .f32) (main_arg13 : FVec F S128x64 .f32) (main_arg14 : FVec F S64 .f32) (main_arg15 : IVec S800000 32) (main_arg16 : IVec S800000 32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S50000x64 .f32) (main_arg1 : FVec F S800000x64 .f32) (main_arg2 : FVec F S1x64 .f32) (main_arg3 : FVec F S256x128 .f32) (main_arg4 : FVec F S128 .f32) (main_arg5 : FVec F S128x64 .f32) (main_arg6 : FVec F S64 .f32) (main_arg7 : FVec F S192x128 .f32) (main_arg8 : FVec F S128 .f32) (main_arg9 : FVec F S128x64 .f32) (main_arg10 : FVec F S64 .f32) (main_arg11 : FVec F S192x128 .f32) (main_arg12 : FVec F S128 .f32) (main_arg13 : FVec F S128x64 .f32) (main_arg14 : FVec F S64 .f32) (main_arg15 : IVec S800000 32) (main_arg16 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x128 : Shape := ⟨2, ![1, 128]⟩
abbrev S8000x64 : Shape := ⟨2, ![8000, 64]⟩
abbrev S64x128 : Shape := ⟨2, ![64, 128]⟩
abbrev S8000x128 : Shape := ⟨2, ![8000, 128]⟩
abbrev S50000 : Shape := ⟨1, ![50000]⟩
abbrev S50000x1 : Shape := ⟨2, ![50000, 1]⟩
abbrev S10000x64 : Shape := ⟨2, ![10000, 64]⟩
abbrev S10000x128 : Shape := ⟨2, ![10000, 128]⟩
abbrev S1x192 : Shape := ⟨2, ![1, 192]⟩

abbrev nBuf : Space → Nat
  | .hbm => 105
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S1x64, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S192x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S192x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x64, .f32⟩
  | .hbm, ⟨36, _⟩ => ⟨S800000x64, .i1⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S1, .i32⟩
  | .hbm, ⟨49, _⟩ => ⟨S_, .i32⟩
  | .hbm, ⟨50, _⟩ => ⟨S800000x1, .i32⟩
  | .hbm, ⟨51, _⟩ => ⟨S800000x1, .i1⟩
  | .hbm, ⟨52, _⟩ => ⟨S1x1, .i32⟩
  | .hbm, ⟨53, _⟩ => ⟨S800000x1, .i32⟩
  | .hbm, ⟨54, _⟩ => ⟨S800000x1, .i1⟩
  | .hbm, ⟨55, _⟩ => ⟨S800000x1, .i1⟩
  | .hbm, ⟨56, _⟩ => ⟨S_, .i1⟩
  | .hbm, ⟨57, _⟩ => ⟨S800000, .i1⟩
  | .hbm, ⟨58, _⟩ => ⟨S800000x64, .f32⟩
  | .hbm, ⟨59, _⟩ => ⟨S800000x64, .i1⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S1x128, .f32⟩
  | .hbm, ⟨64, _⟩ => ⟨S1x64, .f32⟩
  | .hbm, ⟨65, _⟩ => ⟨S1x128, .f32⟩
  | .hbm, ⟨66, _⟩ => ⟨S1x64, .f32⟩
  | .hbm, ⟨67, _⟩ => ⟨S800000x64, .f32⟩
  | .hbm, ⟨68, _⟩ => ⟨S800000x64, .f32⟩
  | .hbm, ⟨69, _⟩ => ⟨S1x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000x1, .f32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S1x64, .f32⟩
  | .hbm, ⟨88, _⟩ => ⟨S_, .f32⟩
  | .hbm, ⟨89, _⟩ => ⟨S1x64, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S1x64, .f32⟩
  | .hbm, ⟨94, _⟩ => ⟨S1x192, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S_, .f32⟩
  | .hbm, ⟨99, _⟩ => ⟨S1x128, .f32⟩
  | .hbm, ⟨100, _⟩ => ⟨S1x128, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S1x64, .f32⟩
  | .local _ .vmem, ⟨7, _⟩ => ⟨S256x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S192x128, .f32⟩
  | .local _ .vmem, ⟨22, _⟩ => ⟨S1x128, .f32⟩
  | .local _ .vmem, ⟨23, _⟩ => ⟨S128x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6_0 : Ref sig .tc := ⟨.hbm, 67, rfl⟩
abbrev main_v6_1 : Ref sig .tc := ⟨.hbm, 68, rfl⟩
abbrev main_v6_2 : Ref sig .tc := ⟨.hbm, 69, rfl⟩
abbrev main_cst : Ref sig .tc := ⟨.hbm, 70, rfl⟩
abbrev main_v7 : Ref sig .tc := ⟨.hbm, 71, rfl⟩
abbrev main_cst_0 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_cst_1 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_cst_2 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19_0 : Ref sig .tc := ⟨.hbm, 86, rfl⟩
abbrev main_v19_1 : Ref sig .tc := ⟨.hbm, 87, rfl⟩
abbrev main_cst_3 : Ref sig .tc := ⟨.hbm, 88, rfl⟩
abbrev main_v20 : Ref sig .tc := ⟨.hbm, 89, rfl⟩
abbrev main_v21 : Ref sig .tc := ⟨.hbm, 90, rfl⟩
abbrev main_cst_4 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_call2_cst : Ref sig .tc := ⟨.hbm, 98, rfl⟩
abbrev main_call2_v0 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26
abbrev cc1_sem8_0 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S128_S1x128 : S128.ShapeCasts S1x128
  shapeCasts_S64_S1x64 : S64.ShapeCasts S1x64
  inb_S1x64_S1x64_0_0 : ∀ a, (![0, 0] : Fin 2 → Nat) a + S1x64.size a ≤ S1x64.size a
  h_S1x64 : 0 < S1x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x64_S1x64 : S1x64.ShapeCasts S1x64
  slices_S256x128_o0_0_S64x128 : S256x128.Slices ![0, 0] S64x128
  slices_S256x128_o64_0_S64x128 : S256x128.Slices ![64, 0] S64x128
  slices_S256x128_o128_0_S64x128 : S256x128.Slices ![128, 0] S64x128
  slices_S256x128_o192_0_S64x128 : S256x128.Slices ![192, 0] S64x128
  broadcasts_S1x128_S8000x128 : S1x128.Broadcasts S8000x128
  broadcasts_S1x64_S8000x64 : S1x64.Broadcasts S8000x64
  reduces_S8000x64_S64 : S8000x64.Reduces [0] S64
  bcast_S_S50000 : S_.BroadcastsInDim S50000 (![] : Fin 0 → Fin S50000.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S192x128_S192x128_0_0 : ∀ a, (![0, 0] : Fin 2 → Nat) a + S192x128.size a ≤ S192x128.size a
  h_S192x128 : 0 < S192x128.numel
  slices_S192x128_o0_0_S64x128 : S192x128.Slices ![0, 0] S64x128
  slices_S192x128_o64_0_S64x128 : S192x128.Slices ![64, 0] S64x128
  slices_S192x128_o128_0_S64x128 : S192x128.Slices ![128, 0] S64x128
  broadcasts_S1x128_S10000x128 : S1x128.Broadcasts S10000x128
  broadcasts_S1x64_S10000x64 : S1x64.Broadcasts S10000x64
  reduces_S10000x64_S64 : S10000x64.Reduces [0] S64
  bcast_S_S1x64 : S_.BroadcastsInDim S1x64 (![] : Fin 0 → Fin S1x64.rank)
  concatenates_S1x64_S1x64_S1x64_S1x192_d1 : Shape.Concatenates [S1x64, S1x64, S1x64] S1x192 1
  bcast_S128_S1x128_1 : S128.BroadcastsInDim S1x128 (![1] : Fin 1 → Fin S1x128.rank)
  bcast_S_S1x128 : S_.BroadcastsInDim S1x128 (![] : Fin 0 → Fin S1x128.rank)
  bcast_S64_S1x64_1 : S64.BroadcastsInDim S1x64 (![1] : Fin 1 → Fin S1x64.rank)
  gather_S50000x64_S800000x1_S800000x64_1_0_n_n_0_1_164_wf : GatherDims.WF S50000x64 S800000x1 S800000x64 [1] [0] [] [0] [] 1 ![1, 64]
  dot_S8000x64_S64x128_S8000x128_1_0_0_1_n_n_wf : DotDims.WF S8000x64 S64x128 S8000x128 [1] [0] [0] [1] [] []
  dot_S1x64_S64x128_S1x128_1_0_0_1_n_n_wf : DotDims.WF S1x64 S64x128 S1x128 [1] [0] [0] [1] [] []
  dot_S8000x128_S128x64_S8000x64_1_0_0_1_n_n_wf : DotDims.WF S8000x128 S128x64 S8000x64 [1] [0] [0] [1] [] []
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S1x192_S192x128_S1x128_1_0_0_1_n_n_wf : DotDims.WF S1x192 S192x128 S1x128 [1] [0] [0] [1] [] []
  dot_S1x128_S128x64_S1x64_1_0_0_1_n_n_wf : DotDims.WF S1x128 S128x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x64.size a ≤ S800000x64.size a
  hwx0_8 : ∀ i : grid0.Coords, EltTy.bits .f32 = 32 ∨ (Rect.block (s := S800000x64) S8000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x128.size a ≤ S192x128.size a
  hwx1_3 : ∀ i : grid1.Coords, EltTy.bits .f32 = 32 ∨ (Rect.block (s := S192x128) S192x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S1x192_S192x128_S1x128_1_0_0_1_n_n : DotDims S1x192 S192x128 S1x128 where
  lhsContracting := [1]
  rhsContracting := [0]
  lhsNonContracting := [0]
  rhsNonContracting := [1]
  lhsBatch := []
  rhsBatch := []
  wf := dot_S1x192_S192x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

abbrev win0_0 : Pipeline.Window sig grid0 :=
  Pipeline.Window.ofSpec (Memref.whole main_v0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S8000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S8000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S1x64.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19_0) S10000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_1) S1x64.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S1x64 : Shape := ⟨2, ![1, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S192x128 : Shape := ⟨2, ![192, 128]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩
abbrev S50000x192 : Shape := ⟨2, ![50000, 192]⟩
abbrev S50000x128 : Shape := ⟨2, ![50000, 128]⟩
abbrev S1x192 : Shape := ⟨2, ![1, 192]⟩

abbrev nBuf : Space → Nat
  | .hbm => 102
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S1x64, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S192x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S192x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S800000, .i32⟩
  | .hbm, ⟨16, _⟩ => ⟨S800000, .i32⟩
  | .hbm, ⟨17, _⟩ => ⟨S800000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x256, .f32⟩
  | .hbm, ⟨37, _⟩ => ⟨S800000x128, .f32⟩
  | .hbm, ⟨38, _⟩ => ⟨S1x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S800000x64, .f32⟩
  | .hbm, ⟨45, _⟩ => ⟨S1x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S800000x1, .i32⟩
  | .hbm, ⟨53, _⟩ => ⟨S50000, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S50000x192, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S_, .f32⟩
  | .hbm, ⟨84, _⟩ => ⟨S64, .f32⟩
  | .hbm, ⟨85, _⟩ => ⟨S1x64, .f32⟩
  | .hbm, ⟨86, _⟩ => ⟨S_, .f32⟩
  | .hbm, ⟨87, _⟩ => ⟨S1x64, .f32⟩
  | .hbm, ⟨88, _⟩ => ⟨S1x64, .f32⟩
  | .hbm, ⟨89, _⟩ => ⟨S1x192, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S50000x64, .f32⟩
  | .hbm, ⟨100, _⟩ => ⟨S800000x64, .f32⟩
  | .hbm, ⟨101, _⟩ => ⟨S1x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call0_cst : Ref sig .tc := ⟨.hbm, 41, rfl⟩
abbrev main_call0_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call1_cst : Ref sig .tc := ⟨.hbm, 70, rfl⟩
abbrev main_call1_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call2_cst : Ref sig .tc := ⟨.hbm, 93, rfl⟩
abbrev main_call2_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x64_S800000x256_d1 : Shape.Concatenates [S800000x64, S800000x64, S800000x64, S800000x64] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S_S50000 : S_.BroadcastsInDim S50000 (![] : Fin 0 → Fin S50000.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  concatenates_S50000x64_S50000x64_S50000x64_S50000x192_d1 : Shape.Concatenates [S50000x64, S50000x64, S50000x64] S50000x192 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x64_S64_d0 : S50000x64.ReducesTo [0] S64
  h_S_ : 0 < S_.numel
  bcast_S_S1x64 : S_.BroadcastsInDim S1x64 (![] : Fin 0 → Fin S1x64.rank)
  reducesTo_S800000x64_S64_d0 : S800000x64.ReducesTo [0] S64
  concatenates_S1x64_S1x64_S1x64_S1x192_d1 : Shape.Concatenates [S1x64, S1x64, S1x64] S1x192 1
  bcast_S_S1x128 : S_.BroadcastsInDim S1x128 (![] : Fin 0 → Fin S1x128.rank)
  gather_S50000x64_S800000x1_S800000x64_1_0_n_n_0_1_164_wf : GatherDims.WF S50000x64 S800000x1 S800000x64 [1] [0] [] [0] [] 1 ![1, 64]
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []
  dot_S1x192_S192x128_S1x128_1_0_0_1_n_n_wf : DotDims.WF S1x192 S192x128 S1x128 [1] [0] [0] [1] [] []
  dot_S1x128_S128x64_S1x64_1_0_0_1_n_n_wf : DotDims.WF S1x128 S128x64 S1x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S1x192_S192x128_S1x128_1_0_0_1_n_n : DotDims S1x192 S192x128 S1x128 where
  lhsContracting := [1]
  rhsContracting := [0]
  lhsNonContracting := [0]
  rhsNonContracting := [1]
  lhsBatch := []
  rhsBatch := []
  wf := dot_S1x192_S192x128_S1x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf

class Facts : Prop extends Facts₀ where

variable [Facts]
-- ==== Proof.K.EdgeDat.lean ====
/- The edge region (the first kernel launch of the graph-network step: a two-layer perceptron over tiles of
   8000 edges, with a running column sum of its raw output carried from tile to tile): what each window's buffer
   holds after the body at each grid point, and the body's obligation to the pipeline. -/
import proofs.«426020_j49563922596335_1_alg».proof.Proof.Gen.Kernel.Launch
import proofs.«426020_j49563922596335_1_alg».proof.Proof.Gen.Kernel.Skeleton
import proofs.«426020_j49563922596335_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The unscoped buffers' contents when the region is entered, per core: a parameter of everything below.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The eight inputs' blocks, by their literal types

Three tiles of 8000 rows that move with the point (the source-node rows, the destination-node rows, the edge
rows) and five small arrays that do not (the global row, the first layer's weights and bias, the second layer's
weights and bias). -/

/-- The source-node rows of tile `t`. -/
abbrev xs (c : Dev nD) (t : Fin cfg0.N) : Vec F S8000x64 .f32 := iblk0 V c 0 t
/-- The destination-node rows of tile `t`. -/
abbrev xd (c : Dev nD) (t : Fin cfg0.N) : Vec F S8000x64 .f32 := iblk0 V c 1 t
/-- The edge rows of tile `t`. -/
abbrev ef (c : Dev nD) (t : Fin cfg0.N) : Vec F S8000x64 .f32 := iblk0 V c 2 t
/-- The global row. -/
abbrev gu (c : Dev nD) (t : Fin cfg0.N) : Vec F S1x64 .f32 := iblk0 V c 3 t
/-- The first layer's weights (four stacked 64-row blocks). -/
abbrev ew1 (c : Dev nD) (t : Fin cfg0.N) : Vec F S256x128 .f32 := iblk0 V c 4 t
/-- The first layer's bias. -/
abbrev eb1 (c : Dev nD) (t : Fin cfg0.N) : Vec F S1x128 .f32 := iblk0 V c 5 t
/-- The second layer's weights. -/
abbrev ew2 (c : Dev nD) (t : Fin cfg0.N) : Vec F S128x64 .f32 := iblk0 V c 6 t
/-- The second layer's bias. -/
abbrev eb2 (c : Dev nD) (t : Fin cfg0.N) : Vec F S1x64 .f32 := iblk0 V c 7 t

/-! ## The reset's condition -/

/-- The condition under which the body resets the running sum: the grid coordinate is zero (the body's scalar
    chain substituted). -/
abbrev cond0_0 (i : grid0.Coords) : Prop := (Scalar.cmpi .ne (Scalar.extui (Scalar.cmpi .eq (BitVec.ofNat 32 (i 0).val) 0#32)) 0#32) = 1#1
/-- It holds at the first point only: decided over the grid's 100 points. -/
theorem hcond0_0 : ∀ t : Fin cfg0.N, cond0_0 (grid0.coords t) ↔ t.val % 100 = 0 :=
  (by decide +kernel : ∀ t : Fin grid0.N, cond0_0 (grid0.coords t) ↔ t.val % 100 = 0)

/-! ## Whole-buffer accesses -/

omit [FloatOps F] in
/-- The offsets `(0, 0)` are the zero offsets. -/
theorem hz : (![0, 0] : Fin 2 → Nat) = fun _ => 0 := funext fun a => by fin_cases a <;> rfl

/-- A list of writes whose LAST write fills the whole shape (the unit rectangle at zero offsets) covers every index. -/
theorem cover_whole {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-! ## The body on any whole staging memrefs

Every load reads a whole buffer and every store fills one, so each output's buffer ends at the payload of its last
store, a function of the eight inputs' contents (and, for the running sum, of what its buffer held). The two runs
differ only in the reset: at the first point the running sum's buffer is zeroed and then added to; at every later
point it is added to as found. -/

set_option maxHeartbeats 4000000 in
/-- THE FIRST POINT. On whole staging memrefs, the inputs' at contents `x0 … x7` and the outputs' at anything, the
    body leaves the inputs' as they were, the raw output's at the perceptron's value, the residual output's at that
    plus the edge rows, and the running sum's at the column sum of the raw output added to zero. -/
theorem run0_A (c : Dev nD) (E : Set ℕ) (i : grid0.Coords)
    (arg1 : Memref sig .tc .vmem S8000x64 .f32) (harg1 : arg1.IsWhole) (arg2 : Memref sig .tc .vmem S8000x64 .f32) (harg2 : arg2.IsWhole)
    (arg3 : Memref sig .tc .vmem S8000x64 .f32) (harg3 : arg3.IsWhole) (arg4 : Memref sig .tc .vmem S1x64 .f32) (harg4 : arg4.IsWhole)
    (arg5 : Memref sig .tc .vmem S256x128 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S8000x64 .f32) (harg9 : arg9.IsWhole) (arg10 : Memref sig .tc .vmem S8000x64 .f32) (harg10 : arg10.IsWhole)
    (arg11 : Memref sig .tc .vmem S1x64 .f32) (harg11 : arg11.IsWhole) (hc0 : cond0_0 i)
    (x0 x1 x2 : Vec F S8000x64 .f32) (x3 : Vec F S1x64 .f32) (x4 : Vec F S256x128 .f32) (x5 : Vec F S1x128 .f32)
    (x6 : Vec F S128x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (k0_pay1 (k0_pay5 x6) (k0_pay6 x7) (k0_pay7 x0 x1 x2 x3 x4 x5) (Scalar.ofBits .f32 0x00000000#32))
            ∗ owns (c : Thread nD τ) arg10 fullShare (k0_pay2 (k0_pay5 x6) (k0_pay6 x7) (k0_pay7 x0 x1 x2 x3 x4 x5) (Scalar.ofBits .f32 0x00000000#32) x2)
            ∗ owns (c : Thread nD τ) arg11 fullShare (k0_pay3 (k0_pay5 x6) (k0_pay6 x7) (k0_pay7 x0 x1 x2 x3 x4 x5) (Scalar.ofBits .f32 0x00000000#32) k0_pay4)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc0)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H5]; · iexists _; isplitr; · ipureintro; exact harg6.read_unread _
                  iexact H5
  isplitl [H6]; · iexists _; isplitr; · ipureintro; exact harg7.read_unread _
                  iexact H6
  isplitl [H7]; · iexists _; isplitr; · ipureintro; exact harg8.read_unread _
                  iexact H7
  isplitl [H8]
  · iexists _; isplitr
    swap; · iexact H8
    ipureintro
    rw [View.read_writes_eq_canon _ _ _ (cover_whole (S := S8000x64) hz inb_S8000x64_S8000x64_0_0 _ _)]
    sl_unfold_words
    dsimp only
    rw [View.canon_unit_zero (S := S8000x64) hz]
    simp only [View.readAt_eq_ld, harg1.read_unread, harg2.read_unread, harg3.read_unread, harg4.read_unread, harg5.read_unread,
      harg6.read_unread, harg7.read_unread, harg8.read_unread, View.ld_unit_zero (S := S8000x64) hz, View.ld_unit_zero (S := S1x64) hz,
      View.ld_unit_zero (S := S256x128) hz, View.ld_unit_zero (S := S1x128) hz, View.ld_unit_zero (S := S128x64) hz]
  isplitl [H9]
  · iexists _; isplitr
    swap; · iexact H9
    ipureintro
    rw [View.read_writes_eq_canon _ _ _ (cover_whole (S := S8000x64) hz inb_S8000x64_S8000x64_0_0 _ _)]
    sl_unfold_words
    dsimp only
    rw [View.canon_unit_zero (S := S8000x64) hz]
    simp only [View.readAt_eq_ld, harg1.read_unread, harg2.read_unread, harg3.read_unread, harg4.read_unread, harg5.read_unread,
      harg6.read_unread, harg7.read_unread, harg8.read_unread, View.ld_unit_zero (S := S8000x64) hz, View.ld_unit_zero (S := S1x64) hz,
      View.ld_unit_zero (S := S256x128) hz, View.ld_unit_zero (S := S1x128) hz, View.ld_unit_zero (S := S128x64) hz]
  iexists _; isplitr
  swap; · iexact H10
  ipureintro
  rw [View.read_writes_eq_canon _ _ _ (cover_whole (S := S1x64) hz inb_S1x64_S1x64_0_0 _ _)]
  sl_unfold_words
  dsimp only
  rw [View.canon_cons_unit_zero (S := S1x64) hz, View.readCov_unit_zero (S := S1x64) _ hz]
  simp only [View.readAt_eq_ld, harg1.read_unread, harg2.read_unread, harg3.read_unread, harg4.read_unread, harg5.read_unread,
    harg6.read_unread, harg7.read_unread, harg8.read_unread, View.ld_unit_zero (S := S8000x64) hz, View.ld_unit_zero (S := S1x64) hz,
    View.ld_unit_zero (S := S256x128) hz, View.ld_unit_zero (S := S1x128) hz, View.ld_unit_zero (S := S128x64) hz]

set_option maxHeartbeats 4000000 in
/-- EVERY LATER POINT. The same, the running sum's buffer held at `xo`: it ends at the column sum of the raw
    output added to `xo`. -/
theorem run0_B (c : Dev nD) (E : Set ℕ) (i : grid0.Coords)
    (arg1 : Memref sig .tc .vmem S8000x64 .f32) (harg1 : arg1.IsWhole) (arg2 : Memref sig .tc .vmem S8000x64 .f32) (harg2 : arg2.IsWhole)
    (arg3 : Memref sig .tc .vmem S8000x64 .f32) (harg3 : arg3.IsWhole) (arg4 : Memref sig .tc .vmem S1x64 .f32) (harg4 : arg4.IsWhole)
    (arg5 : Memref sig .tc .vmem S256x128 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S8000x64 .f32) (harg9 : arg9.IsWhole) (arg10 : Memref sig .tc .vmem S8000x64 .f32) (harg10 : arg10.IsWhole)
    (arg11 : Memref sig .tc .vmem S1x64 .f32) (harg11 : arg11.IsWhole) (hc0 : ¬cond0_0 i)
    (x0 x1 x2 : Vec F S8000x64 .f32) (x3 : Vec F S1x64 .f32) (x4 : Vec F S256x128 .f32) (x5 : Vec F S1x128 .f32)
    (x6 : Vec F S128x64 .f32) (x7 : Vec F S1x64 .f32) (xo : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ owns (c : Thread nD τ) arg11 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (k0_pay1 (k0_pay5 x6) (k0_pay6 x7) (k0_pay7 x0 x1 x2 x3 x4 x5) (Scalar.ofBits .f32 0x00000000#32))
            ∗ owns (c : Thread nD τ) arg10 fullShare (k0_pay2 (k0_pay5 x6) (k0_pay6 x7) (k0_pay7 x0 x1 x2 x3 x4 x5) (Scalar.ofBits .f32 0x00000000#32) x2)
            ∗ owns (c : Thread nD τ) arg11 fullShare (k0_pay3 (k0_pay5 x6) (k0_pay6 x7) (k0_pay7 x0 x1 x2 x3 x4 x5) (Scalar.ofBits .f32 0x00000000#32) xo)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg11.eq_unread hf10
  sl_exec (disch := first | exact hc0)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H5]; · iexists _; isplitr; · ipureintro; exact harg6.read_unread _
                  iexact H5
  isplitl [H6]; · iexists _; isplitr; · ipureintro; exact harg7.read_unread _
                  iexact H6
  isplitl [H7]; · iexists _; isplitr; · ipureintro; exact harg8.read_unread _
                  iexact H7
  isplitl [H8]
  · iexists _; isplitr
    swap; · iexact H8
    ipureintro
    rw [View.read_writes_eq_canon _ _ _ (cover_whole (S := S8000x64) hz inb_S8000x64_S8000x64_0_0 _ _)]
    sl_unfold_words
    dsimp only
    rw [View.canon_unit_zero (S := S8000x64) hz]
    simp only [View.readAt_eq_ld, harg1.read_unread, harg2.read_unread, harg3.read_unread, harg4.read_unread, harg5.read_unread,
      harg6.read_unread, harg7.read_unread, harg8.read_unread, View.ld_unit_zero (S := S8000x64) hz, View.ld_unit_zero (S := S1x64) hz,
      View.ld_unit_zero (S := S256x128) hz, View.ld_unit_zero (S := S1x128) hz, View.ld_unit_zero (S := S128x64) hz]
  isplitl [H9]
  · iexists _; isplitr
    swap; · iexact H9
    ipureintro
    rw [View.read_writes_eq_canon _ _ _ (cover_whole (S := S8000x64) hz inb_S8000x64_S8000x64_0_0 _ _)]
    sl_unfold_words
    dsimp only
    rw [View.canon_unit_zero (S := S8000x64) hz]
    simp only [View.readAt_eq_ld, harg1.read_unread, harg2.read_unread, harg3.read_unread, harg4.read_unread, harg5.read_unread,
      harg6.read_unread, harg7.read_unread, harg8.read_unread, View.ld_unit_zero (S := S8000x64) hz, View.ld_unit_zero (S := S1x64) hz,
      View.ld_unit_zero (S := S256x128) hz, View.ld_unit_zero (S := S1x128) hz, View.ld_unit_zero (S := S128x64) hz]
  iexists _; isplitr
  swap; · iexact H10
  ipureintro
  rw [View.read_writes_eq_canon _ _ _ (cover_whole (S := S1x64) hz inb_S1x64_S1x64_0_0 _ _)]
  sl_unfold_words
  dsimp only
  rw [View.canon_unit_zero (S := S1x64) hz]
  simp only [View.readAt_eq_ld, harg1.read_unread, harg2.read_unread, harg3.read_unread, harg4.read_unread, harg5.read_unread,
    harg6.read_unread, harg7.read_unread, harg8.read_unread, harg11.read_unread, View.ld_unit_zero (S := S8000x64) hz, View.ld_unit_zero (S := S1x64) hz,
    View.ld_unit_zero (S := S256x128) hz, View.ld_unit_zero (S := S1x128) hz, View.ld_unit_zero (S := S128x64) hz]

/-! ## The running sum, point by point -/

/-- The first layer's pre-activation on tile `t`: the three row tiles and the global row against the four stacked
    blocks of the first layer's weights, plus its bias. -/
def hid0 (c : Dev nD) (t : Fin cfg0.N) : FVec F S8000x128 .f32 :=
  k0_pay7 (xs V c t) (xd V c t) (ef V c t) (gu V c t) (ew1 V c t) (eb1 V c t)

theorem hid0_eq (c : Dev nD) (t : Fin cfg0.N) :
    hid0 V c t = k0_pay7 (xs V c t) (xd V c t) (ef V c t) (gu V c t) (ew1 V c t) (eb1 V c t) := rfl

/-- What the running sum's buffer holds after the body at position `n`: at the first point the column sum of the raw
    output of tile 0 added to the cleared row; at a later point that of tile `n` added to what the point before left
    (the buffer is not written back between points: the block index does not move). -/
def acc0 (c : Dev nD) : (n : ℕ) → n < cfg0.N → Vec F S1x64 .f32
  | 0, h => k0_pay3 (k0_pay5 (ew2 V c ⟨0, h⟩)) (k0_pay6 (eb2 V c ⟨0, h⟩)) (hid0 V c ⟨0, h⟩) (Scalar.ofBits .f32 0x00000000#32) k0_pay4
  | n + 1, h => k0_pay3 (k0_pay5 (ew2 V c ⟨n + 1, h⟩)) (k0_pay6 (eb2 V c ⟨n + 1, h⟩)) (hid0 V c ⟨n + 1, h⟩) (Scalar.ofBits .f32 0x00000000#32)
      (acc0 c n (Nat.lt_of_succ_lt h))

theorem acc0_zero (c : Dev nD) (h : 0 < cfg0.N) :
    acc0 V c 0 h = k0_pay3 (k0_pay5 (ew2 V c ⟨0, h⟩)) (k0_pay6 (eb2 V c ⟨0, h⟩)) (hid0 V c ⟨0, h⟩) (Scalar.ofBits .f32 0x00000000#32) k0_pay4 := rfl

theorem acc0_succ (c : Dev nD) (n : ℕ) (h : n + 1 < cfg0.N) :
    acc0 V c (n + 1) h = k0_pay3 (k0_pay5 (ew2 V c ⟨n + 1, h⟩)) (k0_pay6 (eb2 V c ⟨n + 1, h⟩)) (hid0 V c ⟨n + 1, h⟩) (Scalar.ofBits .f32 0x00000000#32)
      (acc0 V c n (Nat.lt_of_succ_lt h)) := rfl

/-- At the first point the sum starts from the cleared row. -/
theorem acc0_A (c : Dev nD) (t : Fin cfg0.N) (h0 : t.val % 100 = 0) :
    acc0 V c t.val t.isLt = k0_pay3 (k0_pay5 (ew2 V c t)) (k0_pay6 (eb2 V c t)) (hid0 V c t) (Scalar.ofBits .f32 0x00000000#32) k0_pay4 := by
  have hN : t.val < 100 := lt_of_lt_of_eq t.isLt (show cfg0.N = 100 from N_0)
  obtain ⟨n, hn⟩ := t
  cases n with
  | zero => exact rfl
  | succ n => exact (by exfalso; (try dsimp only at h0 hN); omega)

/-- At a later point it continues from what the point before left. -/
theorem acc0_B (c : Dev nD) (t : Fin cfg0.N) (h0 : ¬t.val % 100 = 0) :
    acc0 V c t.val t.isLt = k0_pay3 (k0_pay5 (ew2 V c t)) (k0_pay6 (eb2 V c t)) (hid0 V c t) (Scalar.ofBits .f32 0x00000000#32)
      (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the edge pipeline on core `c`: the arrays as the region finds them (`V`); after the body at
    point `t` each input's buffer at its block, the raw output's at the perceptron's value on the tile, the residual
    output's at that plus the edge rows, the running sum's at `acc0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => k0_pay1 (k0_pay5 (ew2 V c t)) (k0_pay6 (eb2 V c t)) (hid0 V c t) (Scalar.ofBits .f32 0x00000000#32)
    | ⟨9, _⟩ => k0_pay2 (k0_pay5 (ew2 V c t)) (k0_pay6 (eb2 V c t)) (hid0 V c t) (Scalar.ofBits .f32 0x00000000#32) (ef V c t)
    | ⟨10, _⟩ => acc0 V c t.val t.isLt
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
/-- The raw output's block: the perceptron's value on the tile. -/
theorem after0_8 (c : Dev nD) (t : Fin cfg0.N) :
    (dat0 V c).after 8 t
      = k0_pay1 (k0_pay5 (ew2 V c t)) (k0_pay6 (eb2 V c t)) (k0_pay7 (xs V c t) (xd V c t) (ef V c t) (gu V c t) (ew1 V c t) (eb1 V c t))
          (Scalar.ofBits .f32 0x00000000#32) := by
  dsimp only [dat0, hid0]
/-- The residual output's block: the raw output plus the edge rows. -/
theorem after0_9 (c : Dev nD) (t : Fin cfg0.N) :
    (dat0 V c).after 9 t
      = k0_pay2 (k0_pay5 (ew2 V c t)) (k0_pay6 (eb2 V c t)) (k0_pay7 (xs V c t) (xd V c t) (ef V c t) (gu V c t) (ew1 V c t) (eb1 V c t))
          (Scalar.ofBits .f32 0x00000000#32) (ef V c t) := by
  dsimp only [dat0, hid0]
/-- The running sum's block. -/
theorem after0_10 (c : Dev nD) (t : Fin cfg0.N) : (dat0 V c).after 10 t = acc0 V c t.val t.isLt := by dsimp only [dat0]

/-! ## What the body finds in each buffer -/

/-- An input's current staging buffer holds its block at every point, fetched there or not: unfetched, its block index has not moved (the windows are uncut and never idle). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- The same for the destination-node rows, -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- the edge rows, -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- the global row (fetched at the first point only, its block index constant), -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- the first layer's weights, -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- the first layer's bias, -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- the second layer's weights, -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
/-- and the second layer's bias. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-- At a later point the running sum's buffer holds what the body left at the point before: it is written back at the
    last point only, and the window is live and uncut. -/
theorem before0_10_B (c : Dev nD) (t : Fin cfg0.N) (h0 : ¬t.val % 100 = 0) (d) :
    (dat0 V c).before 10 t d = acc0 V c (t.val - 1) (Nat.lt_of_le_of_lt (Nat.sub_le _ _) t.isLt) := by
  have hN : t.val < 100 := lt_of_lt_of_eq t.isLt (show cfg0.N = 100 from N_0)
  rw [Dat.before_out_kept _ 10 rfl t (by omega) (Bool.eq_false_iff.mpr fun h => by have := (flush0_10 _).mp h; dsimp only at this; omega)
    (fun _ => rfl) (fun _ _ => rfl)]
  dsimp only [dat0]

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1600000 in
/-- The body at any point. The inputs' memrefs hold their blocks; the two tile outputs' hold anything (each is stored
    whole); the point is the first or a later one: at the first the running sum's buffer holds anything and the body
    resets it, at a later one it holds what the point before left. So the matching run applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  by_cases h0 : t.val % 100 = 0
  · rw [acc0_A V c t h0, hid0_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run0_A c Set.univ (grid0.coords t) _ _ _ _ _ _ _ _ _ _ _ _ _ _ _ _ _ _ _ _ _ _ ((hcond0_0 t).mpr h0)
      (xs V c t) (xd V c t) (ef V c t) (gu V c t) (ew1 V c t) (eb1 V c t) (ew2 V c t) (eb2 V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc0_B V c t h0, hid0_eq]
    simp only [before0_10_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run0_B c Set.univ (grid0.coords t) _ _ _ _ _ _ _ _ _ _ _ _ _ _ _ _ _ _ _ _ _ _ (fun h => h0 ((hcond0_0 t).mp h))
      (xs V c t) (xd V c t) (ef V c t) (gu V c t) (ew1 V c t) (eb1 V c t) (ew2 V c t) (eb2 V c t)
      (acc0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Edge

end
-- ==== Proof.K.NodeDat.lean ====
/- The node region (the second kernel: the node network over 50000 nodes in five row tiles of 10000): what each
   window's buffer holds after the body at every grid point, and the body's triple at every point.

   At a point the body forms, from the tile of aggregated messages, the tile of node features, the global feature row and the
   two layers' weights and biases, the tile's new features h (a two-layer network with a rectifier between the layers); it
   writes h + (node features) over its output tile, and adds the column sums of h into a 1x64 accumulator that it first
   clears at the first point. The accumulator's block never moves and is written back after the last point only, so its
   contents are a left fold over the points: acc₀ = colsum(h₀) + 0, accₙ₊₁ = colsum(hₙ₊₁) + accₙ. -/
import proofs.«426020_j49563922596335_1_alg».proof.Proof.Gen.Kernel.Launch
import proofs.«426020_j49563922596335_1_alg».proof.Proof.Gen.Kernel.Skeleton
import proofs.«426020_j49563922596335_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the first point -/

/-- The condition under which the body clears the accumulator, from the grid coordinates. -/
abbrev cond1_0 (i : grid1.Coords) : Prop :=
  (Scalar.cmpi .ne (Scalar.extui (Scalar.cmpi .eq (BitVec.ofNat 32 (i 0).val) 0#32)) 0#32) = 1#1

/-- It holds at the first of the five points and at no other. -/
theorem hcond1_0 : ∀ t : Fin cfg1.N, cond1_0 (grid1.coords t) ↔ t.val % 5 = 0 :=
  (by decide +kernel : ∀ t : Fin grid1.N, cond1_0 (grid1.coords t) ↔ t.val % 5 = 0)

/-! ## Whole-buffer accesses -/

/-- The offsets of every access of the body: both zero. -/
theorem hz2 : (![0, 0] : Fin 2 → Nat) = fun _ => 0 := funext fun a => by fin_cases a <;> rfl

/-- A store through the whole buffer, made last, is all that a read of the buffer sees afterwards. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-! ## The body's triple, case by case

On whole buffers, the seven inputs' at contents x0 … x6, the body runs to a state in which the inputs' buffers are as
they were, the output tile's buffer holds h + x1 and the accumulator's buffer holds colsum(h) + a, where
h = k1_pay4 x0 x1 x2 x3 x5 x4 x6 (the second layer's weights are loaded before the first layer's bias) and a is the
cleared accumulator at the first point (case A) and what the buffer held on entry at the later ones (case B). The output
tile's buffer is read before it is written (the value is not used), so it is handed over at some contents. -/

set_option maxHeartbeats 1000000 in
/-- Case A, the first point: the accumulator's buffer is handed over at some contents, cleared, read back and added to. -/
theorem run1_A (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S192x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (hc0 : cond1_0 i)
    (x0 : Vec F S10000x64 .f32) (x1 : Vec F S10000x64 .f32) (x2 : Vec F S1x64 .f32) (x3 : Vec F S192x128 .f32) (x4 : Vec F S1x128 .f32) (x5 : Vec F S128x64 .f32) (x6 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay1 (k1_pay4 x0 x1 x2 x3 x5 x4 x6) x1)
            ∗ owns (c : Thread nD τ) arg9 fullShare (k1_pay2 (k1_pay4 x0 x1 x2 x3 x5 x4 x6) k1_pay3)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9) K := by
  simp only [cc1__node_kernel_eq_skeleton]; unfold cc1__node_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    sl_unfold_words
    simp only [View.readAt_eq_ld, harg1.read_unread, harg2.read_unread, harg3.read_unread, harg4.read_unread, harg5.read_unread,
      harg6.read_unread, harg7.read_unread, View.ld_unit_zero (S := S10000x64) hz2, View.ld_unit_zero (S := S1x64) hz2,
      View.ld_unit_zero (S := S192x128) hz2, View.ld_unit_zero (S := S1x128) hz2, View.ld_unit_zero (S := S128x64) hz2]
  iexists _; isplitr
  swap; · iexact H8
  ipureintro
  refine (read_writes_whole _ _ hz2 _ _ _).trans ?_
  sl_unfold_words
  rw [View.readCov_unit_zero (S := S1x64) _ hz2]
  simp only [View.readAt_eq_ld, harg1.read_unread, harg2.read_unread, harg3.read_unread, harg4.read_unread, harg5.read_unread,
      harg6.read_unread, harg7.read_unread, View.ld_unit_zero (S := S10000x64) hz2, View.ld_unit_zero (S := S1x64) hz2,
      View.ld_unit_zero (S := S192x128) hz2, View.ld_unit_zero (S := S1x128) hz2, View.ld_unit_zero (S := S128x64) hz2]

set_option maxHeartbeats 1000000 in
/-- Case B, a later point: the accumulator's buffer holds xo8 on entry and is added to. -/
theorem run1_B (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S192x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (hc0 : ¬cond1_0 i)
    (x0 : Vec F S10000x64 .f32) (x1 : Vec F S10000x64 .f32) (x2 : Vec F S1x64 .f32) (x3 : Vec F S192x128 .f32) (x4 : Vec F S1x128 .f32) (x5 : Vec F S128x64 .f32) (x6 : Vec F S1x64 .f32) (xo8 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xo8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay1 (k1_pay4 x0 x1 x2 x3 x5 x4 x6) x1)
            ∗ owns (c : Thread nD τ) arg9 fullShare (k1_pay2 (k1_pay4 x0 x1 x2 x3 x5 x4 x6) xo8)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9) K := by
  simp only [cc1__node_kernel_eq_skeleton]; unfold cc1__node_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hf8
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    sl_unfold_words
    simp only [View.readAt_eq_ld, harg1.read_unread, harg2.read_unread, harg3.read_unread, harg4.read_unread, harg5.read_unread,
      harg6.read_unread, harg7.read_unread, harg9.read_unread, View.ld_unit_zero (S := S10000x64) hz2, View.ld_unit_zero (S := S1x64) hz2,
      View.ld_unit_zero (S := S192x128) hz2, View.ld_unit_zero (S := S1x128) hz2, View.ld_unit_zero (S := S128x64) hz2]
  iexists _; isplitr
  swap; · iexact H8
  ipureintro
  refine (read_writes_whole _ _ hz2 _ _ _).trans ?_
  sl_unfold_words
  simp only [View.readAt_eq_ld, harg1.read_unread, harg2.read_unread, harg3.read_unread, harg4.read_unread, harg5.read_unread,
      harg6.read_unread, harg7.read_unread, harg9.read_unread, View.ld_unit_zero (S := S10000x64) hz2, View.ld_unit_zero (S := S1x64) hz2,
      View.ld_unit_zero (S := S192x128) hz2, View.ld_unit_zero (S := S1x128) hz2, View.ld_unit_zero (S := S128x64) hz2]

/-! ## The windows' blocks -/

-- The unscoped buffers' contents when the region is entered, per core: a parameter of everything below.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of aggregated messages at point `t`. -/
abbrev agg (c : Dev nD) (t : Fin cfg1.N) : Vec F S10000x64 .f32 := iblk1 V c 0 t
/-- The tile of node features at point `t`. -/
abbrev nfeat (c : Dev nD) (t : Fin cfg1.N) : Vec F S10000x64 .f32 := iblk1 V c 1 t
/-- The global feature row. -/
abbrev glob (c : Dev nD) (t : Fin cfg1.N) : Vec F S1x64 .f32 := iblk1 V c 2 t
/-- The first layer's weights. -/
abbrev wgt1 (c : Dev nD) (t : Fin cfg1.N) : Vec F S192x128 .f32 := iblk1 V c 3 t
/-- The first layer's bias. -/
abbrev bias1 (c : Dev nD) (t : Fin cfg1.N) : Vec F S1x128 .f32 := iblk1 V c 4 t
/-- The second layer's weights. -/
abbrev wgt2 (c : Dev nD) (t : Fin cfg1.N) : Vec F S128x64 .f32 := iblk1 V c 5 t
/-- The second layer's bias. -/
abbrev bias2 (c : Dev nD) (t : Fin cfg1.N) : Vec F S1x64 .f32 := iblk1 V c 6 t

/-- The tile's new features before the residual is added: the network applied to the point's blocks. -/
def hid1 (c : Dev nD) (t : Fin cfg1.N) : Vec F S10000x64 .f32 :=
  k1_pay4 (agg V c t) (nfeat V c t) (glob V c t) (wgt1 V c t) (wgt2 V c t) (bias1 V c t) (bias2 V c t)

theorem hid1_eq (c : Dev nD) (t : Fin cfg1.N) :
    hid1 V c t = k1_pay4 (agg V c t) (nfeat V c t) (glob V c t) (wgt1 V c t) (wgt2 V c t) (bias1 V c t) (bias2 V c t) := rfl

/-- The accumulator after the body at point `n`: the column sums of the new features folded over the points from the left,
    starting from the cleared row. -/
def acc1 (c : Dev nD) : (n : ℕ) → n < cfg1.N → Vec F S1x64 .f32
  | 0, h => k1_pay2 (hid1 V c ⟨0, h⟩) k1_pay3
  | n + 1, h => k1_pay2 (hid1 V c ⟨n + 1, h⟩) (acc1 c n (Nat.lt_of_succ_lt h))

theorem acc1_zero (c : Dev nD) (h : 0 < cfg1.N) : acc1 V c 0 h = k1_pay2 (hid1 V c ⟨0, h⟩) k1_pay3 := rfl

theorem acc1_succ (c : Dev nD) (n : ℕ) (h : n + 1 < cfg1.N) :
    acc1 V c (n + 1) h = k1_pay2 (hid1 V c ⟨n + 1, h⟩) (acc1 V c n (Nat.lt_of_succ_lt h)) := rfl

/-- At the first point the fold starts from the cleared row. -/
theorem acc1_A (c : Dev nD) (t : Fin cfg1.N) (h0 : t.val % 5 = 0) :
    acc1 V c t.val t.isLt = k1_pay2 (hid1 V c t) k1_pay3 := by
  have hN : t.val < 5 := lt_of_lt_of_eq t.isLt (show cfg1.N = 5 from N_1)
  obtain ⟨n, hn⟩ := t
  cases n with
  | zero => rfl
  | succ n => exfalso; dsimp only at h0 hN; omega

/-- At a later point it continues from what the point before left. -/
theorem acc1_B (c : Dev nD) (t : Fin cfg1.N) (h0 : ¬t.val % 5 = 0) :
    acc1 V c t.val t.isLt
      = k1_pay2 (hid1 V c t) (acc1 V c (t.val - 1) (Nat.lt_of_le_of_lt (Nat.sub_le _ _) t.isLt)) := by
  obtain ⟨n, hn⟩ := t
  cases n with
  | zero => exact absurd (Nat.zero_mod _) h0
  | succ n => rfl

/-! ## The proof data -/

/-- The proof data of the node pipeline on core `c`: the arrays as the region finds them; after the body at point `t` each
    input's buffer at its block, the output tile's at the new features plus the node features, the accumulator's at the
    fold up to `t`; the invariant is the scoped rest and the generator register, which the body does not touch; nothing is
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay1 (hid1 V c t) (nfeat V c t)
    | ⟨8, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- The output tile: the network's result plus the node features. -/
theorem after1_7 (c : Dev nD) (t : Fin cfg1.N) :
    (dat1 V c).after 7 t
      = k1_pay1 (k1_pay4 (agg V c t) (nfeat V c t) (glob V c t) (wgt1 V c t) (wgt2 V c t) (bias1 V c t) (bias2 V c t)) (nfeat V c t) := by
  dsimp only [dat1, hid1]
/-- The accumulator: the fold up to the point. -/
theorem after1_8 (c : Dev nD) (t : Fin cfg1.N) : (dat1 V c).after 8 t = acc1 V c t.val t.isLt := by dsimp only [dat1]

/-! ## What the body finds in each buffer -/

/-- Each input's buffer holds its block at every point, whether the pipeline fetched it there or not: where it did not, the
    block index has not moved since the point before and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- At a later point the accumulator's buffer holds what the body left at the point before: its block does not move and it
    is written back after the last point only. -/
theorem before1_8_B (c : Dev nD) (t : Fin cfg1.N) (h0 : ¬t.val % 5 = 0) (d) :
    (dat1 V c).before 8 t d = acc1 V c (t.val - 1) (Nat.lt_of_le_of_lt (Nat.sub_le _ _) t.isLt) := by
  have hN : t.val < 5 := lt_of_lt_of_eq t.isLt (show cfg1.N = 5 from N_1)
  rw [Dat.before_out_kept _ 8 rfl t (by omega)
    (Bool.eq_false_iff.mpr fun h => by have := (flush1_8 _).mp h; dsimp only at this; omega) (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 800000 in
/-- The body at any point: the inputs' buffers hold their blocks; at the first point the accumulator is cleared, at a later
    one it holds the fold up to the point before; the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  by_cases h0 : t.val % 5 = 0
  · rw [acc1_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_A c (grid1.coords t) _ _ _ _ _ _ _ _ _ _ _ _ _ _ _ _ _ _ ((hcond1_0 t).mpr h0)
      (agg V c t) (nfeat V c t) (glob V c t) (wgt1 V c t) (bias1 V c t) (wgt2 V c t) (bias2 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc1_B V c t h0]
    simp only [before1_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_B c (grid1.coords t) _ _ _ _ _ _ _ _ _ _ _ _ _ _ _ _ _ _ (fun h => h0 ((hcond1_0 t).mp h))
      (agg V c t) (nfeat V c t) (glob V c t) (wgt1 V c t) (bias1 V c t) (wgt2 V c t) (bias2 V c t)
      (acc1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Node

end
-- ==== Proof.K.Regions.lean ====
import proofs.«426020_j49563922596335_1_alg».proof.Proof.K.EdgeDat
import proofs.«426020_j49563922596335_1_alg».proof.Proof.K.NodeDat
import proofs.«426020_j49563922596335_1_alg».proof.Proof.Gen.Kernel.Regions
import Idealize.ShloMosaic.Lib.Pipeline.Regions
import Idealize.ShloMosaic.Lib.Pipeline.RegionsLoop
import Idealize.ShloMosaic.Lib.Pipeline.FrameSuffix

/-! # The whole program as nine items

@main is seven stretches of host operations and two kernel regions (the edge network over 100 tiles, the node network
over 5 tiles). Between two items a core holds every unscoped buffer at a known valuation: the launch memory carried
through each host stretch by its operations' functions, and through each region by what its pipeline's write-backs
leave in its arrays. This module names those valuations (`W3` … `W9`), states each item as a segment between two of
them, runs the segments from the launch, and reads the results and the arguments off the last valuation. -/

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items: a fold through @main -/

/-- Core `c`'s buffers when the edge region is entered: the launch memory after the three leading host stretches
    (the two gathers of node rows by the edges' two endpoint indices, and the four bias reshapes). -/
abbrev W3 (c : Dev nD) : Valuation τ sig (Elt F) := V3 m c

/-- At the edge region's exit: its arrays at what the pipeline's write-backs leave (an input as entered, an output
    with every flushed block written), every other buffer as entered. -/
def W4 (c : Dev nD) : Valuation τ sig (Elt F) :=
  Pipeline.withArrays spec0 c (W3 m c) fun w => (Edge.dat0 (fun c b => W3 m c b) c).arrAt w cfg0.N
theorem W4_arr (c : Dev nD) (w : Fin cfg0.W) :
    W4 m c (Proc.devRef .tc (Pipeline.arrRef spec0 w)) = (Edge.dat0 (fun c b => W3 m c b) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The region writes only its output arrays: any other buffer — an input window's array included, which no
    write-back touches — leaves the region as it entered. -/
theorem W4_keep (c : Dev nD) (b : Ref sig .tc) (hb : b ∉ ([main_v6_0, main_v6_1, main_v6_2] : List (Ref sig .tc))) :
    W4 m c (Proc.devRef .tc b) = W3 m c (Proc.devRef .tc b) := by
  by_cases h : ∃ w, Pipeline.arrRef spec0 w = b
  · obtain ⟨w, rfl⟩ := h
    have hall : ∀ w : Fin 11, (cfg0.win w).isOut = true → Pipeline.arrRef spec0 w ∈ ([main_v6_0, main_v6_1, main_v6_2] : List (Ref sig .tc)) := by decide
    have hin : (cfg0.win w).isOut = false := by
      cases hO : (cfg0.win w).isOut
      · rfl
      · exact absurd (hall w hO) hb
    exact (W4_arr m c w).trans (((Edge.dat0 (fun c b => W3 m c b) c).arrAt_in w hin _).trans (Edge.A_eq0 _ c w))
  · exact W4_of_ne m c b fun w e => h ⟨w, e⟩
/-- At the exit each array of the region holds what the pipeline leaves, and every other buffer what it held at entry. -/
theorem hF0 (c : Dev nD) (w : Fin cfg0.W) :
    (Edge.dat0 (fun c b => W3 m c b) c).arrAt w cfg0.N = W4 m c (Pipeline.arrRef spec0 w) :=
  (W4_arr m c w).symm
theorem hrest0 (c : Dev nD) : ∀ b : Ref sig .tc, b ∉ Finset.univ.image (Pipeline.arrRef spec0) → W4 m c b = W3 m c b :=
  fun b hb => W4_of_ne m c b fun w e => hb (Finset.mem_image.mpr ⟨w, Finset.mem_univ _, e⟩)

/-- After the host stretch between the regions (the edge messages summed per node over the second endpoint index, and divided by the node's edge count, at least 1). -/
abbrev W5 (c : Dev nD) : Valuation τ sig (Elt F) := StableHlo.after hostOps1 (W4 m c)

/-- At the node region's exit: its arrays at what the pipeline's write-backs leave (an input as entered, an output
    with every flushed block written), every other buffer as entered. -/
def W6 (c : Dev nD) : Valuation τ sig (Elt F) :=
  Pipeline.withArrays spec1 c (W5 m c) fun w => (Node.dat1 (fun c b => W5 m c b) c).arrAt w cfg1.N
theorem W6_arr (c : Dev nD) (w : Fin cfg1.W) :
    W6 m c (Proc.devRef .tc (Pipeline.arrRef spec1 w)) = (Node.dat1 (fun c b => W5 m c b) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The region writes only its output arrays: any other buffer — an input window's array included, which no
    write-back touches — leaves the region as it entered. -/
theorem W6_keep (c : Dev nD) (b : Ref sig .tc) (hb : b ∉ ([main_v19_0, main_v19_1] : List (Ref sig .tc))) :
    W6 m c (Proc.devRef .tc b) = W5 m c (Proc.devRef .tc b) := by
  by_cases h : ∃ w, Pipeline.arrRef spec1 w = b
  · obtain ⟨w, rfl⟩ := h
    have hall : ∀ w : Fin 9, (cfg1.win w).isOut = true → Pipeline.arrRef spec1 w ∈ ([main_v19_0, main_v19_1] : List (Ref sig .tc)) := by decide
    have hin : (cfg1.win w).isOut = false := by
      cases hO : (cfg1.win w).isOut
      · rfl
      · exact absurd (hall w hO) hb
    exact (W6_arr m c w).trans (((Node.dat1 (fun c b => W5 m c b) c).arrAt_in w hin _).trans (Node.A_eq1 _ c w))
  · exact W6_of_ne m c b fun w e => h ⟨w, e⟩
/-- At the exit each array of the region holds what the pipeline leaves, and every other buffer what it held at entry. -/
theorem hF1 (c : Dev nD) (w : Fin cfg1.W) :
    (Node.dat1 (fun c b => W5 m c b) c).arrAt w cfg1.N = W6 m c (Pipeline.arrRef spec1 w) :=
  (W6_arr m c w).symm
theorem hrest1 (c : Dev nD) : ∀ b : Ref sig .tc, b ∉ Finset.univ.image (Pipeline.arrRef spec1) → W6 m c b = W5 m c b :=
  fun b hb => W6_of_ne m c b fun w e => hb (Finset.mem_image.mpr ⟨w, Finset.mem_univ _, e⟩)

/-- After the three trailing host stretches (the global feature's update from the two regions' column sums, each divided by its row count). -/
abbrev W7 (c : Dev nD) : Valuation τ sig (Elt F) := StableHlo.after hostOps2 (W6 m c)
abbrev W8 (c : Dev nD) : Valuation τ sig (Elt F) := StableHlo.after hostOps2_1 (W7 m c)
abbrev W9 (c : Dev nD) : Valuation τ sig (Elt F) := StableHlo.after hostOps2_2 (W8 m c)

/-! ## What no item writes is as launched -/

/-- Every reference some item may write: each host stretch's targets and the two regions' output arrays. -/
abbrev written : List (Ref sig .tc) :=
  hostOps0_W ++ (hostOps0_1_W ++ (hostOps0_2_W ++ ([main_v6_0, main_v6_1, main_v6_2] ++ (hostOps1_W ++ ([main_v19_0, main_v19_1] ++ (hostOps2_W ++ (hostOps2_1_W ++ hostOps2_2_W)))))))

/-- A buffer written by nothing up to the node region's exit holds its launch contents there. -/
theorem W6_keep_launch (c : Dev nD) (b : Ref sig .tc)
    (h : b ∉ hostOps0_W ++ (hostOps0_1_W ++ (hostOps0_2_W ++ ([main_v6_0, main_v6_1, main_v6_2] ++ (hostOps1_W ++ [main_v19_0, main_v19_1]))))) :
    W6 m c (Proc.devRef .tc b) = m ((c : Thread nD τ).loc b) := by
  have h0 : b ∉ hostOps0_W := fun hx => h (List.mem_append_left _ hx)
  have r0 := fun hx => h (List.mem_append_right _ hx)
  have h1 : b ∉ hostOps0_1_W := fun hx => r0 (List.mem_append_left _ hx)
  have r1 := fun hx => r0 (List.mem_append_right _ hx)
  have h2 : b ∉ hostOps0_2_W := fun hx => r1 (List.mem_append_left _ hx)
  have r2 := fun hx => r1 (List.mem_append_right _ hx)
  have h3 : b ∉ ([main_v6_0, main_v6_1, main_v6_2] : List (Ref sig .tc)) := fun hx => r2 (List.mem_append_left _ hx)
  have r3 := fun hx => r2 (List.mem_append_right _ hx)
  have h4 : b ∉ hostOps1_W := fun hx => r3 (List.mem_append_left _ hx)
  have h5 : b ∉ ([main_v19_0, main_v19_1] : List (Ref sig .tc)) := fun hx => r3 (List.mem_append_right _ hx)
  calc W6 m c (Proc.devRef .tc b)
    _ = W5 m c (Proc.devRef .tc b) := W6_keep m c b h5
    _ = W4 m c (Proc.devRef .tc b) := StableHlo.after_of_writes_sub hostOps1 _ hostOps1_writes h4
    _ = W3 m c (Proc.devRef .tc b) := W4_keep m c b h3
    _ = V2 m c (Proc.devRef .tc b) := V3_of m c b h2
    _ = V1 m c (Proc.devRef .tc b) := V2_of m c b h1
    _ = V0 m c (Proc.devRef .tc b) := V1_of m c b h0
    _ = m ((c : Thread nD τ).loc b) := rfl

/-- A buffer nothing writes holds its launch contents at the end. -/
theorem W9_keep (c : Dev nD) (b : Ref sig .tc) (h : b ∉ written) :
    W9 m c (Proc.devRef .tc b) = m ((c : Thread nD τ).loc b) := by
  have hA : b ∉ hostOps0_W ++ (hostOps0_1_W ++ (hostOps0_2_W ++ ([main_v6_0, main_v6_1, main_v6_2] ++ (hostOps1_W ++ [main_v19_0, main_v19_1])))) := by
    intro hx; apply h
    simp only [written, List.mem_append] at hx ⊢
    tauto
  have h6 : b ∉ hostOps2_W := by
    intro hx; apply h; simp only [written, List.mem_append]; tauto
  have h7 : b ∉ hostOps2_1_W := by
    intro hx; apply h; simp only [written, List.mem_append]; tauto
  have h8 : b ∉ hostOps2_2_W := by
    intro hx; apply h; simp only [written, List.mem_append]; tauto
  calc W9 m c (Proc.devRef .tc b)
    _ = W8 m c (Proc.devRef .tc b) := StableHlo.after_of_writes_sub hostOps2_2 _ hostOps2_2_writes h8
    _ = W7 m c (Proc.devRef .tc b) := StableHlo.after_of_writes_sub hostOps2_1 _ hostOps2_1_writes h7
    _ = W6 m c (Proc.devRef .tc b) := StableHlo.after_of_writes_sub hostOps2 _ hostOps2_writes h6
    _ = m ((c : Thread nD τ).loc b) := W6_keep_launch m c b hA

/-! ## Reading the three results -/

/-- The edge region's second output (the updated edge features) reaches the end as the region left it: window 9's array
    after all 100 tiles' write-backs. -/
theorem W9_main_v6_1 (c : Dev nD) :
    W9 m c main_v6_1 = (Edge.dat0 (fun c b => W3 m c b) c).arrAt 9 cfg0.N :=
  calc W9 m c (Proc.devRef .tc main_v6_1)
    _ = W8 m c (Proc.devRef .tc main_v6_1) := StableHlo.after_of_writes_sub hostOps2_2 _ hostOps2_2_writes (by decide)
    _ = W7 m c (Proc.devRef .tc main_v6_1) := StableHlo.after_of_writes_sub hostOps2_1 _ hostOps2_1_writes (by decide)
    _ = W6 m c (Proc.devRef .tc main_v6_1) := StableHlo.after_of_writes_sub hostOps2 _ hostOps2_writes (by decide)
    _ = W5 m c (Proc.devRef .tc main_v6_1) := W6_keep m c main_v6_1 (by decide)
    _ = W4 m c (Proc.devRef .tc main_v6_1) := StableHlo.after_of_writes_sub hostOps1 _ hostOps1_writes (by decide)
    _ = _ := W4_arr m c 9

/-- The node region's first output (the updated node features) reaches the end as the region left it: window 7's array
    after all 5 tiles' write-backs. -/
theorem W9_main_v19_0 (c : Dev nD) :
    W9 m c main_v19_0 = (Node.dat1 (fun c b => W5 m c b) c).arrAt 7 cfg1.N :=
  calc W9 m c (Proc.devRef .tc main_v19_0)
    _ = W8 m c (Proc.devRef .tc main_v19_0) := StableHlo.after_of_writes_sub hostOps2_2 _ hostOps2_2_writes (by decide)
    _ = W7 m c (Proc.devRef .tc main_v19_0) := StableHlo.after_of_writes_sub hostOps2_1 _ hostOps2_1_writes (by decide)
    _ = W6 m c (Proc.devRef .tc main_v19_0) := StableHlo.after_of_writes_sub hostOps2 _ hostOps2_writes (by decide)
    _ = _ := W6_arr m c 7

/-- The third result (the updated global feature) is the trailing host stretches' function of the buffers the node
    region leaves. -/
theorem W9_main_v32 (c : Dev nD) :
    W9 m c main_v32 = StableHlo.after hostOps2_2 (StableHlo.after hostOps2_1 (StableHlo.after hostOps2 (W6 m c))) main_v32 := rfl

/-- What the trailing stretches read of the regions: the node region's column sums (its window 8), -/
theorem W6_main_v19_1 (c : Dev nD) :
    W6 m c main_v19_1 = (Node.dat1 (fun c b => W5 m c b) c).arrAt 8 cfg1.N := W6_arr m c 8
/-- the edge region's column sums (its window 10), which neither the host stretch between the regions nor the node region writes, -/
theorem W6_main_v6_2 (c : Dev nD) :
    W6 m c main_v6_2 = (Edge.dat0 (fun c b => W3 m c b) c).arrAt 10 cfg0.N :=
  calc W6 m c (Proc.devRef .tc main_v6_2)
    _ = W5 m c (Proc.devRef .tc main_v6_2) := W6_keep m c main_v6_2 (by decide)
    _ = W4 m c (Proc.devRef .tc main_v6_2) := StableHlo.after_of_writes_sub hostOps1 _ hostOps1_writes (by decide)
    _ = _ := W4_arr m c 10
/-- and five arguments, as launched. -/
theorem W6_main_arg2 (c : Dev nD) : W6 m c main_arg2 = m ((c : Thread nD τ).loc main_arg2) := W6_keep_launch m c main_arg2 (by decide)
theorem W6_main_arg11 (c : Dev nD) : W6 m c main_arg11 = m ((c : Thread nD τ).loc main_arg11) := W6_keep_launch m c main_arg11 (by decide)
theorem W6_main_arg12 (c : Dev nD) : W6 m c main_arg12 = m ((c : Thread nD τ).loc main_arg12) := W6_keep_launch m c main_arg12 (by decide)
theorem W6_main_arg13 (c : Dev nD) : W6 m c main_arg13 = m ((c : Thread nD τ).loc main_arg13) := W6_keep_launch m c main_arg13 (by decide)
theorem W6_main_arg14 (c : Dev nD) : W6 m c main_arg14 = m ((c : Thread nD τ).loc main_arg14) := W6_keep_launch m c main_arg14 (by decide)

/-! ## The proof data and the thread state -/

/-- Both pipelines' proof data, each at its region's entry contents (a literal match on the pipeline's index, so that
    the configuration at a numeral reduces to the printed one). -/
def pdats : (p : Fin 2) → (c : Dev nD) → Dat τ (Elt F) Unit ℕ (UR sig nD τ) ℕ (Pipeline.pin (pcfgs (F := F)) adm p) c
  | ⟨0, _⟩ => fun c => Edge.dat0 (fun c b => W3 m c b) c
  | ⟨1, _⟩ => fun c => Node.dat1 (fun c b => W5 m c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its dues at nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along: it ends at
    the stretch's function of `W`, which is the next valuation of the fold by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the dues: every unscoped buffer at `W9`, the generator register at some state. -/
abbrev Tₙ (c : Dev nD) : sProp 𝕄 := iprop(StableHlo.held (c : Thread nD τ) (Pipeline.ucRefs τ sig) (W9 m c) ∗ ∃ r, prngReg c r)

/-- The last item leaves the thread state the run ends at: the same resources, regrouped. -/
theorem last_post (c : Dev nD) :
    (iprop(StableHlo.held (c : Thread nD τ) (Pipeline.ucRefs τ sig) (W9 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- Region 0 over the thread state: entered with every unscoped buffer at `W3`, left with them at `W4`. Its
    arrays are split out of the unscoped buffers at entry and put back at their final contents at exit; the generator
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation0 (fun c b => W3 m c b) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (fun b => W3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => W3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => W3 m c b) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its
    arrays are split out of the unscoped buffers at entry and put back at their final contents at exit; the generator
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation1 (fun c b => W5 m c b) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (fun b => W5 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => W5 m c b) (fun b => W6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its nine items, and the launch -/

/-- @main's items in order: a host segment per stretch from the valuation before it, a region per kernel. -/
abbrev items : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)) ]

/-- @main is the run of the items: it is the chain of their programs. -/
theorem main_run (c : Dev nD) : main (F := F) c = Pipeline.Seg.run (items m) := by
  rw [main_chain c, Pipeline.Seg.run_eq_chain]
  rfl

set_option backward.isDefEq.respectTransparency.types false in
/-- From any memory with zero counters, every weakly fair execution of @main terminates, and in every final state each
    core's unscoped buffers hold the last valuation of the fold. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W9 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => last_post m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- THE FRAME: every argument array ends holding its launch contents — none is written by any item, so the last
    valuation at it walks back to the launch memory. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W9_keep m c main_arg0 (by decide)),
      (h c _ (mem_uc main_arg1 (by decide))).trans (W9_keep m c main_arg1 (by decide)),
      (h c _ (mem_uc main_arg2 (by decide))).trans (W9_keep m c main_arg2 (by decide)),
      (h c _ (mem_uc main_arg3 (by decide))).trans (W9_keep m c main_arg3 (by decide)),
      (h c _ (mem_uc main_arg4 (by decide))).trans (W9_keep m c main_arg4 (by decide)),
      (h c _ (mem_uc main_arg5 (by decide))).trans (W9_keep m c main_arg5 (by decide)),
      (h c _ (mem_uc main_arg6 (by decide))).trans (W9_keep m c main_arg6 (by decide)),
      (h c _ (mem_uc main_arg7 (by decide))).trans (W9_keep m c main_arg7 (by decide)),
      (h c _ (mem_uc main_arg8 (by decide))).trans (W9_keep m c main_arg8 (by decide)),
      (h c _ (mem_uc main_arg9 (by decide))).trans (W9_keep m c main_arg9 (by decide)),
      (h c _ (mem_uc main_arg10 (by decide))).trans (W9_keep m c main_arg10 (by decide)),
      (h c _ (mem_uc main_arg11 (by decide))).trans (W9_keep m c main_arg11 (by decide)),
      (h c _ (mem_uc main_arg12 (by decide))).trans (W9_keep m c main_arg12 (by decide)),
      (h c _ (mem_uc main_arg13 (by decide))).trans (W9_keep m c main_arg13 (by decide)),
      (h c _ (mem_uc main_arg14 (by decide))).trans (W9_keep m c main_arg14 (by decide)),
      (h c _ (mem_uc main_arg15 (by decide))).trans (W9_keep m c main_arg15 (by decide)),
      (h c _ (mem_uc main_arg16 (by decide))).trans (W9_keep m c main_arg16 (by decide))⟩) (run_all m ρ)

/-- THE RESULTS AND THE FRAME TOGETHER: every final state holds the three results at the last valuation of the fold
    (the updated node features, the updated edge features, the updated global feature) and every argument as launched. -/
theorem run_results (ρ : Dev nD → PrngReg) : θ_run defs (onTc (τ := τ) (main (F := F))) ⟨m, fun _ => 0, ρ⟩ (fun r => ∀ c : Dev nD,
      r.2.mem ((c.tc : Thread nD τ).loc main_v19_0) = W9 m c main_v19_0
      ∧ r.2.mem ((c.tc : Thread nD τ).loc main_v6_1) = W9 m c main_v6_1
      ∧ r.2.mem ((c.tc : Thread nD τ).loc main_v32) = W9 m c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v19_0 (by decide)),
      h c _ (mem_uc main_v6_1 (by decide)),
      h c _ (mem_uc main_v32 (by decide)),
      (h c _ (mem_uc main_arg0 (by decide))).trans (W9_keep m c main_arg0 (by decide)),
      (h c _ (mem_uc main_arg1 (by decide))).trans (W9_keep m c main_arg1 (by decide)),
      (h c _ (mem_uc main_arg2 (by decide))).trans (W9_keep m c main_arg2 (by decide)),
      (h c _ (mem_uc main_arg3 (by decide))).trans (W9_keep m c main_arg3 (by decide)),
      (h c _ (mem_uc main_arg4 (by decide))).trans (W9_keep m c main_arg4 (by decide)),
      (h c _ (mem_uc main_arg5 (by decide))).trans (W9_keep m c main_arg5 (by decide)),
      (h c _ (mem_uc main_arg6 (by decide))).trans (W9_keep m c main_arg6 (by decide)),
      (h c _ (mem_uc main_arg7 (by decide))).trans (W9_keep m c main_arg7 (by decide)),
      (h c _ (mem_uc main_arg8 (by decide))).trans (W9_keep m c main_arg8 (by decide)),
      (h c _ (mem_uc main_arg9 (by decide))).trans (W9_keep m c main_arg9 (by decide)),
      (h c _ (mem_uc main_arg10 (by decide))).trans (W9_keep m c main_arg10 (by decide)),
      (h c _ (mem_uc main_arg11 (by decide))).trans (W9_keep m c main_arg11 (by decide)),
      (h c _ (mem_uc main_arg12 (by decide))).trans (W9_keep m c main_arg12 (by decide)),
      (h c _ (mem_uc main_arg13 (by decide))).trans (W9_keep m c main_arg13 (by decide)),
      (h c _ (mem_uc main_arg14 (by decide))).trans (W9_keep m c main_arg14 (by decide)),
      (h c _ (mem_uc main_arg15 (by decide))).trans (W9_keep m c main_arg15 (by decide)),
      (h c _ (mem_uc main_arg16 (by decide))).trans (W9_keep m c main_arg16 (by decide))⟩) (run_all m ρ)

end Cert.Kernel.Whole

end
-- ==== Proof.KI.EdgeDat.lean ====
/- The edge region (the first kernel launch of the graph-network step: a two-layer perceptron over tiles of
   8000 edges, with a running column sum of its raw output carried from tile to tile): what each window's buffer
   holds after the body at each grid point, and the body's obligation to the pipeline. -/
import proofs.«426020_j49563922596335_1_alg».proof.Proof.Gen.KernelIdeal.Launch
import proofs.«426020_j49563922596335_1_alg».proof.Proof.Gen.KernelIdeal.Skeleton
import proofs.«426020_j49563922596335_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The unscoped buffers' contents when the region is entered, per core: a parameter of everything below.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The eight inputs' blocks, by their literal types

Three tiles of 8000 rows that move with the point (the source-node rows, the destination-node rows, the edge
rows) and five small arrays that do not (the global row, the first layer's weights and bias, the second layer's
weights and bias). -/

/-- The source-node rows of tile `t`. -/
abbrev xs (c : Dev nD) (t : Fin cfg0.N) : Vec F S8000x64 .f32 := iblk0 V c 0 t
/-- The destination-node rows of tile `t`. -/
abbrev xd (c : Dev nD) (t : Fin cfg0.N) : Vec F S8000x64 .f32 := iblk0 V c 1 t
/-- The edge rows of tile `t`. -/
abbrev ef (c : Dev nD) (t : Fin cfg0.N) : Vec F S8000x64 .f32 := iblk0 V c 2 t
/-- The global row. -/
abbrev gu (c : Dev nD) (t : Fin cfg0.N) : Vec F S1x64 .f32 := iblk0 V c 3 t
/-- The first layer's weights (four stacked 64-row blocks). -/
abbrev ew1 (c : Dev nD) (t : Fin cfg0.N) : Vec F S256x128 .f32 := iblk0 V c 4 t
/-- The first layer's bias. -/
abbrev eb1 (c : Dev nD) (t : Fin cfg0.N) : Vec F S1x128 .f32 := iblk0 V c 5 t
/-- The second layer's weights. -/
abbrev ew2 (c : Dev nD) (t : Fin cfg0.N) : Vec F S128x64 .f32 := iblk0 V c 6 t
/-- The second layer's bias. -/
abbrev eb2 (c : Dev nD) (t : Fin cfg0.N) : Vec F S1x64 .f32 := iblk0 V c 7 t

/-! ## The reset's condition -/

/-- The condition under which the body resets the running sum: the grid coordinate is zero (the body's scalar
    chain substituted). -/
abbrev cond0_0 (i : grid0.Coords) : Prop := (Scalar.cmpi .ne (Scalar.extui (Scalar.cmpi .eq (BitVec.ofNat 32 (i 0).val) 0#32)) 0#32) = 1#1
/-- It holds at the first point only: decided over the grid's 100 points. -/
theorem hcond0_0 : ∀ t : Fin cfg0.N, cond0_0 (grid0.coords t) ↔ t.val % 100 = 0 :=
  (by decide +kernel : ∀ t : Fin grid0.N, cond0_0 (grid0.coords t) ↔ t.val % 100 = 0)

/-! ## Whole-buffer accesses -/

omit [FloatOps F] in
/-- The offsets `(0, 0)` are the zero offsets. -/
theorem hz : (![0, 0] : Fin 2 → Nat) = fun _ => 0 := funext fun a => by fin_cases a <;> rfl

/-- A list of writes whose LAST write fills the whole shape (the unit rectangle at zero offsets) covers every index. -/
theorem cover_whole {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-! ## The body on any whole staging memrefs

Every load reads a whole buffer and every store fills one, so each output's buffer ends at the payload of its last
store, a function of the eight inputs' contents (and, for the running sum, of what its buffer held). The two runs
differ only in the reset: at the first point the running sum's buffer is zeroed and then added to; at every later
point it is added to as found. -/

set_option maxHeartbeats 4000000 in
/-- THE FIRST POINT. On whole staging memrefs, the inputs' at contents `x0 … x7` and the outputs' at anything, the
    body leaves the inputs' as they were, the raw output's at the perceptron's value, the residual output's at that
    plus the edge rows, and the running sum's at the column sum of the raw output added to zero. -/
theorem run0_A (c : Dev nD) (E : Set ℕ) (i : grid0.Coords)
    (arg1 : Memref sig .tc .vmem S8000x64 .f32) (harg1 : arg1.IsWhole) (arg2 : Memref sig .tc .vmem S8000x64 .f32) (harg2 : arg2.IsWhole)
    (arg3 : Memref sig .tc .vmem S8000x64 .f32) (harg3 : arg3.IsWhole) (arg4 : Memref sig .tc .vmem S1x64 .f32) (harg4 : arg4.IsWhole)
    (arg5 : Memref sig .tc .vmem S256x128 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S8000x64 .f32) (harg9 : arg9.IsWhole) (arg10 : Memref sig .tc .vmem S8000x64 .f32) (harg10 : arg10.IsWhole)
    (arg11 : Memref sig .tc .vmem S1x64 .f32) (harg11 : arg11.IsWhole) (hc0 : cond0_0 i)
    (x0 x1 x2 : Vec F S8000x64 .f32) (x3 : Vec F S1x64 .f32) (x4 : Vec F S256x128 .f32) (x5 : Vec F S1x128 .f32)
    (x6 : Vec F S128x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (k0_pay1 (k0_pay5 x6) (k0_pay6 x7) (k0_pay7 x0 x1 x2 x3 x4 x5) (Scalar.ofBits .f32 0x00000000#32))
            ∗ owns (c : Thread nD τ) arg10 fullShare (k0_pay2 (k0_pay5 x6) (k0_pay6 x7) (k0_pay7 x0 x1 x2 x3 x4 x5) (Scalar.ofBits .f32 0x00000000#32) x2)
            ∗ owns (c : Thread nD τ) arg11 fullShare (k0_pay3 (k0_pay5 x6) (k0_pay6 x7) (k0_pay7 x0 x1 x2 x3 x4 x5) (Scalar.ofBits .f32 0x00000000#32) k0_pay4)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | exact hc0)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H5]; · iexists _; isplitr; · ipureintro; exact harg6.read_unread _
                  iexact H5
  isplitl [H6]; · iexists _; isplitr; · ipureintro; exact harg7.read_unread _
                  iexact H6
  isplitl [H7]; · iexists _; isplitr; · ipureintro; exact harg8.read_unread _
                  iexact H7
  isplitl [H8]
  · iexists _; isplitr
    swap; · iexact H8
    ipureintro
    rw [View.read_writes_eq_canon _ _ _ (cover_whole (S := S8000x64) hz inb_S8000x64_S8000x64_0_0 _ _)]
    sl_unfold_words
    dsimp only
    rw [View.canon_unit_zero (S := S8000x64) hz]
    simp only [View.readAt_eq_ld, harg1.read_unread, harg2.read_unread, harg3.read_unread, harg4.read_unread, harg5.read_unread,
      harg6.read_unread, harg7.read_unread, harg8.read_unread, View.ld_unit_zero (S := S8000x64) hz, View.ld_unit_zero (S := S1x64) hz,
      View.ld_unit_zero (S := S256x128) hz, View.ld_unit_zero (S := S1x128) hz, View.ld_unit_zero (S := S128x64) hz]
  isplitl [H9]
  · iexists _; isplitr
    swap; · iexact H9
    ipureintro
    rw [View.read_writes_eq_canon _ _ _ (cover_whole (S := S8000x64) hz inb_S8000x64_S8000x64_0_0 _ _)]
    sl_unfold_words
    dsimp only
    rw [View.canon_unit_zero (S := S8000x64) hz]
    simp only [View.readAt_eq_ld, harg1.read_unread, harg2.read_unread, harg3.read_unread, harg4.read_unread, harg5.read_unread,
      harg6.read_unread, harg7.read_unread, harg8.read_unread, View.ld_unit_zero (S := S8000x64) hz, View.ld_unit_zero (S := S1x64) hz,
      View.ld_unit_zero (S := S256x128) hz, View.ld_unit_zero (S := S1x128) hz, View.ld_unit_zero (S := S128x64) hz]
  iexists _; isplitr
  swap; · iexact H10
  ipureintro
  rw [View.read_writes_eq_canon _ _ _ (cover_whole (S := S1x64) hz inb_S1x64_S1x64_0_0 _ _)]
  sl_unfold_words
  dsimp only
  rw [View.canon_cons_unit_zero (S := S1x64) hz, View.readCov_unit_zero (S := S1x64) _ hz]
  simp only [View.readAt_eq_ld, harg1.read_unread, harg2.read_unread, harg3.read_unread, harg4.read_unread, harg5.read_unread,
    harg6.read_unread, harg7.read_unread, harg8.read_unread, View.ld_unit_zero (S := S8000x64) hz, View.ld_unit_zero (S := S1x64) hz,
    View.ld_unit_zero (S := S256x128) hz, View.ld_unit_zero (S := S1x128) hz, View.ld_unit_zero (S := S128x64) hz]

set_option maxHeartbeats 4000000 in
/-- EVERY LATER POINT. The same, the running sum's buffer held at `xo`: it ends at the column sum of the raw
    output added to `xo`. -/
theorem run0_B (c : Dev nD) (E : Set ℕ) (i : grid0.Coords)
    (arg1 : Memref sig .tc .vmem S8000x64 .f32) (harg1 : arg1.IsWhole) (arg2 : Memref sig .tc .vmem S8000x64 .f32) (harg2 : arg2.IsWhole)
    (arg3 : Memref sig .tc .vmem S8000x64 .f32) (harg3 : arg3.IsWhole) (arg4 : Memref sig .tc .vmem S1x64 .f32) (harg4 : arg4.IsWhole)
    (arg5 : Memref sig .tc .vmem S256x128 .f32) (harg5 : arg5.IsWhole) (arg6 : Memref sig .tc .vmem S1x128 .f32) (harg6 : arg6.IsWhole)
    (arg7 : Memref sig .tc .vmem S128x64 .f32) (harg7 : arg7.IsWhole) (arg8 : Memref sig .tc .vmem S1x64 .f32) (harg8 : arg8.IsWhole)
    (arg9 : Memref sig .tc .vmem S8000x64 .f32) (harg9 : arg9.IsWhole) (arg10 : Memref sig .tc .vmem S8000x64 .f32) (harg10 : arg10.IsWhole)
    (arg11 : Memref sig .tc .vmem S1x64 .f32) (harg11 : arg11.IsWhole) (hc0 : ¬cond0_0 i)
    (x0 x1 x2 : Vec F S8000x64 .f32) (x3 : Vec F S1x64 .f32) (x4 : Vec F S256x128 .f32) (x5 : Vec F S1x128 .f32)
    (x6 : Vec F S128x64 .f32) (x7 : Vec F S1x64 .f32) (xo : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ owns (c : Thread nD τ) arg11 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (k0_pay1 (k0_pay5 x6) (k0_pay6 x7) (k0_pay7 x0 x1 x2 x3 x4 x5) (Scalar.ofBits .f32 0x00000000#32))
            ∗ owns (c : Thread nD τ) arg10 fullShare (k0_pay2 (k0_pay5 x6) (k0_pay6 x7) (k0_pay7 x0 x1 x2 x3 x4 x5) (Scalar.ofBits .f32 0x00000000#32) x2)
            ∗ owns (c : Thread nD τ) arg11 fullShare (k0_pay3 (k0_pay5 x6) (k0_pay6 x7) (k0_pay7 x0 x1 x2 x3 x4 x5) (Scalar.ofBits .f32 0x00000000#32) xo)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg11.eq_unread hf10
  sl_exec (disch := first | exact hc0)
  sl_step
  iapply Hk
  isplitl [H0]; · iexists _; isplitr; · ipureintro; exact harg1.read_unread _
                  iexact H0
  isplitl [H1]; · iexists _; isplitr; · ipureintro; exact harg2.read_unread _
                  iexact H1
  isplitl [H2]; · iexists _; isplitr; · ipureintro; exact harg3.read_unread _
                  iexact H2
  isplitl [H3]; · iexists _; isplitr; · ipureintro; exact harg4.read_unread _
                  iexact H3
  isplitl [H4]; · iexists _; isplitr; · ipureintro; exact harg5.read_unread _
                  iexact H4
  isplitl [H5]; · iexists _; isplitr; · ipureintro; exact harg6.read_unread _
                  iexact H5
  isplitl [H6]; · iexists _; isplitr; · ipureintro; exact harg7.read_unread _
                  iexact H6
  isplitl [H7]; · iexists _; isplitr; · ipureintro; exact harg8.read_unread _
                  iexact H7
  isplitl [H8]
  · iexists _; isplitr
    swap; · iexact H8
    ipureintro
    rw [View.read_writes_eq_canon _ _ _ (cover_whole (S := S8000x64) hz inb_S8000x64_S8000x64_0_0 _ _)]
    sl_unfold_words
    dsimp only
    rw [View.canon_unit_zero (S := S8000x64) hz]
    simp only [View.readAt_eq_ld, harg1.read_unread, harg2.read_unread, harg3.read_unread, harg4.read_unread, harg5.read_unread,
      harg6.read_unread, harg7.read_unread, harg8.read_unread, View.ld_unit_zero (S := S8000x64) hz, View.ld_unit_zero (S := S1x64) hz,
      View.ld_unit_zero (S := S256x128) hz, View.ld_unit_zero (S := S1x128) hz, View.ld_unit_zero (S := S128x64) hz]
  isplitl [H9]
  · iexists _; isplitr
    swap; · iexact H9
    ipureintro
    rw [View.read_writes_eq_canon _ _ _ (cover_whole (S := S8000x64) hz inb_S8000x64_S8000x64_0_0 _ _)]
    sl_unfold_words
    dsimp only
    rw [View.canon_unit_zero (S := S8000x64) hz]
    simp only [View.readAt_eq_ld, harg1.read_unread, harg2.read_unread, harg3.read_unread, harg4.read_unread, harg5.read_unread,
      harg6.read_unread, harg7.read_unread, harg8.read_unread, View.ld_unit_zero (S := S8000x64) hz, View.ld_unit_zero (S := S1x64) hz,
      View.ld_unit_zero (S := S256x128) hz, View.ld_unit_zero (S := S1x128) hz, View.ld_unit_zero (S := S128x64) hz]
  iexists _; isplitr
  swap; · iexact H10
  ipureintro
  rw [View.read_writes_eq_canon _ _ _ (cover_whole (S := S1x64) hz inb_S1x64_S1x64_0_0 _ _)]
  sl_unfold_words
  dsimp only
  rw [View.canon_unit_zero (S := S1x64) hz]
  simp only [View.readAt_eq_ld, harg1.read_unread, harg2.read_unread, harg3.read_unread, harg4.read_unread, harg5.read_unread,
    harg6.read_unread, harg7.read_unread, harg8.read_unread, harg11.read_unread, View.ld_unit_zero (S := S8000x64) hz, View.ld_unit_zero (S := S1x64) hz,
    View.ld_unit_zero (S := S256x128) hz, View.ld_unit_zero (S := S1x128) hz, View.ld_unit_zero (S := S128x64) hz]

/-! ## The running sum, point by point -/

/-- The first layer's pre-activation on tile `t`: the three row tiles and the global row against the four stacked
    blocks of the first layer's weights, plus its bias. -/
def hid0 (c : Dev nD) (t : Fin cfg0.N) : FVec F S8000x128 .f32 :=
  k0_pay7 (xs V c t) (xd V c t) (ef V c t) (gu V c t) (ew1 V c t) (eb1 V c t)

theorem hid0_eq (c : Dev nD) (t : Fin cfg0.N) :
    hid0 V c t = k0_pay7 (xs V c t) (xd V c t) (ef V c t) (gu V c t) (ew1 V c t) (eb1 V c t) := rfl

/-- What the running sum's buffer holds after the body at position `n`: at the first point the column sum of the raw
    output of tile 0 added to the cleared row; at a later point that of tile `n` added to what the point before left
    (the buffer is not written back between points: the block index does not move). -/
def acc0 (c : Dev nD) : (n : ℕ) → n < cfg0.N → Vec F S1x64 .f32
  | 0, h => k0_pay3 (k0_pay5 (ew2 V c ⟨0, h⟩)) (k0_pay6 (eb2 V c ⟨0, h⟩)) (hid0 V c ⟨0, h⟩) (Scalar.ofBits .f32 0x00000000#32) k0_pay4
  | n + 1, h => k0_pay3 (k0_pay5 (ew2 V c ⟨n + 1, h⟩)) (k0_pay6 (eb2 V c ⟨n + 1, h⟩)) (hid0 V c ⟨n + 1, h⟩) (Scalar.ofBits .f32 0x00000000#32)
      (acc0 c n (Nat.lt_of_succ_lt h))

theorem acc0_zero (c : Dev nD) (h : 0 < cfg0.N) :
    acc0 V c 0 h = k0_pay3 (k0_pay5 (ew2 V c ⟨0, h⟩)) (k0_pay6 (eb2 V c ⟨0, h⟩)) (hid0 V c ⟨0, h⟩) (Scalar.ofBits .f32 0x00000000#32) k0_pay4 := rfl

theorem acc0_succ (c : Dev nD) (n : ℕ) (h : n + 1 < cfg0.N) :
    acc0 V c (n + 1) h = k0_pay3 (k0_pay5 (ew2 V c ⟨n + 1, h⟩)) (k0_pay6 (eb2 V c ⟨n + 1, h⟩)) (hid0 V c ⟨n + 1, h⟩) (Scalar.ofBits .f32 0x00000000#32)
      (acc0 V c n (Nat.lt_of_succ_lt h)) := rfl

/-- At the first point the sum starts from the cleared row. -/
theorem acc0_A (c : Dev nD) (t : Fin cfg0.N) (h0 : t.val % 100 = 0) :
    acc0 V c t.val t.isLt = k0_pay3 (k0_pay5 (ew2 V c t)) (k0_pay6 (eb2 V c t)) (hid0 V c t) (Scalar.ofBits .f32 0x00000000#32) k0_pay4 := by
  have hN : t.val < 100 := lt_of_lt_of_eq t.isLt (show cfg0.N = 100 from N_0)
  obtain ⟨n, hn⟩ := t
  cases n with
  | zero => exact rfl
  | succ n => exact (by exfalso; (try dsimp only at h0 hN); omega)

/-- At a later point it continues from what the point before left. -/
theorem acc0_B (c : Dev nD) (t : Fin cfg0.N) (h0 : ¬t.val % 100 = 0) :
    acc0 V c t.val t.isLt = k0_pay3 (k0_pay5 (ew2 V c t)) (k0_pay6 (eb2 V c t)) (hid0 V c t) (Scalar.ofBits .f32 0x00000000#32)
      (acc0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the edge pipeline on core `c`: the arrays as the region finds them (`V`); after the body at
    point `t` each input's buffer at its block, the raw output's at the perceptron's value on the tile, the residual
    output's at that plus the edge rows, the running sum's at `acc0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => k0_pay1 (k0_pay5 (ew2 V c t)) (k0_pay6 (eb2 V c t)) (hid0 V c t) (Scalar.ofBits .f32 0x00000000#32)
    | ⟨9, _⟩ => k0_pay2 (k0_pay5 (ew2 V c t)) (k0_pay6 (eb2 V c t)) (hid0 V c t) (Scalar.ofBits .f32 0x00000000#32) (ef V c t)
    | ⟨10, _⟩ => acc0 V c t.val t.isLt
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
/-- The raw output's block: the perceptron's value on the tile. -/
theorem after0_8 (c : Dev nD) (t : Fin cfg0.N) :
    (dat0 V c).after 8 t
      = k0_pay1 (k0_pay5 (ew2 V c t)) (k0_pay6 (eb2 V c t)) (k0_pay7 (xs V c t) (xd V c t) (ef V c t) (gu V c t) (ew1 V c t) (eb1 V c t))
          (Scalar.ofBits .f32 0x00000000#32) := by
  dsimp only [dat0, hid0]
/-- The residual output's block: the raw output plus the edge rows. -/
theorem after0_9 (c : Dev nD) (t : Fin cfg0.N) :
    (dat0 V c).after 9 t
      = k0_pay2 (k0_pay5 (ew2 V c t)) (k0_pay6 (eb2 V c t)) (k0_pay7 (xs V c t) (xd V c t) (ef V c t) (gu V c t) (ew1 V c t) (eb1 V c t))
          (Scalar.ofBits .f32 0x00000000#32) (ef V c t) := by
  dsimp only [dat0, hid0]
/-- The running sum's block. -/
theorem after0_10 (c : Dev nD) (t : Fin cfg0.N) : (dat0 V c).after 10 t = acc0 V c t.val t.isLt := by dsimp only [dat0]

/-! ## What the body finds in each buffer -/

/-- An input's current staging buffer holds its block at every point, fetched there or not: unfetched, its block index has not moved (the windows are uncut and never idle). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- The same for the destination-node rows, -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- the edge rows, -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- the global row (fetched at the first point only, its block index constant), -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- the first layer's weights, -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- the first layer's bias, -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- the second layer's weights, -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
/-- and the second layer's bias. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-- At a later point the running sum's buffer holds what the body left at the point before: it is written back at the
    last point only, and the window is live and uncut. -/
theorem before0_10_B (c : Dev nD) (t : Fin cfg0.N) (h0 : ¬t.val % 100 = 0) (d) :
    (dat0 V c).before 10 t d = acc0 V c (t.val - 1) (Nat.lt_of_le_of_lt (Nat.sub_le _ _) t.isLt) := by
  have hN : t.val < 100 := lt_of_lt_of_eq t.isLt (show cfg0.N = 100 from N_0)
  rw [Dat.before_out_kept _ 10 rfl t (by omega) (Bool.eq_false_iff.mpr fun h => by have := (flush0_10 _).mp h; dsimp only at this; omega)
    (fun _ => rfl) (fun _ _ => rfl)]
  dsimp only [dat0]

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1600000 in
/-- The body at any point. The inputs' memrefs hold their blocks; the two tile outputs' hold anything (each is stored
    whole); the point is the first or a later one: at the first the running sum's buffer holds anything and the body
    resets it, at a later one it holds what the point before left. So the matching run applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  by_cases h0 : t.val % 100 = 0
  · rw [acc0_A V c t h0, hid0_eq]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run0_A c Set.univ (grid0.coords t) _ _ _ _ _ _ _ _ _ _ _ _ _ _ _ _ _ _ _ _ _ _ ((hcond0_0 t).mpr h0)
      (xs V c t) (xd V c t) (ef V c t) (gu V c t) (ew1 V c t) (eb1 V c t) (ew2 V c t) (eb2 V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc0_B V c t h0, hid0_eq]
    simp only [before0_10_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run0_B c Set.univ (grid0.coords t) _ _ _ _ _ _ _ _ _ _ _ _ _ _ _ _ _ _ _ _ _ _ (fun h => h0 ((hcond0_0 t).mp h))
      (xs V c t) (xd V c t) (ef V c t) (gu V c t) (ew1 V c t) (eb1 V c t) (ew2 V c t) (eb2 V c t)
      (acc0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Edge

end
-- ==== Proof.KI.NodeDat.lean ====
/- The node region (the second kernel: the node network over 50000 nodes in five row tiles of 10000): what each
   window's buffer holds after the body at every grid point, and the body's triple at every point.

   At a point the body forms, from the tile of aggregated messages, the tile of node features, the global feature row and the
   two layers' weights and biases, the tile's new features h (a two-layer network with a rectifier between the layers); it
   writes h + (node features) over its output tile, and adds the column sums of h into a 1x64 accumulator that it first
   clears at the first point. The accumulator's block never moves and is written back after the last point only, so its
   contents are a left fold over the points: acc₀ = colsum(h₀) + 0, accₙ₊₁ = colsum(hₙ₊₁) + accₙ. -/
import proofs.«426020_j49563922596335_1_alg».proof.Proof.Gen.KernelIdeal.Launch
import proofs.«426020_j49563922596335_1_alg».proof.Proof.Gen.KernelIdeal.Skeleton
import proofs.«426020_j49563922596335_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the first point -/

/-- The condition under which the body clears the accumulator, from the grid coordinates. -/
abbrev cond1_0 (i : grid1.Coords) : Prop :=
  (Scalar.cmpi .ne (Scalar.extui (Scalar.cmpi .eq (BitVec.ofNat 32 (i 0).val) 0#32)) 0#32) = 1#1

/-- It holds at the first of the five points and at no other. -/
theorem hcond1_0 : ∀ t : Fin cfg1.N, cond1_0 (grid1.coords t) ↔ t.val % 5 = 0 :=
  (by decide +kernel : ∀ t : Fin grid1.N, cond1_0 (grid1.coords t) ↔ t.val % 5 = 0)

/-! ## Whole-buffer accesses -/

/-- The offsets of every access of the body: both zero. -/
theorem hz2 : (![0, 0] : Fin 2 → Nat) = fun _ => 0 := funext fun a => by fin_cases a <;> rfl

/-- A store through the whole buffer, made last, is all that a read of the buffer sees afterwards. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-! ## The body's triple, case by case

On whole buffers, the seven inputs' at contents x0 … x6, the body runs to a state in which the inputs' buffers are as
they were, the output tile's buffer holds h + x1 and the accumulator's buffer holds colsum(h) + a, where
h = k1_pay4 x0 x1 x2 x3 x5 x4 x6 (the second layer's weights are loaded before the first layer's bias) and a is the
cleared accumulator at the first point (case A) and what the buffer held on entry at the later ones (case B). The output
tile's buffer is read before it is written (the value is not used), so it is handed over at some contents. -/

set_option maxHeartbeats 1000000 in
/-- Case A, the first point: the accumulator's buffer is handed over at some contents, cleared, read back and added to. -/
theorem run1_A (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S192x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (hc0 : cond1_0 i)
    (x0 : Vec F S10000x64 .f32) (x1 : Vec F S10000x64 .f32) (x2 : Vec F S1x64 .f32) (x3 : Vec F S192x128 .f32) (x4 : Vec F S1x128 .f32) (x5 : Vec F S128x64 .f32) (x6 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay1 (k1_pay4 x0 x1 x2 x3 x5 x4 x6) x1)
            ∗ owns (c : Thread nD τ) arg9 fullShare (k1_pay2 (k1_pay4 x0 x1 x2 x3 x5 x4 x6) k1_pay3)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9) K := by
  simp only [cc1__node_kernel_eq_skeleton]; unfold cc1__node_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    sl_unfold_words
    simp only [View.readAt_eq_ld, harg1.read_unread, harg2.read_unread, harg3.read_unread, harg4.read_unread, harg5.read_unread,
      harg6.read_unread, harg7.read_unread, View.ld_unit_zero (S := S10000x64) hz2, View.ld_unit_zero (S := S1x64) hz2,
      View.ld_unit_zero (S := S192x128) hz2, View.ld_unit_zero (S := S1x128) hz2, View.ld_unit_zero (S := S128x64) hz2]
  iexists _; isplitr
  swap; · iexact H8
  ipureintro
  refine (read_writes_whole _ _ hz2 _ _ _).trans ?_
  sl_unfold_words
  rw [View.readCov_unit_zero (S := S1x64) _ hz2]
  simp only [View.readAt_eq_ld, harg1.read_unread, harg2.read_unread, harg3.read_unread, harg4.read_unread, harg5.read_unread,
      harg6.read_unread, harg7.read_unread, View.ld_unit_zero (S := S10000x64) hz2, View.ld_unit_zero (S := S1x64) hz2,
      View.ld_unit_zero (S := S192x128) hz2, View.ld_unit_zero (S := S1x128) hz2, View.ld_unit_zero (S := S128x64) hz2]

set_option maxHeartbeats 1000000 in
/-- Case B, a later point: the accumulator's buffer holds xo8 on entry and is added to. -/
theorem run1_B (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S192x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (hc0 : ¬cond1_0 i)
    (x0 : Vec F S10000x64 .f32) (x1 : Vec F S10000x64 .f32) (x2 : Vec F S1x64 .f32) (x3 : Vec F S192x128 .f32) (x4 : Vec F S1x128 .f32) (x5 : Vec F S128x64 .f32) (x6 : Vec F S1x64 .f32) (xo8 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xo8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay1 (k1_pay4 x0 x1 x2 x3 x5 x4 x6) x1)
            ∗ owns (c : Thread nD τ) arg9 fullShare (k1_pay2 (k1_pay4 x0 x1 x2 x3 x5 x4 x6) xo8)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9) K := by
  simp only [cc1__node_kernel_eq_skeleton]; unfold cc1__node_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hf8
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    sl_unfold_words
    simp only [View.readAt_eq_ld, harg1.read_unread, harg2.read_unread, harg3.read_unread, harg4.read_unread, harg5.read_unread,
      harg6.read_unread, harg7.read_unread, harg9.read_unread, View.ld_unit_zero (S := S10000x64) hz2, View.ld_unit_zero (S := S1x64) hz2,
      View.ld_unit_zero (S := S192x128) hz2, View.ld_unit_zero (S := S1x128) hz2, View.ld_unit_zero (S := S128x64) hz2]
  iexists _; isplitr
  swap; · iexact H8
  ipureintro
  refine (read_writes_whole _ _ hz2 _ _ _).trans ?_
  sl_unfold_words
  simp only [View.readAt_eq_ld, harg1.read_unread, harg2.read_unread, harg3.read_unread, harg4.read_unread, harg5.read_unread,
      harg6.read_unread, harg7.read_unread, harg9.read_unread, View.ld_unit_zero (S := S10000x64) hz2, View.ld_unit_zero (S := S1x64) hz2,
      View.ld_unit_zero (S := S192x128) hz2, View.ld_unit_zero (S := S1x128) hz2, View.ld_unit_zero (S := S128x64) hz2]

/-! ## The windows' blocks -/

-- The unscoped buffers' contents when the region is entered, per core: a parameter of everything below.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of aggregated messages at point `t`. -/
abbrev agg (c : Dev nD) (t : Fin cfg1.N) : Vec F S10000x64 .f32 := iblk1 V c 0 t
/-- The tile of node features at point `t`. -/
abbrev nfeat (c : Dev nD) (t : Fin cfg1.N) : Vec F S10000x64 .f32 := iblk1 V c 1 t
/-- The global feature row. -/
abbrev glob (c : Dev nD) (t : Fin cfg1.N) : Vec F S1x64 .f32 := iblk1 V c 2 t
/-- The first layer's weights. -/
abbrev wgt1 (c : Dev nD) (t : Fin cfg1.N) : Vec F S192x128 .f32 := iblk1 V c 3 t
/-- The first layer's bias. -/
abbrev bias1 (c : Dev nD) (t : Fin cfg1.N) : Vec F S1x128 .f32 := iblk1 V c 4 t
/-- The second layer's weights. -/
abbrev wgt2 (c : Dev nD) (t : Fin cfg1.N) : Vec F S128x64 .f32 := iblk1 V c 5 t
/-- The second layer's bias. -/
abbrev bias2 (c : Dev nD) (t : Fin cfg1.N) : Vec F S1x64 .f32 := iblk1 V c 6 t

/-- The tile's new features before the residual is added: the network applied to the point's blocks. -/
def hid1 (c : Dev nD) (t : Fin cfg1.N) : Vec F S10000x64 .f32 :=
  k1_pay4 (agg V c t) (nfeat V c t) (glob V c t) (wgt1 V c t) (wgt2 V c t) (bias1 V c t) (bias2 V c t)

theorem hid1_eq (c : Dev nD) (t : Fin cfg1.N) :
    hid1 V c t = k1_pay4 (agg V c t) (nfeat V c t) (glob V c t) (wgt1 V c t) (wgt2 V c t) (bias1 V c t) (bias2 V c t) := rfl

/-- The accumulator after the body at point `n`: the column sums of the new features folded over the points from the left,
    starting from the cleared row. -/
def acc1 (c : Dev nD) : (n : ℕ) → n < cfg1.N → Vec F S1x64 .f32
  | 0, h => k1_pay2 (hid1 V c ⟨0, h⟩) k1_pay3
  | n + 1, h => k1_pay2 (hid1 V c ⟨n + 1, h⟩) (acc1 c n (Nat.lt_of_succ_lt h))

theorem acc1_zero (c : Dev nD) (h : 0 < cfg1.N) : acc1 V c 0 h = k1_pay2 (hid1 V c ⟨0, h⟩) k1_pay3 := rfl

theorem acc1_succ (c : Dev nD) (n : ℕ) (h : n + 1 < cfg1.N) :
    acc1 V c (n + 1) h = k1_pay2 (hid1 V c ⟨n + 1, h⟩) (acc1 V c n (Nat.lt_of_succ_lt h)) := rfl

/-- At the first point the fold starts from the cleared row. -/
theorem acc1_A (c : Dev nD) (t : Fin cfg1.N) (h0 : t.val % 5 = 0) :
    acc1 V c t.val t.isLt = k1_pay2 (hid1 V c t) k1_pay3 := by
  have hN : t.val < 5 := lt_of_lt_of_eq t.isLt (show cfg1.N = 5 from N_1)
  obtain ⟨n, hn⟩ := t
  cases n with
  | zero => rfl
  | succ n => exfalso; dsimp only at h0 hN; omega

/-- At a later point it continues from what the point before left. -/
theorem acc1_B (c : Dev nD) (t : Fin cfg1.N) (h0 : ¬t.val % 5 = 0) :
    acc1 V c t.val t.isLt
      = k1_pay2 (hid1 V c t) (acc1 V c (t.val - 1) (Nat.lt_of_le_of_lt (Nat.sub_le _ _) t.isLt)) := by
  obtain ⟨n, hn⟩ := t
  cases n with
  | zero => exact absurd (Nat.zero_mod _) h0
  | succ n => rfl

/-! ## The proof data -/

/-- The proof data of the node pipeline on core `c`: the arrays as the region finds them; after the body at point `t` each
    input's buffer at its block, the output tile's at the new features plus the node features, the accumulator's at the
    fold up to `t`; the invariant is the scoped rest and the generator register, which the body does not touch; nothing is
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay1 (hid1 V c t) (nfeat V c t)
    | ⟨8, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- The output tile: the network's result plus the node features. -/
theorem after1_7 (c : Dev nD) (t : Fin cfg1.N) :
    (dat1 V c).after 7 t
      = k1_pay1 (k1_pay4 (agg V c t) (nfeat V c t) (glob V c t) (wgt1 V c t) (wgt2 V c t) (bias1 V c t) (bias2 V c t)) (nfeat V c t) := by
  dsimp only [dat1, hid1]
/-- The accumulator: the fold up to the point. -/
theorem after1_8 (c : Dev nD) (t : Fin cfg1.N) : (dat1 V c).after 8 t = acc1 V c t.val t.isLt := by dsimp only [dat1]

/-! ## What the body finds in each buffer -/

/-- Each input's buffer holds its block at every point, whether the pipeline fetched it there or not: where it did not, the
    block index has not moved since the point before and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- At a later point the accumulator's buffer holds what the body left at the point before: its block does not move and it
    is written back after the last point only. -/
theorem before1_8_B (c : Dev nD) (t : Fin cfg1.N) (h0 : ¬t.val % 5 = 0) (d) :
    (dat1 V c).before 8 t d = acc1 V c (t.val - 1) (Nat.lt_of_le_of_lt (Nat.sub_le _ _) t.isLt) := by
  have hN : t.val < 5 := lt_of_lt_of_eq t.isLt (show cfg1.N = 5 from N_1)
  rw [Dat.before_out_kept _ 8 rfl t (by omega)
    (Bool.eq_false_iff.mpr fun h => by have := (flush1_8 _).mp h; dsimp only at this; omega) (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 800000 in
/-- The body at any point: the inputs' buffers hold their blocks; at the first point the accumulator is cleared, at a later
    one it holds the fold up to the point before; the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  by_cases h0 : t.val % 5 = 0
  · rw [acc1_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_A c (grid1.coords t) _ _ _ _ _ _ _ _ _ _ _ _ _ _ _ _ _ _ ((hcond1_0 t).mpr h0)
      (agg V c t) (nfeat V c t) (glob V c t) (wgt1 V c t) (bias1 V c t) (wgt2 V c t) (bias2 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc1_B V c t h0]
    simp only [before1_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_B c (grid1.coords t) _ _ _ _ _ _ _ _ _ _ _ _ _ _ _ _ _ _ (fun h => h0 ((hcond1_0 t).mp h))
      (agg V c t) (nfeat V c t) (glob V c t) (wgt1 V c t) (bias1 V c t) (wgt2 V c t) (bias2 V c t)
      (acc1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Node

end
-- ==== Proof.KI.Regions.lean ====
import proofs.«426020_j49563922596335_1_alg».proof.Proof.KI.EdgeDat
import proofs.«426020_j49563922596335_1_alg».proof.Proof.KI.NodeDat
import proofs.«426020_j49563922596335_1_alg».proof.Proof.Gen.KernelIdeal.Regions
import Idealize.ShloMosaic.Lib.Pipeline.Regions
import Idealize.ShloMosaic.Lib.Pipeline.RegionsLoop
import Idealize.ShloMosaic.Lib.Pipeline.FrameSuffix

/-! # The whole program as nine items

@main is seven stretches of host operations and two kernel regions (the edge network over 100 tiles, the node network
over 5 tiles). Between two items a core holds every unscoped buffer at a known valuation: the launch memory carried
through each host stretch by its operations' functions, and through each region by what its pipeline's write-backs
leave in its arrays. This module names those valuations (`W3` … `W9`), states each item as a segment between two of
them, runs the segments from the launch, and reads the results and the arguments off the last valuation. -/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items: a fold through @main -/

/-- Core `c`'s buffers when the edge region is entered: the launch memory after the three leading host stretches
    (the two gathers of node rows by the edges' two endpoint indices, and the four bias reshapes). -/
abbrev W3 (c : Dev nD) : Valuation τ sig (Elt F) := V3 m c

/-- At the edge region's exit: its arrays at what the pipeline's write-backs leave (an input as entered, an output
    with every flushed block written), every other buffer as entered. -/
def W4 (c : Dev nD) : Valuation τ sig (Elt F) :=
  Pipeline.withArrays spec0 c (W3 m c) fun w => (Edge.dat0 (fun c b => W3 m c b) c).arrAt w cfg0.N
theorem W4_arr (c : Dev nD) (w : Fin cfg0.W) :
    W4 m c (Proc.devRef .tc (Pipeline.arrRef spec0 w)) = (Edge.dat0 (fun c b => W3 m c b) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The region writes only its output arrays: any other buffer — an input window's array included, which no
    write-back touches — leaves the region as it entered. -/
theorem W4_keep (c : Dev nD) (b : Ref sig .tc) (hb : b ∉ ([main_v6_0, main_v6_1, main_v6_2] : List (Ref sig .tc))) :
    W4 m c (Proc.devRef .tc b) = W3 m c (Proc.devRef .tc b) := by
  by_cases h : ∃ w, Pipeline.arrRef spec0 w = b
  · obtain ⟨w, rfl⟩ := h
    have hall : ∀ w : Fin 11, (cfg0.win w).isOut = true → Pipeline.arrRef spec0 w ∈ ([main_v6_0, main_v6_1, main_v6_2] : List (Ref sig .tc)) := by decide
    have hin : (cfg0.win w).isOut = false := by
      cases hO : (cfg0.win w).isOut
      · rfl
      · exact absurd (hall w hO) hb
    exact (W4_arr m c w).trans (((Edge.dat0 (fun c b => W3 m c b) c).arrAt_in w hin _).trans (Edge.A_eq0 _ c w))
  · exact W4_of_ne m c b fun w e => h ⟨w, e⟩
/-- At the exit each array of the region holds what the pipeline leaves, and every other buffer what it held at entry. -/
theorem hF0 (c : Dev nD) (w : Fin cfg0.W) :
    (Edge.dat0 (fun c b => W3 m c b) c).arrAt w cfg0.N = W4 m c (Pipeline.arrRef spec0 w) :=
  (W4_arr m c w).symm
theorem hrest0 (c : Dev nD) : ∀ b : Ref sig .tc, b ∉ Finset.univ.image (Pipeline.arrRef spec0) → W4 m c b = W3 m c b :=
  fun b hb => W4_of_ne m c b fun w e => hb (Finset.mem_image.mpr ⟨w, Finset.mem_univ _, e⟩)

/-- After the host stretch between the regions (the edge messages summed per node over the second endpoint index, and divided by the node's edge count, at least 1). -/
abbrev W5 (c : Dev nD) : Valuation τ sig (Elt F) := StableHlo.after hostOps1 (W4 m c)

/-- At the node region's exit: its arrays at what the pipeline's write-backs leave (an input as entered, an output
    with every flushed block written), every other buffer as entered. -/
def W6 (c : Dev nD) : Valuation τ sig (Elt F) :=
  Pipeline.withArrays spec1 c (W5 m c) fun w => (Node.dat1 (fun c b => W5 m c b) c).arrAt w cfg1.N
theorem W6_arr (c : Dev nD) (w : Fin cfg1.W) :
    W6 m c (Proc.devRef .tc (Pipeline.arrRef spec1 w)) = (Node.dat1 (fun c b => W5 m c b) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The region writes only its output arrays: any other buffer — an input window's array included, which no
    write-back touches — leaves the region as it entered. -/
theorem W6_keep (c : Dev nD) (b : Ref sig .tc) (hb : b ∉ ([main_v19_0, main_v19_1] : List (Ref sig .tc))) :
    W6 m c (Proc.devRef .tc b) = W5 m c (Proc.devRef .tc b) := by
  by_cases h : ∃ w, Pipeline.arrRef spec1 w = b
  · obtain ⟨w, rfl⟩ := h
    have hall : ∀ w : Fin 9, (cfg1.win w).isOut = true → Pipeline.arrRef spec1 w ∈ ([main_v19_0, main_v19_1] : List (Ref sig .tc)) := by decide
    have hin : (cfg1.win w).isOut = false := by
      cases hO : (cfg1.win w).isOut
      · rfl
      · exact absurd (hall w hO) hb
    exact (W6_arr m c w).trans (((Node.dat1 (fun c b => W5 m c b) c).arrAt_in w hin _).trans (Node.A_eq1 _ c w))
  · exact W6_of_ne m c b fun w e => h ⟨w, e⟩
/-- At the exit each array of the region holds what the pipeline leaves, and every other buffer what it held at entry. -/
theorem hF1 (c : Dev nD) (w : Fin cfg1.W) :
    (Node.dat1 (fun c b => W5 m c b) c).arrAt w cfg1.N = W6 m c (Pipeline.arrRef spec1 w) :=
  (W6_arr m c w).symm
theorem hrest1 (c : Dev nD) : ∀ b : Ref sig .tc, b ∉ Finset.univ.image (Pipeline.arrRef spec1) → W6 m c b = W5 m c b :=
  fun b hb => W6_of_ne m c b fun w e => hb (Finset.mem_image.mpr ⟨w, Finset.mem_univ _, e⟩)

/-- After the three trailing host stretches (the global feature's update from the two regions' column sums, each divided by its row count). -/
abbrev W7 (c : Dev nD) : Valuation τ sig (Elt F) := StableHlo.after hostOps2 (W6 m c)
abbrev W8 (c : Dev nD) : Valuation τ sig (Elt F) := StableHlo.after hostOps2_1 (W7 m c)
abbrev W9 (c : Dev nD) : Valuation τ sig (Elt F) := StableHlo.after hostOps2_2 (W8 m c)

/-! ## What no item writes is as launched -/

/-- Every reference some item may write: each host stretch's targets and the two regions' output arrays. -/
abbrev written : List (Ref sig .tc) :=
  hostOps0_W ++ (hostOps0_1_W ++ (hostOps0_2_W ++ ([main_v6_0, main_v6_1, main_v6_2] ++ (hostOps1_W ++ ([main_v19_0, main_v19_1] ++ (hostOps2_W ++ (hostOps2_1_W ++ hostOps2_2_W)))))))

/-- A buffer written by nothing up to the node region's exit holds its launch contents there. -/
theorem W6_keep_launch (c : Dev nD) (b : Ref sig .tc)
    (h : b ∉ hostOps0_W ++ (hostOps0_1_W ++ (hostOps0_2_W ++ ([main_v6_0, main_v6_1, main_v6_2] ++ (hostOps1_W ++ [main_v19_0, main_v19_1]))))) :
    W6 m c (Proc.devRef .tc b) = m ((c : Thread nD τ).loc b) := by
  have h0 : b ∉ hostOps0_W := fun hx => h (List.mem_append_left _ hx)
  have r0 := fun hx => h (List.mem_append_right _ hx)
  have h1 : b ∉ hostOps0_1_W := fun hx => r0 (List.mem_append_left _ hx)
  have r1 := fun hx => r0 (List.mem_append_right _ hx)
  have h2 : b ∉ hostOps0_2_W := fun hx => r1 (List.mem_append_left _ hx)
  have r2 := fun hx => r1 (List.mem_append_right _ hx)
  have h3 : b ∉ ([main_v6_0, main_v6_1, main_v6_2] : List (Ref sig .tc)) := fun hx => r2 (List.mem_append_left _ hx)
  have r3 := fun hx => r2 (List.mem_append_right _ hx)
  have h4 : b ∉ hostOps1_W := fun hx => r3 (List.mem_append_left _ hx)
  have h5 : b ∉ ([main_v19_0, main_v19_1] : List (Ref sig .tc)) := fun hx => r3 (List.mem_append_right _ hx)
  calc W6 m c (Proc.devRef .tc b)
    _ = W5 m c (Proc.devRef .tc b) := W6_keep m c b h5
    _ = W4 m c (Proc.devRef .tc b) := StableHlo.after_of_writes_sub hostOps1 _ hostOps1_writes h4
    _ = W3 m c (Proc.devRef .tc b) := W4_keep m c b h3
    _ = V2 m c (Proc.devRef .tc b) := V3_of m c b h2
    _ = V1 m c (Proc.devRef .tc b) := V2_of m c b h1
    _ = V0 m c (Proc.devRef .tc b) := V1_of m c b h0
    _ = m ((c : Thread nD τ).loc b) := rfl

/-- A buffer nothing writes holds its launch contents at the end. -/
theorem W9_keep (c : Dev nD) (b : Ref sig .tc) (h : b ∉ written) :
    W9 m c (Proc.devRef .tc b) = m ((c : Thread nD τ).loc b) := by
  have hA : b ∉ hostOps0_W ++ (hostOps0_1_W ++ (hostOps0_2_W ++ ([main_v6_0, main_v6_1, main_v6_2] ++ (hostOps1_W ++ [main_v19_0, main_v19_1])))) := by
    intro hx; apply h
    simp only [written, List.mem_append] at hx ⊢
    tauto
  have h6 : b ∉ hostOps2_W := by
    intro hx; apply h; simp only [written, List.mem_append]; tauto
  have h7 : b ∉ hostOps2_1_W := by
    intro hx; apply h; simp only [written, List.mem_append]; tauto
  have h8 : b ∉ hostOps2_2_W := by
    intro hx; apply h; simp only [written, List.mem_append]; tauto
  calc W9 m c (Proc.devRef .tc b)
    _ = W8 m c (Proc.devRef .tc b) := StableHlo.after_of_writes_sub hostOps2_2 _ hostOps2_2_writes h8
    _ = W7 m c (Proc.devRef .tc b) := StableHlo.after_of_writes_sub hostOps2_1 _ hostOps2_1_writes h7
    _ = W6 m c (Proc.devRef .tc b) := StableHlo.after_of_writes_sub hostOps2 _ hostOps2_writes h6
    _ = m ((c : Thread nD τ).loc b) := W6_keep_launch m c b hA

/-! ## Reading the three results -/

/-- The edge region's second output (the updated edge features) reaches the end as the region left it: window 9's array
    after all 100 tiles' write-backs. -/
theorem W9_main_v6_1 (c : Dev nD) :
    W9 m c main_v6_1 = (Edge.dat0 (fun c b => W3 m c b) c).arrAt 9 cfg0.N :=
  calc W9 m c (Proc.devRef .tc main_v6_1)
    _ = W8 m c (Proc.devRef .tc main_v6_1) := StableHlo.after_of_writes_sub hostOps2_2 _ hostOps2_2_writes (by decide)
    _ = W7 m c (Proc.devRef .tc main_v6_1) := StableHlo.after_of_writes_sub hostOps2_1 _ hostOps2_1_writes (by decide)
    _ = W6 m c (Proc.devRef .tc main_v6_1) := StableHlo.after_of_writes_sub hostOps2 _ hostOps2_writes (by decide)
    _ = W5 m c (Proc.devRef .tc main_v6_1) := W6_keep m c main_v6_1 (by decide)
    _ = W4 m c (Proc.devRef .tc main_v6_1) := StableHlo.after_of_writes_sub hostOps1 _ hostOps1_writes (by decide)
    _ = _ := W4_arr m c 9

/-- The node region's first output (the updated node features) reaches the end as the region left it: window 7's array
    after all 5 tiles' write-backs. -/
theorem W9_main_v19_0 (c : Dev nD) :
    W9 m c main_v19_0 = (Node.dat1 (fun c b => W5 m c b) c).arrAt 7 cfg1.N :=
  calc W9 m c (Proc.devRef .tc main_v19_0)
    _ = W8 m c (Proc.devRef .tc main_v19_0) := StableHlo.after_of_writes_sub hostOps2_2 _ hostOps2_2_writes (by decide)
    _ = W7 m c (Proc.devRef .tc main_v19_0) := StableHlo.after_of_writes_sub hostOps2_1 _ hostOps2_1_writes (by decide)
    _ = W6 m c (Proc.devRef .tc main_v19_0) := StableHlo.after_of_writes_sub hostOps2 _ hostOps2_writes (by decide)
    _ = _ := W6_arr m c 7

/-- The third result (the updated global feature) is the trailing host stretches' function of the buffers the node
    region leaves. -/
theorem W9_main_v32 (c : Dev nD) :
    W9 m c main_v32 = StableHlo.after hostOps2_2 (StableHlo.after hostOps2_1 (StableHlo.after hostOps2 (W6 m c))) main_v32 := rfl

/-- What the trailing stretches read of the regions: the node region's column sums (its window 8), -/
theorem W6_main_v19_1 (c : Dev nD) :
    W6 m c main_v19_1 = (Node.dat1 (fun c b => W5 m c b) c).arrAt 8 cfg1.N := W6_arr m c 8
/-- the edge region's column sums (its window 10), which neither the host stretch between the regions nor the node region writes, -/
theorem W6_main_v6_2 (c : Dev nD) :
    W6 m c main_v6_2 = (Edge.dat0 (fun c b => W3 m c b) c).arrAt 10 cfg0.N :=
  calc W6 m c (Proc.devRef .tc main_v6_2)
    _ = W5 m c (Proc.devRef .tc main_v6_2) := W6_keep m c main_v6_2 (by decide)
    _ = W4 m c (Proc.devRef .tc main_v6_2) := StableHlo.after_of_writes_sub hostOps1 _ hostOps1_writes (by decide)
    _ = _ := W4_arr m c 10
/-- and five arguments, as launched. -/
theorem W6_main_arg2 (c : Dev nD) : W6 m c main_arg2 = m ((c : Thread nD τ).loc main_arg2) := W6_keep_launch m c main_arg2 (by decide)
theorem W6_main_arg11 (c : Dev nD) : W6 m c main_arg11 = m ((c : Thread nD τ).loc main_arg11) := W6_keep_launch m c main_arg11 (by decide)
theorem W6_main_arg12 (c : Dev nD) : W6 m c main_arg12 = m ((c : Thread nD τ).loc main_arg12) := W6_keep_launch m c main_arg12 (by decide)
theorem W6_main_arg13 (c : Dev nD) : W6 m c main_arg13 = m ((c : Thread nD τ).loc main_arg13) := W6_keep_launch m c main_arg13 (by decide)
theorem W6_main_arg14 (c : Dev nD) : W6 m c main_arg14 = m ((c : Thread nD τ).loc main_arg14) := W6_keep_launch m c main_arg14 (by decide)

/-! ## The proof data and the thread state -/

/-- Both pipelines' proof data, each at its region's entry contents (a literal match on the pipeline's index, so that
    the configuration at a numeral reduces to the printed one). -/
def pdats : (p : Fin 2) → (c : Dev nD) → Dat τ (Elt F) Unit ℕ (UR sig nD τ) ℕ (Pipeline.pin (pcfgs (F := F)) adm p) c
  | ⟨0, _⟩ => fun c => Edge.dat0 (fun c b => W3 m c b) c
  | ⟨1, _⟩ => fun c => Node.dat1 (fun c b => W5 m c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its dues at nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along: it ends at
    the stretch's function of `W`, which is the next valuation of the fold by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the dues: every unscoped buffer at `W9`, the generator register at some state. -/
abbrev Tₙ (c : Dev nD) : sProp 𝕄 := iprop(StableHlo.held (c : Thread nD τ) (Pipeline.ucRefs τ sig) (W9 m c) ∗ ∃ r, prngReg c r)

/-- The last item leaves the thread state the run ends at: the same resources, regrouped. -/
theorem last_post (c : Dev nD) :
    (iprop(StableHlo.held (c : Thread nD τ) (Pipeline.ucRefs τ sig) (W9 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- Region 0 over the thread state: entered with every unscoped buffer at `W3`, left with them at `W4`. Its
    arrays are split out of the unscoped buffers at entry and put back at their final contents at exit; the generator
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation0 (fun c b => W3 m c b) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (fun b => W3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => W3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => W3 m c b) (fun b => W4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its
    arrays are split out of the unscoped buffers at entry and put back at their final contents at exit; the generator
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Node.body_obligation1 (fun c b => W5 m c b) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (fun b => W5 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => W5 m c b) (fun b => W6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its nine items, and the launch -/

/-- @main's items in order: a host segment per stretch from the valuation before it, a region per kernel. -/
abbrev items : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .region (reg1 m),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)) ]

/-- @main is the run of the items: it is the chain of their programs. -/
theorem main_run (c : Dev nD) : main (F := F) c = Pipeline.Seg.run (items m) := by
  rw [main_chain c, Pipeline.Seg.run_eq_chain]
  rfl

set_option backward.isDefEq.respectTransparency.types false in
/-- From any memory with zero counters, every weakly fair execution of @main terminates, and in every final state each
    core's unscoped buffers hold the last valuation of the fold. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W9 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => last_post m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- THE FRAME: every argument array ends holding its launch contents — none is written by any item, so the last
    valuation at it walks back to the launch memory. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W9_keep m c main_arg0 (by decide)),
      (h c _ (mem_uc main_arg1 (by decide))).trans (W9_keep m c main_arg1 (by decide)),
      (h c _ (mem_uc main_arg2 (by decide))).trans (W9_keep m c main_arg2 (by decide)),
      (h c _ (mem_uc main_arg3 (by decide))).trans (W9_keep m c main_arg3 (by decide)),
      (h c _ (mem_uc main_arg4 (by decide))).trans (W9_keep m c main_arg4 (by decide)),
      (h c _ (mem_uc main_arg5 (by decide))).trans (W9_keep m c main_arg5 (by decide)),
      (h c _ (mem_uc main_arg6 (by decide))).trans (W9_keep m c main_arg6 (by decide)),
      (h c _ (mem_uc main_arg7 (by decide))).trans (W9_keep m c main_arg7 (by decide)),
      (h c _ (mem_uc main_arg8 (by decide))).trans (W9_keep m c main_arg8 (by decide)),
      (h c _ (mem_uc main_arg9 (by decide))).trans (W9_keep m c main_arg9 (by decide)),
      (h c _ (mem_uc main_arg10 (by decide))).trans (W9_keep m c main_arg10 (by decide)),
      (h c _ (mem_uc main_arg11 (by decide))).trans (W9_keep m c main_arg11 (by decide)),
      (h c _ (mem_uc main_arg12 (by decide))).trans (W9_keep m c main_arg12 (by decide)),
      (h c _ (mem_uc main_arg13 (by decide))).trans (W9_keep m c main_arg13 (by decide)),
      (h c _ (mem_uc main_arg14 (by decide))).trans (W9_keep m c main_arg14 (by decide)),
      (h c _ (mem_uc main_arg15 (by decide))).trans (W9_keep m c main_arg15 (by decide)),
      (h c _ (mem_uc main_arg16 (by decide))).trans (W9_keep m c main_arg16 (by decide))⟩) (run_all m ρ)

/-- THE RESULTS AND THE FRAME TOGETHER: every final state holds the three results at the last valuation of the fold
    (the updated node features, the updated edge features, the updated global feature) and every argument as launched. -/
theorem run_results (ρ : Dev nD → PrngReg) : θ_run defs (onTc (τ := τ) (main (F := F))) ⟨m, fun _ => 0, ρ⟩ (fun r => ∀ c : Dev nD,
      r.2.mem ((c.tc : Thread nD τ).loc main_v19_0) = W9 m c main_v19_0
      ∧ r.2.mem ((c.tc : Thread nD τ).loc main_v6_1) = W9 m c main_v6_1
      ∧ r.2.mem ((c.tc : Thread nD τ).loc main_v32) = W9 m c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v19_0 (by decide)),
      h c _ (mem_uc main_v6_1 (by decide)),
      h c _ (mem_uc main_v32 (by decide)),
      (h c _ (mem_uc main_arg0 (by decide))).trans (W9_keep m c main_arg0 (by decide)),
      (h c _ (mem_uc main_arg1 (by decide))).trans (W9_keep m c main_arg1 (by decide)),
      (h c _ (mem_uc main_arg2 (by decide))).trans (W9_keep m c main_arg2 (by decide)),
      (h c _ (mem_uc main_arg3 (by decide))).trans (W9_keep m c main_arg3 (by decide)),
      (h c _ (mem_uc main_arg4 (by decide))).trans (W9_keep m c main_arg4 (by decide)),
      (h c _ (mem_uc main_arg5 (by decide))).trans (W9_keep m c main_arg5 (by decide)),
      (h c _ (mem_uc main_arg6 (by decide))).trans (W9_keep m c main_arg6 (by decide)),
      (h c _ (mem_uc main_arg7 (by decide))).trans (W9_keep m c main_arg7 (by decide)),
      (h c _ (mem_uc main_arg8 (by decide))).trans (W9_keep m c main_arg8 (by decide)),
      (h c _ (mem_uc main_arg9 (by decide))).trans (W9_keep m c main_arg9 (by decide)),
      (h c _ (mem_uc main_arg10 (by decide))).trans (W9_keep m c main_arg10 (by decide)),
      (h c _ (mem_uc main_arg11 (by decide))).trans (W9_keep m c main_arg11 (by decide)),
      (h c _ (mem_uc main_arg12 (by decide))).trans (W9_keep m c main_arg12 (by decide)),
      (h c _ (mem_uc main_arg13 (by decide))).trans (W9_keep m c main_arg13 (by decide)),
      (h c _ (mem_uc main_arg14 (by decide))).trans (W9_keep m c main_arg14 (by decide)),
      (h c _ (mem_uc main_arg15 (by decide))).trans (W9_keep m c main_arg15 (by decide)),
      (h c _ (mem_uc main_arg16 (by decide))).trans (W9_keep m c main_arg16 (by decide))⟩) (run_all m ρ)

end Cert.KernelIdeal.Whole

end
-- ==== Proof.KI.HostRead.lean ====
import proofs.«426020_j49563922596335_1_alg».proof.Proof.KI.Regions
import Idealize.ShloMosaic.Lib.Pipeline.Value
import Idealize.ShloMosaic.Lib.ValueIdx

/-! # The fold read at what the regions and the trailing stretches take in

The valuations between @main's items (`Whole.W3` … `Whole.W9`) read at the buffers a later item consumes, as terms
of the launch memory and of the regions' output arrays: the gathered rows and the reshaped biases the edge region
enters with, the aggregated messages and the reshaped biases the node region enters with, and the global feature the
trailing stretches compute. The aggregation and the global update are each named as one function of their inputs. -/

set_option maxRecDepth 16384

noncomputable section

namespace Cert.KernelIdeal.HostRead

open Cert.KernelIdeal Cert.KernelIdeal.Gen Cert.KernelIdeal.Whole
open Idealize.ShloMosaic Idealize.ShloMosaic.TcCoe Idealize.ShloMosaic.ValueIdx

variable {F : FTy → Type} [FloatOps F]

/-! ## A three-piece concatenate's result -/

/-- An operation over a literal family of three references: its result with each operand's contents at its own
    reference, so that the operands' contents can go on being rewritten (under the binder of the general form the
    reference `![x, a, b] k` is no literal). -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The same, keyed for one rewriting pass on the operation alone (the result reference is left out of the key: a
    reference's device buffer unfolds to projections of the reference). -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- One pass over a literal line of operations: each operation's result at its own reference is its function's value,
    at any other reference what was there (the two references told apart by deciding). -/
local macro "line_results" : tactic =>
  `(tactic| simp (disch := decide) only [StableHlo.after_cons, StableHlo.after_nil,
      StableHlo.nullary_result', StableHlo.unary_result', StableHlo.binary_result', StableHlo.ternary_result',
      StableHlo.reshape_result', nary3_result',
      StableHlo.nullary_result_ne', StableHlo.unary_result_ne', StableHlo.binary_result_ne', StableHlo.ternary_result_ne',
      StableHlo.reshape_result_ne', StableHlo.nary_result_ne'])

/-! ## The aggregation between the regions -/

/-- The per-node mean of the edge messages: the rows of `raw` summed into the node its edge's index word `dst` names,
    each sum divided by the number of the node's edges, at least 1. -/
def agg (raw : (⟨S800000x64, .f32⟩ : BufTy).Contents (Elt F)) (dst : (⟨S800000, .i32⟩ : BufTy).Contents (Elt F)) :
    (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst) raw)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

set_option maxHeartbeats 1000000 in
/-- The host stretch between the regions leaves the aggregation of what it finds in the edge region's first output
    and in the second index argument. -/
theorem after_hostOps1_main_v18 (V : Valuation τ sig (Elt F)) :
    StableHlo.after hostOps1 V (Proc.devRef .tc main_v18)
      = agg (V (Proc.devRef .tc main_v6_0)) (V (Proc.devRef .tc main_arg16)) := by
  dsimp only [hostOps1]
  line_results
  rfl

/-! ## The global feature's update -/

/-- The global feature's update: the two column sums turned into means (over 50000 nodes, over 800000 edges),
    joined with the old feature `u` along the columns, through the two-layer network with a rectifier between,
    and `u` added. -/
def tail (nodeSum edgeSum u : (⟨S1x64, .f32⟩ : BufTy).Contents (Elt F))
    (gW1 : (⟨S192x128, .f32⟩ : BufTy).Contents (Elt F)) (gb1 : (⟨S128, .f32⟩ : BufTy).Contents (Elt F))
    (gW2 : (⟨S128x64, .f32⟩ : BufTy).Contents (Elt F)) (gb2 : (⟨S64, .f32⟩ : BufTy).Contents (Elt F)) :
    (⟨S1x64, .f32⟩ : BufTy).Contents (Elt F) :=
  addf
    (addf
      (Host.dotGeneral dot_S1x128_S128x64_S1x64_1_0_0_1_n_n none
        (maximumf
          (addf
            (Host.dotGeneral dot_S1x192_S192x128_S1x128_1_0_0_1_n_n none
              (concatenate S1x192 1
                [⟨S1x64, Host.divf nodeSum (broadcastInDim S1x64 ![] bcast_S_S1x64 (constant S_ .f32 0x47435000#32))⟩,
                 ⟨S1x64, Host.divf edgeSum (broadcastInDim S1x64 ![] bcast_S_S1x64 (constant S_ .f32 0x49435000#32))⟩,
                 ⟨S1x64, u⟩] concatenates_S1x64_S1x64_S1x64_S1x192_d1)
              gW1)
            (broadcastInDim S1x128 ![1] bcast_S128_S1x128_1 gb1))
          (broadcastInDim S1x128 ![] bcast_S_S1x128 (constant S_ .f32 0x00000000#32)))
        gW2)
      (broadcastInDim S1x64 ![1] bcast_S64_S1x64_1 gb2))
    u

set_option maxHeartbeats 1000000 in
/-- The three trailing host stretches leave the update of what they find in the two regions' column sums and in five arguments. -/
theorem after_tail_main_v32 (V : Valuation τ sig (Elt F)) :
    StableHlo.after hostOps2_2 (StableHlo.after hostOps2_1 (StableHlo.after hostOps2 V)) (Proc.devRef .tc main_v32)
      = tail (V (Proc.devRef .tc main_v19_1)) (V (Proc.devRef .tc main_v6_2)) (V (Proc.devRef .tc main_arg2))
          (V (Proc.devRef .tc main_arg11)) (V (Proc.devRef .tc main_arg12)) (V (Proc.devRef .tc main_arg13)) (V (Proc.devRef .tc main_arg14)) := by
  dsimp only [hostOps2_2, hostOps2_1, hostOps2]
  line_results
  rfl

/-! ## The reshaped biases, read at an index -/

/-- A vector reshaped to one row, read at column `j`, is the vector at `j`. -/
theorem reshape_row_apply {α : Type} {n : Nat} (x : (⟨1, ![n]⟩ : Shape).Idx → α) (h : (⟨1, ![n]⟩ : Shape).ShapeCasts ⟨2, ![1, n]⟩) (j : Fin n) :
    shapeCast ⟨2, ![1, n]⟩ x h (ix2 (0 : Fin 1) j) = x (ix1 j) :=
  shapeCast_apply x h (ix2 (0 : Fin 1) j) (ix1 j) (by
    rw [Shape.rowMajor_val_two, Shape.rowMajor_val_one]; show j.val = 0 * n + j.val; omega)

theorem after_hostOps0_2_main_v2 (V : Valuation τ sig (Elt F)) (j : Fin 128) :
    (StableHlo.after hostOps0_2 V (Proc.devRef .tc main_v2) : S1x128.Idx → Elt F .f32) (ix2 (0 : Fin 1) j)
      = (V (Proc.devRef .tc main_arg4) : S128.Idx → Elt F .f32) (ix1 j) := by
  dsimp only [hostOps0_2]
  line_results
  exact reshape_row_apply _ _ j
theorem after_hostOps0_2_main_v3 (V : Valuation τ sig (Elt F)) (d : Fin 64) :
    (StableHlo.after hostOps0_2 V (Proc.devRef .tc main_v3) : S1x64.Idx → Elt F .f32) (ix2 (0 : Fin 1) d)
      = (V (Proc.devRef .tc main_arg6) : S64.Idx → Elt F .f32) (ix1 d) := by
  dsimp only [hostOps0_2]
  line_results
  exact reshape_row_apply _ _ d
theorem after_hostOps0_2_main_v4 (V : Valuation τ sig (Elt F)) (j : Fin 128) :
    (StableHlo.after hostOps0_2 V (Proc.devRef .tc main_v4) : S1x128.Idx → Elt F .f32) (ix2 (0 : Fin 1) j)
      = (V (Proc.devRef .tc main_arg8) : S128.Idx → Elt F .f32) (ix1 j) := by
  dsimp only [hostOps0_2]
  line_results
  exact reshape_row_apply _ _ j
theorem after_hostOps0_2_main_v5 (V : Valuation τ sig (Elt F)) (d : Fin 64) :
    (StableHlo.after hostOps0_2 V (Proc.devRef .tc main_v5) : S1x64.Idx → Elt F .f32) (ix2 (0 : Fin 1) d)
      = (V (Proc.devRef .tc main_arg10) : S64.Idx → Elt F .f32) (ix1 d) := by
  dsimp only [hostOps0_2]
  line_results
  exact reshape_row_apply _ _ d

/-! ## The fold at the edge region's inputs -/

variable (m : (ℓ : Loc nD τ sig) → Buf (Elt F) ℓ)

/-- A buffer none of the three leading stretches writes enters the edge region as launched. -/
theorem W3_keep_launch (c : Dev nD) (b : Ref sig .tc) (h : b ∉ hostOps0_W ++ (hostOps0_1_W ++ hostOps0_2_W)) :
    W3 m c (Proc.devRef .tc b) = m ((c : Thread nD τ).loc b) := by
  have h0 : b ∉ hostOps0_W := fun hx => h (List.mem_append_left _ hx)
  have r0 := fun hx => h (List.mem_append_right _ hx)
  have h1 : b ∉ hostOps0_1_W := fun hx => r0 (List.mem_append_left _ hx)
  have h2 : b ∉ hostOps0_2_W := fun hx => r0 (List.mem_append_right _ hx)
  exact (V3_of m c b h2).trans ((V2_of m c b h1).trans ((V1_of m c b h0).trans rfl))

/-- The rows gathered by the first endpoint index are what the first stretch leaves: no later stretch writes them. -/
theorem W3_main_v0 (c : Dev nD) : W3 m c main_v0 = StableHlo.after hostOps0 (V0 m c) main_v0 :=
  (V3_of m c main_v0 (by decide)).trans ((V2_of m c main_v0 (by decide)).trans rfl)
/-- The rows gathered by the second endpoint index are what the second stretch leaves. -/
theorem W3_main_v1 (c : Dev nD) : W3 m c main_v1 = StableHlo.after hostOps0_1 (V1 m c) main_v1 :=
  (V3_of m c main_v1 (by decide)).trans rfl
/-- The second stretch reads the node rows and the second endpoint index as launched. -/
theorem V1_main_arg0 (c : Dev nD) : V1 m c main_arg0 = m ((c : Thread nD τ).loc main_arg0) :=
  (V1_of m c main_arg0 (by decide)).trans rfl
theorem V1_main_arg16 (c : Dev nD) : V1 m c main_arg16 = m ((c : Thread nD τ).loc main_arg16) :=
  (V1_of m c main_arg16 (by decide)).trans rfl
/-- The edge features, the global feature and the edge network's two weight matrices enter as launched. -/
theorem W3_main_arg1 (c : Dev nD) : W3 m c main_arg1 = m ((c : Thread nD τ).loc main_arg1) := W3_keep_launch m c main_arg1 (by decide)
theorem W3_main_arg2 (c : Dev nD) : W3 m c main_arg2 = m ((c : Thread nD τ).loc main_arg2) := W3_keep_launch m c main_arg2 (by decide)
theorem W3_main_arg3 (c : Dev nD) : W3 m c main_arg3 = m ((c : Thread nD τ).loc main_arg3) := W3_keep_launch m c main_arg3 (by decide)
theorem W3_main_arg5 (c : Dev nD) : W3 m c main_arg5 = m ((c : Thread nD τ).loc main_arg5) := W3_keep_launch m c main_arg5 (by decide)
/-- The edge network's two biases enter as one-row matrices: column `j` is the launched vector's entry `j`. -/
theorem W3_main_v2 (c : Dev nD) (j : Fin 128) :
    (W3 m c main_v2 : S1x128.Idx → Elt F .f32) (ix2 (0 : Fin 1) j)
      = (m ((c : Thread nD τ).loc main_arg4) : S128.Idx → Elt F .f32) (ix1 j) :=
  (after_hostOps0_2_main_v2 (V2 m c) j).trans
    (congrFun ((V2_of m c main_arg4 (by decide)).trans ((V1_of m c main_arg4 (by decide)).trans rfl)) (ix1 j))
theorem W3_main_v3 (c : Dev nD) (d : Fin 64) :
    (W3 m c main_v3 : S1x64.Idx → Elt F .f32) (ix2 (0 : Fin 1) d)
      = (m ((c : Thread nD τ).loc main_arg6) : S64.Idx → Elt F .f32) (ix1 d) :=
  (after_hostOps0_2_main_v3 (V2 m c) d).trans
    (congrFun ((V2_of m c main_arg6 (by decide)).trans ((V1_of m c main_arg6 (by decide)).trans rfl)) (ix1 d))

/-! ## The fold at the node region's inputs -/

/-- A buffer written by nothing up to the node region's entry holds its launch contents there. -/
theorem W5_keep_launch (c : Dev nD) (b : Ref sig .tc)
    (h : b ∉ hostOps0_W ++ (hostOps0_1_W ++ (hostOps0_2_W ++ ([main_v6_0, main_v6_1, main_v6_2] ++ hostOps1_W)))) :
    W5 m c (Proc.devRef .tc b) = m ((c : Thread nD τ).loc b) := by
  have h0 : b ∉ hostOps0_W := fun hx => h (List.mem_append_left _ hx)
  have r0 := fun hx => h (List.mem_append_right _ hx)
  have h1 : b ∉ hostOps0_1_W := fun hx => r0 (List.mem_append_left _ hx)
  have r1 := fun hx => r0 (List.mem_append_right _ hx)
  have h2 : b ∉ hostOps0_2_W := fun hx => r1 (List.mem_append_left _ hx)
  have r2 := fun hx => r1 (List.mem_append_right _ hx)
  have h3 : b ∉ ([main_v6_0, main_v6_1, main_v6_2] : List (Ref sig .tc)) := fun hx => r2 (List.mem_append_left _ hx)
  have h4 : b ∉ hostOps1_W := fun hx => r2 (List.mem_append_right _ hx)
  calc W5 m c (Proc.devRef .tc b)
    _ = W4 m c (Proc.devRef .tc b) := StableHlo.after_of_writes_sub hostOps1 _ hostOps1_writes h4
    _ = W3 m c (Proc.devRef .tc b) := W4_keep m c b h3
    _ = m ((c : Thread nD τ).loc b) := W3_keep_launch m c b (fun hx => by
          rcases List.mem_append.mp hx with hx | hx
          · exact h0 hx
          · rcases List.mem_append.mp hx with hx | hx
            · exact h1 hx
            · exact h2 hx)

/-- The node features, the global feature and the node network's two weight matrices enter as launched. -/
theorem W5_main_arg0 (c : Dev nD) : W5 m c main_arg0 = m ((c : Thread nD τ).loc main_arg0) := W5_keep_launch m c main_arg0 (by decide)
theorem W5_main_arg2 (c : Dev nD) : W5 m c main_arg2 = m ((c : Thread nD τ).loc main_arg2) := W5_keep_launch m c main_arg2 (by decide)
theorem W5_main_arg7 (c : Dev nD) : W5 m c main_arg7 = m ((c : Thread nD τ).loc main_arg7) := W5_keep_launch m c main_arg7 (by decide)
theorem W5_main_arg9 (c : Dev nD) : W5 m c main_arg9 = m ((c : Thread nD τ).loc main_arg9) := W5_keep_launch m c main_arg9 (by decide)

/-- A reshaped bias the third stretch made is untouched by the edge region and by the stretch after it. -/
theorem W5_eq_V3_of (c : Dev nD) (b : Ref sig .tc) (h3 : b ∉ ([main_v6_0, main_v6_1, main_v6_2] : List (Ref sig .tc)))
    (h4 : b ∉ hostOps1_W) : W5 m c (Proc.devRef .tc b) = V3 m c (Proc.devRef .tc b) :=
  (StableHlo.after_of_writes_sub hostOps1 _ hostOps1_writes h4).trans (W4_keep m c b h3)
/-- The node network's two biases enter as one-row matrices: column `j` is the launched vector's entry `j`. -/
theorem W5_main_v4 (c : Dev nD) (j : Fin 128) :
    (W5 m c main_v4 : S1x128.Idx → Elt F .f32) (ix2 (0 : Fin 1) j)
      = (m ((c : Thread nD τ).loc main_arg8) : S128.Idx → Elt F .f32) (ix1 j) :=
  (congrFun (W5_eq_V3_of m c main_v4 (by decide) (by decide)) (ix2 (0 : Fin 1) j)).trans <|
    (after_hostOps0_2_main_v4 (V2 m c) j).trans
      (congrFun ((V2_of m c main_arg8 (by decide)).trans ((V1_of m c main_arg8 (by decide)).trans rfl)) (ix1 j))
theorem W5_main_v5 (c : Dev nD) (d : Fin 64) :
    (W5 m c main_v5 : S1x64.Idx → Elt F .f32) (ix2 (0 : Fin 1) d)
      = (m ((c : Thread nD τ).loc main_arg10) : S64.Idx → Elt F .f32) (ix1 d) :=
  (congrFun (W5_eq_V3_of m c main_v5 (by decide) (by decide)) (ix2 (0 : Fin 1) d)).trans <|
    (after_hostOps0_2_main_v5 (V2 m c) d).trans
      (congrFun ((V2_of m c main_arg10 (by decide)).trans ((V1_of m c main_arg10 (by decide)).trans rfl)) (ix1 d))

/-- The edge region's first output (the messages) is its window 8's array after all the tiles' write-backs. -/
theorem W4_main_v6_0 (c : Dev nD) :
    W4 m c main_v6_0 = (Edge.dat0 (fun c b => W3 m c b) c).arrAt 8 cfg0.N := W4_arr m c 8

/-- The node region's first input is the aggregation of the messages the edge region left, by the second endpoint
    index as launched. -/
theorem W5_main_v18 (c : Dev nD) :
    W5 m c main_v18 = agg (W4 m c main_v6_0) (m ((c : Thread nD τ).loc main_arg16)) := by
  have h := after_hostOps1_main_v18 (W4 m c)
  rw [show W4 m c (Proc.devRef .tc main_arg16) = m ((c : Thread nD τ).loc main_arg16) from
    (W4_keep m c main_arg16 (by decide)).trans (W3_keep_launch m c main_arg16 (by decide))] at h
  exact h

/-! ## The fold at the third result -/

/-- The third result is the global update of the two regions' column sums and five arguments as launched. -/
theorem W9_main_v32' (c : Dev nD) :
    W9 m c main_v32 = tail (W6 m c main_v19_1) (W6 m c main_v6_2) (m ((c : Thread nD τ).loc main_arg2))
      (m ((c : Thread nD τ).loc main_arg11)) (m ((c : Thread nD τ).loc main_arg12))
      (m ((c : Thread nD τ).loc main_arg13)) (m ((c : Thread nD τ).loc main_arg14)) := by
  have h := after_tail_main_v32 (W6 m c)
  rw [W6_main_arg2 m c, W6_main_arg11 m c, W6_main_arg12 m c, W6_main_arg13 m c, W6_main_arg14 m c] at h
  exact h

end Cert.KernelIdeal.HostRead

end
-- ==== Proof.Spec.lean ====
/-
  The mathematics both programs compute, over the extended reals, with no program in sight.

  A two-layer perceptron row: from an input row `x` of length `K`, the hidden layer `h j = (∑ k, x k * W₁ k j) + b₁ j`,
  its positive part, and the output `(∑ j, max (h j) 0 * W₂ j d) + b₂ d`.  The reference feeds it the CONCATENATION of
  several 64-long rows; the kernel never forms the concatenation and adds up one partial product per piece, each
  against its own 64-row band of `W₁`.  Splitting a sum over `Fin 256` (or `Fin 192`) into its 64-long bands uses only
  that addition on the extended reals is commutative and associative, so the two forms agree at every input, finite
  or not (`hid4_eq`, `hid3_eq`).

  The kernels also add rows up tile by tile; `sum_tiles` says a sum over `T * R` rows is the sum over the `T` tiles of
  each tile's `R` rows.
-/
import Idealize.ShloMosaic.PureOps.Ideal
import Idealize.ShloMosaic.Lib.ValueIdx

noncomputable section

open scoped BigOperators

namespace Cert.Spec

/-- The hidden layer at unit `j`: the input row against column `j` of the weights, plus the bias. -/
def hid {K H : ℕ} (x : Fin K → EReal) (W : Fin K → Fin H → EReal) (b : Fin H → EReal) (j : Fin H) : EReal :=
  (∑ k, x k * W k j) + b j

/-- The perceptron's output at `d` from a hidden layer `h`: its positive part against column `d`, plus the bias. -/
def out {H D : ℕ} (h : Fin H → EReal) (W : Fin H → Fin D → EReal) (b : Fin D → EReal) (d : Fin D) : EReal :=
  (∑ j, max (h j) 0 * W j d) + b d

/-- Four 64-long rows laid end to end. -/
def cat4 (a b c d : Fin 64 → EReal) (k : Fin 256) : EReal :=
  if h₁ : k.val < 64 then a ⟨k.val, h₁⟩
  else if h₂ : k.val < 128 then b ⟨k.val - 64, by omega⟩
  else if h₃ : k.val < 192 then c ⟨k.val - 128, by omega⟩
  else d ⟨k.val - 192, by omega⟩

/-- Three 64-long rows laid end to end. -/
def cat3 (a b c : Fin 64 → EReal) (k : Fin 192) : EReal :=
  if h₁ : k.val < 64 then a ⟨k.val, h₁⟩
  else if h₂ : k.val < 128 then b ⟨k.val - 64, by omega⟩
  else c ⟨k.val - 128, by omega⟩

/-- The hidden layer as the kernel adds it up: one partial product per 64-long piece, each against its own band of
    the weights' rows, then the bias. -/
def hid4 {H : ℕ} (a b c d : Fin 64 → EReal) (W : Fin 256 → Fin H → EReal) (bias : Fin H → EReal) (j : Fin H) : EReal :=
  ((((∑ k : Fin 64, a k * W ⟨k.val, by omega⟩ j) + ∑ k : Fin 64, b k * W ⟨64 + k.val, by omega⟩ j)
      + ∑ k : Fin 64, c k * W ⟨128 + k.val, by omega⟩ j) + ∑ k : Fin 64, d k * W ⟨192 + k.val, by omega⟩ j) + bias j

/-- The same with three pieces. -/
def hid3 {H : ℕ} (a b c : Fin 64 → EReal) (W : Fin 192 → Fin H → EReal) (bias : Fin H → EReal) (j : Fin H) : EReal :=
  (((∑ k : Fin 64, a k * W ⟨k.val, by omega⟩ j) + ∑ k : Fin 64, b k * W ⟨64 + k.val, by omega⟩ j)
      + ∑ k : Fin 64, c k * W ⟨128 + k.val, by omega⟩ j) + bias j

/-- A sum over `Fin (m + 64)` is the sum over its first `m` terms plus the sum over its last 64. -/
theorem sum_split_last {m : ℕ} (f : Fin (m + 64) → EReal) :
    ∑ k, f k = (∑ k : Fin m, f ⟨k.val, by omega⟩) + ∑ k : Fin 64, f ⟨m + k.val, by omega⟩ := by
  rw [Fin.sum_univ_add]
  rfl

theorem hid4_eq {H : ℕ} (a b c d : Fin 64 → EReal) (W : Fin 256 → Fin H → EReal) (bias : Fin H → EReal) (j : Fin H) :
    hid4 a b c d W bias j = hid (cat4 a b c d) W bias j := by
  unfold hid4 hid
  congr 1
  rw [sum_split_last (m := 192) (fun k => cat4 a b c d k * W k j),
    sum_split_last (m := 128) (fun k : Fin (128 + 64) => cat4 a b c d ⟨k.val, by omega⟩ * W ⟨k.val, by omega⟩ j),
    sum_split_last (m := 64) (fun k : Fin (64 + 64) => cat4 a b c d ⟨k.val, by omega⟩ * W ⟨k.val, by omega⟩ j)]
  refine congrArg₂ (· + ·) (congrArg₂ (· + ·) (congrArg₂ (· + ·) ?_ ?_) ?_) ?_ <;>
    refine Finset.sum_congr rfl fun k _ => ?_
  · have hk := k.isLt
    show a k * _ = cat4 a b c d ⟨k.val, _⟩ * _
    unfold cat4; rw [dif_pos (show k.val < 64 from hk)]
  · have hk := k.isLt
    show b k * _ = cat4 a b c d ⟨64 + k.val, _⟩ * _
    unfold cat4
    rw [dif_neg (show ¬ (64 + k.val < 64) by omega), dif_pos (show 64 + k.val < 128 by omega)]
    congr 2; exact Fin.ext (by simp)
  · have hk := k.isLt
    show c k * _ = cat4 a b c d ⟨128 + k.val, _⟩ * _
    unfold cat4
    rw [dif_neg (show ¬ (128 + k.val < 64) by omega), dif_neg (show ¬ (128 + k.val < 128) by omega),
      dif_pos (show 128 + k.val < 192 by omega)]
    congr 2; exact Fin.ext (by simp)
  · have hk := k.isLt
    show d k * _ = cat4 a b c d ⟨192 + k.val, _⟩ * _
    unfold cat4
    rw [dif_neg (show ¬ (192 + k.val < 64) by omega), dif_neg (show ¬ (192 + k.val < 128) by omega),
      dif_neg (show ¬ (192 + k.val < 192) by omega)]
    congr 2; exact Fin.ext (by simp)

theorem hid3_eq {H : ℕ} (a b c : Fin 64 → EReal) (W : Fin 192 → Fin H → EReal) (bias : Fin H → EReal) (j : Fin H) :
    hid3 a b c W bias j = hid (cat3 a b c) W bias j := by
  unfold hid3 hid
  congr 1
  rw [sum_split_last (m := 128) (fun k => cat3 a b c k * W k j),
    sum_split_last (m := 64) (fun k : Fin (64 + 64) => cat3 a b c ⟨k.val, by omega⟩ * W ⟨k.val, by omega⟩ j)]
  refine congrArg₂ (· + ·) (congrArg₂ (· + ·) ?_ ?_) ?_ <;>
    refine Finset.sum_congr rfl fun k _ => ?_
  · have hk := k.isLt
    show a k * _ = cat3 a b c ⟨k.val, _⟩ * _
    unfold cat3; rw [dif_pos (show k.val < 64 from hk)]
  · have hk := k.isLt
    show b k * _ = cat3 a b c ⟨64 + k.val, _⟩ * _
    unfold cat3
    rw [dif_neg (show ¬ (64 + k.val < 64) by omega), dif_pos (show 64 + k.val < 128 by omega)]
    congr 2; exact Fin.ext (by simp)
  · have hk := k.isLt
    show c k * _ = cat3 a b c ⟨128 + k.val, _⟩ * _
    unfold cat3
    rw [dif_neg (show ¬ (128 + k.val < 64) by omega), dif_neg (show ¬ (128 + k.val < 128) by omega)]
    congr 2; exact Fin.ext (by simp)

/-- A sum over `T * R` rows is the sum, over the `T` tiles, of each tile's `R` rows; row `r` of tile `t` is row
    `R * t + r`. -/
theorem sum_tiles (T R : ℕ) (f : Fin (T * R) → EReal) :
    ∑ e, f e = ∑ t : Fin T, ∑ r : Fin R, f ⟨R * t.val + r.val, by
      have := t.isLt; have := r.isLt
      calc R * t.val + r.val < R * t.val + R := by omega
        _ = R * (t.val + 1) := by ring
        _ ≤ R * T := Nat.mul_le_mul_left _ (by omega)
        _ = T * R := Nat.mul_comm _ _⟩ := by
  rw [← Finset.sum_product', ← Equiv.sum_comp (finProdFinEquiv (m := T) (n := R))]
  refine Finset.sum_congr rfl fun p _ => ?_
  congr 1
  exact Fin.ext (by simp [finProdFinEquiv, Nat.add_comm])

/-! ## The arrays

  A rank-two array of the programs is a function on index tuples; `ix2 e k` is the tuple `(e, k)`. -/

open Idealize.ShloMosaic Idealize.ShloMosaic.ValueIdx

/-- A rank-two array of extended reals with `n` rows and `k` columns. -/
abbrev Arr2 (n k : ℕ) : Type := (⟨2, ![n, k]⟩ : Shape).Idx → EReal

/-- Row `e` of an array. -/
def row {n k : ℕ} (x : Arr2 n k) (e : Fin n) : Fin k → EReal := fun j => x (ix2 e j)

/-- An array as a matrix. -/
def mat {n k : ℕ} (x : Arr2 n k) : Fin n → Fin k → EReal := fun a b => x (ix2 a b)

/-- THE EDGE UPDATE (before the residual), reference form: edge `e`'s perceptron output from the concatenation of
    its sender's row, its receiver's row, its own features and the global row. -/
def edgeUpd (xs xd ef : Arr2 800000 64) (u : Fin 64 → EReal) (W₁ : Fin 256 → Fin 128 → EReal) (b₁ : Fin 128 → EReal)
    (W₂ : Fin 128 → Fin 64 → EReal) (b₂ : Fin 64 → EReal) : Arr2 800000 64 :=
  fun i => out (hid (cat4 (row xs (i 0)) (row xd (i 0)) (row ef (i 0)) u) W₁ b₁) W₂ b₂ (i 1)

/-- The same as the kernel adds it up: one partial product per piece. -/
def edgeUpdK (xs xd ef : Arr2 800000 64) (u : Fin 64 → EReal) (W₁ : Fin 256 → Fin 128 → EReal) (b₁ : Fin 128 → EReal)
    (W₂ : Fin 128 → Fin 64 → EReal) (b₂ : Fin 64 → EReal) : Arr2 800000 64 :=
  fun i => out (hid4 (row xs (i 0)) (row xd (i 0)) (row ef (i 0)) u W₁ b₁) W₂ b₂ (i 1)

theorem edgeUpdK_eq (xs xd ef : Arr2 800000 64) (u : Fin 64 → EReal) (W₁ : Fin 256 → Fin 128 → EReal) (b₁ : Fin 128 → EReal)
    (W₂ : Fin 128 → Fin 64 → EReal) (b₂ : Fin 64 → EReal) :
    edgeUpdK xs xd ef u W₁ b₁ W₂ b₂ = edgeUpd xs xd ef u W₁ b₁ W₂ b₂ := by
  funext i
  unfold edgeUpdK edgeUpd
  exact congrArg (fun h => out h W₂ b₂ (i 1)) (funext fun j => hid4_eq _ _ _ _ _ _ j)

/-- THE NODE UPDATE (before the residual), reference form: node `n`'s perceptron output from the concatenation of
    its aggregated messages, its own features and the global row. -/
def nodeUpd (agg nf : Arr2 50000 64) (u : Fin 64 → EReal) (W₁ : Fin 192 → Fin 128 → EReal) (b₁ : Fin 128 → EReal)
    (W₂ : Fin 128 → Fin 64 → EReal) (b₂ : Fin 64 → EReal) : Arr2 50000 64 :=
  fun i => out (hid (cat3 (row agg (i 0)) (row nf (i 0)) u) W₁ b₁) W₂ b₂ (i 1)

/-- The same as the kernel adds it up. -/
def nodeUpdK (agg nf : Arr2 50000 64) (u : Fin 64 → EReal) (W₁ : Fin 192 → Fin 128 → EReal) (b₁ : Fin 128 → EReal)
    (W₂ : Fin 128 → Fin 64 → EReal) (b₂ : Fin 64 → EReal) : Arr2 50000 64 :=
  fun i => out (hid3 (row agg (i 0)) (row nf (i 0)) u W₁ b₁) W₂ b₂ (i 1)

theorem nodeUpdK_eq (agg nf : Arr2 50000 64) (u : Fin 64 → EReal) (W₁ : Fin 192 → Fin 128 → EReal) (b₁ : Fin 128 → EReal)
    (W₂ : Fin 128 → Fin 64 → EReal) (b₂ : Fin 64 → EReal) :
    nodeUpdK agg nf u W₁ b₁ W₂ b₂ = nodeUpd agg nf u W₁ b₁ W₂ b₂ := by
  funext i
  unfold nodeUpdK nodeUpd
  exact congrArg (fun h => out h W₂ b₂ (i 1)) (funext fun j => hid3_eq _ _ _ _ _ j)

/-- The column sums of an array, as a one-row array. -/
def colSum {n k : ℕ} (x : Arr2 n k) : Arr2 1 k := fun i => ∑ e : Fin n, x (ix2 e (i 1))

end Cert.Spec

end
-- ==== Proof.KI.EdgePay.lean ====
/-
  The edge kernel's arithmetic, read at one index.

  On a tile of 8000 edges the kernel forms, for edge `r` and hidden unit `j`, four partial products — the sender's row,
  the receiver's row and the edge's own features, each against its own band of 64 rows of the first weight matrix, and
  the global row against the fourth band, the same for every edge — and adds the bias: that is `Spec.hid4`.  It then
  takes the positive part, multiplies by the second weight matrix and adds the second bias (`Spec.out`), adds the
  edge's own features for the residual output, and adds the tile's column sums to a one-row accumulator.  On the
  extended reals the narrowing to sixteen bits is the identity, a product into a zero accumulator is the plain sum over
  the contracted axis, and the zero word is `0`, so each of these values, read at an index, is the formula itself.
-/
import proofs.«426020_j49563922596335_1_alg».proof.Proof.Gen.KernelIdeal.Skeleton
import proofs.«426020_j49563922596335_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EdgePay

open Cert.KernelIdeal Cert.KernelIdeal.Gen Idealize.ShloMosaic Idealize.ShloMosaic.ValueIdx

/-! ## The three products at an index

  Each product contracts the left operand's columns with the right operand's rows.  The operand indices of the
  dimension numbers at output `(r, j)` and contraction coordinate `k` are `(r, k)` and `(k, j)`: one lemma per axis,
  then the contraction index is traded for its one coordinate. -/

theorem lhs_band_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhs_band_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhs_band_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhs_band_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- A tile of rows against one band of the first weights, into zero: the sum over the band's 64 rows. -/
theorem band_product_apply (l : FVec Ideal S8000x64 .bf16) (w : FVec Ideal S64x128 .bf16) (r : Fin 8000) (j : Fin 128) :
    matmul dot_S8000x64_S64x128_S8000x128_1_0_0_1_n_n none l w (constant (F := Ideal) S8000x128 .f32 0x00000000#32) (ix2 r j)
      = ∑ k : Fin 64, l (ix2 r k) * w (ix2 k j) := by
  simp only [matmul]
  rw [Ideal.matmul_constant_zero_apply, ← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 r j) ((contrEquiv1 dot_S8000x64_S64x128_S8000x128_1_0_0_1_n_n 64 rfl rfl).symm k) = ix2 r k := funext fun a => Fin.ext (by
    match a with
    | ⟨0, _⟩ => exact lhs_band_0 _ _
    | ⟨1, _⟩ => exact (lhs_band_1 _ _).trans hk)
  have er : dot_S8000x64_S64x128_S8000x128_1_0_0_1_n_n.rhsIdx (ix2 r j) ((contrEquiv1 dot_S8000x64_S64x128_S8000x128_1_0_0_1_n_n 64 rfl rfl).symm k) = ix2 k j := funext fun a => Fin.ext (by
    match a with
    | ⟨0, _⟩ => exact (rhs_band_0 _ _).trans hk
    | ⟨1, _⟩ => exact rhs_band_1 _ _)
  rw [el, er]

theorem lhs_glob_0 (i : S1x128.Idx) (q : dot_S1x64_S64x128_S1x128_1_0_0_1_n_n.contr.Idx) :
    (dot_S1x64_S64x128_S1x128_1_0_0_1_n_n.lhsIdx i q 0).val = (i 0).val := by
  unfold DotDims.lhsIdx
  rw [dif_neg (show ¬(0 : Fin S1x64.rank) ∈ dot_S1x64_S64x128_S1x128_1_0_0_1_n_n.lhsBatch by decide), dif_pos (show (0 : Fin S1x64.rank) ∈ dot_S1x64_S64x128_S1x128_1_0_0_1_n_n.lhsNonContracting by decide)]
  rfl
theorem lhs_glob_1 (i : S1x128.Idx) (q : dot_S1x64_S64x128_S1x128_1_0_0_1_n_n.contr.Idx) :
    (dot_S1x64_S64x128_S1x128_1_0_0_1_n_n.lhsIdx i q 1).val = (q ⟨0, by decide⟩).val :=
  dot_S1x64_S64x128_S1x128_1_0_0_1_n_n.lhsIdx_val_of_single rfl i q
theorem rhs_glob_0 (i : S1x128.Idx) (q : dot_S1x64_S64x128_S1x128_1_0_0_1_n_n.contr.Idx) :
    (dot_S1x64_S64x128_S1x128_1_0_0_1_n_n.rhsIdx i q 0).val = (q ⟨0, by decide⟩).val :=
  dot_S1x64_S64x128_S1x128_1_0_0_1_n_n.rhsIdx_val_of_single rfl i q
theorem rhs_glob_1 (i : S1x128.Idx) (q : dot_S1x64_S64x128_S1x128_1_0_0_1_n_n.contr.Idx) :
    (dot_S1x64_S64x128_S1x128_1_0_0_1_n_n.rhsIdx i q 1).val = (i 1).val := by
  unfold DotDims.rhsIdx
  rw [dif_neg (show ¬(1 : Fin S64x128.rank) ∈ dot_S1x64_S64x128_S1x128_1_0_0_1_n_n.rhsBatch by decide), dif_pos (show (1 : Fin S64x128.rank) ∈ dot_S1x64_S64x128_S1x128_1_0_0_1_n_n.rhsNonContracting by decide)]
  rfl

/-- The global row against the fourth band, into zero. -/
theorem glob_product_apply (l : FVec Ideal S1x64 .bf16) (w : FVec Ideal S64x128 .bf16) (r : Fin 1) (j : Fin 128) :
    matmul dot_S1x64_S64x128_S1x128_1_0_0_1_n_n none l w (constant (F := Ideal) S1x128 .f32 0x00000000#32) (ix2 r j)
      = ∑ k : Fin 64, l (ix2 r k) * w (ix2 k j) := by
  simp only [matmul]
  rw [Ideal.matmul_constant_zero_apply, ← Equiv.sum_comp (contrEquiv1 dot_S1x64_S64x128_S1x128_1_0_0_1_n_n 64 rfl rfl).symm]
  refine Finset.sum_congr rfl fun k _ => ?_
  have hk := contrEquiv1_symm_val dot_S1x64_S64x128_S1x128_1_0_0_1_n_n 64 rfl rfl k
  have el : dot_S1x64_S64x128_S1x128_1_0_0_1_n_n.lhsIdx (ix2 r j) ((contrEquiv1 dot_S1x64_S64x128_S1x128_1_0_0_1_n_n 64 rfl rfl).symm k) = ix2 r k := funext fun a => Fin.ext (by
    match a with
    | ⟨0, _⟩ => exact lhs_glob_0 _ _
    | ⟨1, _⟩ => exact (lhs_glob_1 _ _).trans hk)
  have er : dot_S1x64_S64x128_S1x128_1_0_0_1_n_n.rhsIdx (ix2 r j) ((contrEquiv1 dot_S1x64_S64x128_S1x128_1_0_0_1_n_n 64 rfl rfl).symm k) = ix2 k j := funext fun a => Fin.ext (by
    match a with
    | ⟨0, _⟩ => exact (rhs_glob_0 _ _).trans hk
    | ⟨1, _⟩ => exact rhs_glob_1 _ _)
  rw [el, er]

theorem lhs_outp_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs_outp_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhs_outp_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhs_outp_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- The hidden layer's positive part against the second weights, into zero: the sum over the 128 hidden units. -/
theorem out_product_apply (l : FVec Ideal S8000x128 .bf16) (w : FVec Ideal S128x64 .bf16) (r : Fin 8000) (j : Fin 64) :
    matmul dot_S8000x128_S128x64_S8000x64_1_0_0_1_n_n none l w (constant (F := Ideal) S8000x64 .f32 0x00000000#32) (ix2 r j)
      = ∑ k : Fin 128, l (ix2 r k) * w (ix2 k j) := by
  simp only [matmul]
  rw [Ideal.matmul_constant_zero_apply, ← Equiv.sum_comp (contrEquiv1 dot_S8000x128_S128x64_S8000x64_1_0_0_1_n_n 128 rfl rfl).symm]
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx (ix2 r j) ((contrEquiv1 dot_S8000x128_S128x64_S8000x64_1_0_0_1_n_n 128 rfl rfl).symm k) = ix2 r k := funext fun a => Fin.ext (by
    match a with
    | ⟨0, _⟩ => exact lhs_outp_0 _ _
    | ⟨1, _⟩ => exact (lhs_outp_1 _ _).trans hk)
  have er : dot_S8000x128_S128x64_S8000x64_1_0_0_1_n_n.rhsIdx (ix2 r j) ((contrEquiv1 dot_S8000x128_S128x64_S8000x64_1_0_0_1_n_n 128 rfl rfl).symm k) = ix2 k j := funext fun a => Fin.ext (by
    match a with
    | ⟨0, _⟩ => exact (rhs_outp_0 _ _).trans hk
    | ⟨1, _⟩ => exact rhs_outp_1 _ _)
  rw [el, er]

/-! ## The bands of the first weights

  Band `n` of the 256 rows is rows `64 n … 64 n + 63`. -/

theorem band0_apply (w : FVec Ideal S256x128 .bf16) (h : S256x128.Slices ![0, 0] S64x128) (k : Fin 64) (j : Fin 128) :
    extractStridedSlice S64x128 ![0, 0] w h (ix2 k j) = w (ix2 ⟨k.val, by omega⟩ j) :=
  slice2_axis0_apply 0 w h k j _ (Nat.zero_add _).symm
theorem band1_apply (w : FVec Ideal S256x128 .bf16) (h : S256x128.Slices ![64, 0] S64x128) (k : Fin 64) (j : Fin 128) :
    extractStridedSlice S64x128 ![64, 0] w h (ix2 k j) = w (ix2 ⟨64 + k.val, by omega⟩ j) :=
  slice2_axis0_apply 64 w h k j _ rfl
theorem band2_apply (w : FVec Ideal S256x128 .bf16) (h : S256x128.Slices ![128, 0] S64x128) (k : Fin 64) (j : Fin 128) :
    extractStridedSlice S64x128 ![128, 0] w h (ix2 k j) = w (ix2 ⟨128 + k.val, by omega⟩ j) :=
  slice2_axis0_apply 128 w h k j _ rfl
theorem band3_apply (w : FVec Ideal S256x128 .bf16) (h : S256x128.Slices ![192, 0] S64x128) (k : Fin 64) (j : Fin 128) :
    extractStridedSlice S64x128 ![192, 0] w h (ix2 k j) = w (ix2 ⟨192 + k.val, by omega⟩ j) :=
  slice2_axis0_apply 192 w h k j _ rfl

/-! ## The hidden layer before its positive part -/

/-- The hidden pre-activation of edge `r` at unit `j`: the four partial products and the bias. -/
theorem pay7_apply (x0 x1 x2 : Vec Ideal S8000x64 .f32) (u : Vec Ideal S1x64 .f32) (w1 : Vec Ideal S256x128 .f32)
    (b1 : Vec Ideal S1x128 .f32) (r : Fin 8000) (j : Fin 128) :
    k0_pay7 x0 x1 x2 u w1 b1 (ix2 r j)
      = Spec.hid4 (fun k => x0 (ix2 r k)) (fun k => x1 (ix2 r k)) (fun k => x2 (ix2 r k)) (fun k => u (ix2 0 k))
          (fun k j => w1 (ix2 k j)) (fun j => b1 (ix2 0 j)) j := by
  unfold k0_pay7 Spec.hid4
  simp only [addf_apply]
  rw [band_product_apply, band_product_apply, band_product_apply, broadcastTo_1b_ab_apply, broadcastTo_1b_ab_apply,
    glob_product_apply]
  simp only [truncf_apply, shapeCast_self, band0_apply, band1_apply, band2_apply, band3_apply]

/-! ## The output layer, the residual and the column sums -/

/-- The output layer over any hidden layer `h`: its positive part against the second weights, plus the second bias.
    The splat the maximum is taken against is the zero word. -/
theorem pay1_apply_of (w2 : Vec Ideal S128x64 .f32) (b2 : Vec Ideal S1x64 .f32) (h : FVec Ideal S8000x128 .f32)
    (r : Fin 8000) (d : Fin 64) :
    k0_pay1 (k0_pay5 w2) (k0_pay6 b2) h (Scalar.ofBits (F := Ideal) .f32 0x00000000#32) (ix2 r d)
      = Spec.out (fun j => h (ix2 r j)) (fun j d => w2 (ix2 j d)) (fun d => b2 (ix2 0 d)) d := by
  unfold k0_pay1 k0_pay5 k0_pay6 Spec.out
  simp only [addf_apply]
  rw [out_product_apply, broadcastTo_1b_ab_apply]
  simp only [truncf_apply, maximumf_apply, broadcast_apply, shapeCast_self]
  rw [show Scalar.ofBits (F := Ideal) .f32 0x00000000#32 = (0 : EReal) from Ideal.ofBits_zero_f32]

/-- Edge `r`'s perceptron output at `d`. -/
theorem pay1_apply (x0 x1 x2 : Vec Ideal S8000x64 .f32) (u : Vec Ideal S1x64 .f32) (w1 : Vec Ideal S256x128 .f32)
    (b1 : Vec Ideal S1x128 .f32) (w2 : Vec Ideal S128x64 .f32) (b2 : Vec Ideal S1x64 .f32) (r : Fin 8000) (d : Fin 64) :
    k0_pay1 (k0_pay5 w2) (k0_pay6 b2) (k0_pay7 x0 x1 x2 u w1 b1) (Scalar.ofBits (F := Ideal) .f32 0x00000000#32) (ix2 r d)
      = Spec.out (Spec.hid4 (fun k => x0 (ix2 r k)) (fun k => x1 (ix2 r k)) (fun k => x2 (ix2 r k)) (fun k => u (ix2 0 k))
            (fun k j => w1 (ix2 k j)) (fun j => b1 (ix2 0 j)))
          (fun j d => w2 (ix2 j d)) (fun d => b2 (ix2 0 d)) d := by
  rw [pay1_apply_of]
  exact congrArg (fun h => Spec.out h (fun j d => w2 (ix2 j d)) (fun d => b2 (ix2 0 d)) d)
    (funext fun j => pay7_apply x0 x1 x2 u w1 b1 r j)

/-- The residual output: the perceptron output plus the edge's own features. -/
theorem pay2_apply (x0 x1 x2 : Vec Ideal S8000x64 .f32) (u : Vec Ideal S1x64 .f32) (w1 : Vec Ideal S256x128 .f32)
    (b1 : Vec Ideal S1x128 .f32) (w2 : Vec Ideal S128x64 .f32) (b2 : Vec Ideal S1x64 .f32) (r : Fin 8000) (d : Fin 64) :
    k0_pay2 (k0_pay5 w2) (k0_pay6 b2) (k0_pay7 x0 x1 x2 u w1 b1) (Scalar.ofBits (F := Ideal) .f32 0x00000000#32) x2 (ix2 r d)
      = Spec.out (Spec.hid4 (fun k => x0 (ix2 r k)) (fun k => x1 (ix2 r k)) (fun k => x2 (ix2 r k)) (fun k => u (ix2 0 k))
            (fun k j => w1 (ix2 k j)) (fun j => b1 (ix2 0 j)))
          (fun j d => w2 (ix2 j d)) (fun d => b2 (ix2 0 d)) d + x2 (ix2 r d) := by
  show k0_pay1 (k0_pay5 w2) (k0_pay6 b2) (k0_pay7 x0 x1 x2 u w1 b1) (Scalar.ofBits (F := Ideal) .f32 0x00000000#32) (ix2 r d) + x2 (ix2 r d) = _
  rw [pay1_apply]

/-- A sum over the rows of a tile, at column `d`: the reduction over axis 0 read at `d`. -/
theorem colsum_apply (src : FVec Ideal S8000x64 .f32) (h : S8000x64.Reduces [0] S64) (hφ : FKind.Formats .f32)
    (hacc : (0x00000000#32 : BitVec 32) = 0x00000000#32) (d : Fin 64) :
    multiReduction (F := Ideal) .add [0] S64 src 0x00000000#32 h hφ hacc (ix1 d) = ∑ r : Fin 8000, src (ix2 r d) := by
  refine (Ideal.multiReduction_add_single src 0x00000000#32 h hφ hacc (ix1 d)).trans ?_
  show ∑ r : Fin 8000, src (h.lift (ix1 d) r) = _
  refine Finset.sum_congr rfl fun r _ => congrArg src ?_
  funext a
  refine Fin.ext ?_
  match a with
  | ⟨0, _⟩ => rfl
  | ⟨1, _⟩ => rfl

/-- The accumulator after a tile: what it held plus the tile's column sums of the perceptron output. -/
theorem pay3_apply (x0 x1 x2 : Vec Ideal S8000x64 .f32) (u : Vec Ideal S1x64 .f32) (w1 : Vec Ideal S256x128 .f32)
    (b1 : Vec Ideal S1x128 .f32) (w2 : Vec Ideal S128x64 .f32) (b2 : Vec Ideal S1x64 .f32) (acc : Vec Ideal S1x64 .f32) (d : Fin 64) :
    k0_pay3 (k0_pay5 w2) (k0_pay6 b2) (k0_pay7 x0 x1 x2 u w1 b1) (Scalar.ofBits (F := Ideal) .f32 0x00000000#32) acc (ix2 0 d)
      = acc (ix2 0 d) + ∑ r : Fin 8000, Spec.out (Spec.hid4 (fun k => x0 (ix2 r k)) (fun k => x1 (ix2 r k)) (fun k => x2 (ix2 r k)) (fun k => u (ix2 0 k))
            (fun k j => w1 (ix2 k j)) (fun j => b1 (ix2 0 j)))
          (fun j d => w2 (ix2 j d)) (fun d => b2 (ix2 0 d)) d := by
  unfold k0_pay3
  simp only [addf_apply, shapeCast_self]
  rw [shapeCast_a_1a_apply, colsum_apply]
  simp only [pay1_apply]

/-- The accumulator's first value: zero. -/
theorem pay4_apply (d : Fin 64) : k0_pay4 (F := Ideal) (ix2 0 d) = 0 := by
  unfold k0_pay4
  exact Ideal.ofBits_zero_f32

end Cert.KernelIdeal.EdgePay

end
-- ==== Proof.KI.EdgeArr.lean ====
/- The edge region's geometry, for any float instance. The region runs a grid of 100 points over 800000 rows in
   tiles of 8000: a row-tiled window's block at point `t` is rows `8000·t … 8000·t + 7999` of its array; a small
   operand's block is its whole array at every point. Read the other way: when every point leaves, in a row-tiled
   result's staging buffer, its own rows of one function `G` of the array's indices, the array ends holding `G`;
   and the accumulated [1,64] result, written back once after the last point, ends holding what that point left. -/
import proofs.«426020_j49563922596335_1_alg».proof.Proof.Gen.KernelIdeal.Launch
import proofs.«426020_j49563922596335_1_alg».proof.Proof.Gen.KernelIdeal.Points
import Idealize.ShloMosaic.Lib.Pipeline.FrameBody
import Idealize.ShloMosaic.Lib.Pipeline.Value
import Idealize.ShloMosaic.Lib.ValueIdx

set_option maxRecDepth 16384

noncomputable section

namespace Cert.KernelIdeal.EdgeArr

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable {F : FTy → Type} [FloatOps F]

-- The unscoped buffers' contents when the region is entered, per core: a parameter of everything below.
variable (V : (c : Dev nD) → (b : Ref sig .tc) → Buf (Elt F) ((c : Thread nD τ).loc b))

/-! ## Rows of a tile -/

/-- A grid point is below 100. -/
theorem point_lt (t : Fin cfg0.N) : t.val < 100 := t.isLt.trans_eq N_0

/-- The last grid point. -/
abbrev lastPoint : Fin cfg0.N := ⟨99, by rw [show cfg0.N = 100 from N_0]; decide⟩

/-- Entry `y` of tile `t` sits in the [800000,64] array at row `8000·t + y₀`, column `y₁`. -/
abbrev rowIx (t : Fin cfg0.N) (y : S8000x64.Idx) : S800000x64.Idx :=
  ix2 ⟨8000 * t.val + (y 0).val, by have := point_lt t; have := idx2_lt0 y; omega⟩ ⟨(y 1).val, idx2_lt1 y⟩

/-! ## The index maps, decided over the 100 points -/

/-- Window 0 (rows of `main_v0`): block `(t, 0)` at point `t`. -/
theorem index0 : ∀ t : Fin cfg0.N, win0_0.index t (0 : Fin 2) = t.val ∧ win0_0.index t (1 : Fin 2) = 0 :=
  (by decide +kernel : ∀ t : Fin grid0.N, _)

/-- Window 1 (rows of `main_v1`): block `(t, 0)` at point `t`. -/
theorem index1 : ∀ t : Fin cfg0.N, win0_1.index t (0 : Fin 2) = t.val ∧ win0_1.index t (1 : Fin 2) = 0 :=
  (by decide +kernel : ∀ t : Fin grid0.N, _)

/-- Window 2 (rows of `main_arg1`): block `(t, 0)` at point `t`. -/
theorem index2 : ∀ t : Fin cfg0.N, win0_2.index t (0 : Fin 2) = t.val ∧ win0_2.index t (1 : Fin 2) = 0 :=
  (by decide +kernel : ∀ t : Fin grid0.N, _)

/-- Window 3 (`main_arg2`, [1,64]): block `(0, 0)` at every point. -/
theorem index3 : ∀ t : Fin cfg0.N, win0_3.index t (0 : Fin 2) = 0 ∧ win0_3.index t (1 : Fin 2) = 0 :=
  (by decide +kernel : ∀ t : Fin grid0.N, _)

/-- Window 4 (`main_arg3`, [256,128]): block `(0, 0)` at every point. -/
theorem index4 : ∀ t : Fin cfg0.N, win0_4.index t (0 : Fin 2) = 0 ∧ win0_4.index t (1 : Fin 2) = 0 :=
  (by decide +kernel : ∀ t : Fin grid0.N, _)

/-- Window 5 (`main_v2`, [1,128]): block `(0, 0)` at every point. -/
theorem index5 : ∀ t : Fin cfg0.N, win0_5.index t (0 : Fin 2) = 0 ∧ win0_5.index t (1 : Fin 2) = 0 :=
  (by decide +kernel : ∀ t : Fin grid0.N, _)

/-- Window 6 (`main_arg5`, [128,64]): block `(0, 0)` at every point. -/
theorem index6 : ∀ t : Fin cfg0.N, win0_6.index t (0 : Fin 2) = 0 ∧ win0_6.index t (1 : Fin 2) = 0 :=
  (by decide +kernel : ∀ t : Fin grid0.N, _)

/-- Window 7 (`main_v3`, [1,64]): block `(0, 0)` at every point. -/
theorem index7 : ∀ t : Fin cfg0.N, win0_7.index t (0 : Fin 2) = 0 ∧ win0_7.index t (1 : Fin 2) = 0 :=
  (by decide +kernel : ∀ t : Fin grid0.N, _)

/-- Window 8 (rows of `main_v6_0`): block `(t, 0)` at point `t`. -/
theorem index8 : ∀ t : Fin cfg0.N, win0_8.index t (0 : Fin 2) = t.val ∧ win0_8.index t (1 : Fin 2) = 0 :=
  (by decide +kernel : ∀ t : Fin grid0.N, _)

/-- Window 9 (rows of `main_v6_1`): block `(t, 0)` at point `t`. -/
theorem index9 : ∀ t : Fin cfg0.N, win0_9.index t (0 : Fin 2) = t.val ∧ win0_9.index t (1 : Fin 2) = 0 :=
  (by decide +kernel : ∀ t : Fin grid0.N, _)

/-- Window 10 (`main_v6_2`, the [1,64] accumulator): block `(0, 0)` at every point. -/
theorem index10 : ∀ t : Fin cfg0.N, win0_10.index t (0 : Fin 2) = 0 ∧ win0_10.index t (1 : Fin 2) = 0 :=
  (by decide +kernel : ∀ t : Fin grid0.N, _)

/-! ## Input blocks as rows of their arrays -/

/-- Window 0's block at point `t` is rows `8000·t … 8000·t + 7999` of `main_v0`. -/
theorem blk_rows0 (c : Dev nD) (t : Fin cfg0.N) (y : S8000x64.Idx) :
    ((cfg0.win 0).blk t).view.read (Elt F) (V c (Pipeline.arrRef spec0 0)) y
      = (V c (Pipeline.arrRef spec0 0) : S800000x64.Idx → Elt F .f32) (rowIx t y) := by
  obtain ⟨e0, e1⟩ := index0 t
  show (V c (Pipeline.arrRef spec0 0) : S800000x64.Idx → Elt F .f32) (((cfg0.win 0).blk t).view.emb y) = _
  congr 1
  funext a; apply Fin.ext
  match a with
  | ⟨0, _⟩ => show win0_0.index t (0 : Fin 2) * 8000 + 1 * (y 0).val = 8000 * t.val + (y 0).val; omega
  | ⟨1, _⟩ => show win0_0.index t (1 : Fin 2) * 64 + 1 * (y 1).val = (y 1).val; omega

/-- The same, for the whole block at once. -/
theorem blk_rows0_fun (c : Dev nD) (t : Fin cfg0.N) :
    (((cfg0.win 0).blk t).view.read (Elt F) (V c (Pipeline.arrRef spec0 0)) : S8000x64.Idx → Elt F .f32)
      = fun y => (V c (Pipeline.arrRef spec0 0) : S800000x64.Idx → Elt F .f32) (rowIx t y) :=
  funext fun y => blk_rows0 V c t y

/-- Window 1's block at point `t` is rows `8000·t … 8000·t + 7999` of `main_v1`. -/
theorem blk_rows1 (c : Dev nD) (t : Fin cfg0.N) (y : S8000x64.Idx) :
    ((cfg0.win 1).blk t).view.read (Elt F) (V c (Pipeline.arrRef spec0 1)) y
      = (V c (Pipeline.arrRef spec0 1) : S800000x64.Idx → Elt F .f32) (rowIx t y) := by
  obtain ⟨e0, e1⟩ := index1 t
  show (V c (Pipeline.arrRef spec0 1) : S800000x64.Idx → Elt F .f32) (((cfg0.win 1).blk t).view.emb y) = _
  congr 1
  funext a; apply Fin.ext
  match a with
  | ⟨0, _⟩ => show win0_1.index t (0 : Fin 2) * 8000 + 1 * (y 0).val = 8000 * t.val + (y 0).val; omega
  | ⟨1, _⟩ => show win0_1.index t (1 : Fin 2) * 64 + 1 * (y 1).val = (y 1).val; omega

/-- The same, for the whole block at once. -/
theorem blk_rows1_fun (c : Dev nD) (t : Fin cfg0.N) :
    (((cfg0.win 1).blk t).view.read (Elt F) (V c (Pipeline.arrRef spec0 1)) : S8000x64.Idx → Elt F .f32)
      = fun y => (V c (Pipeline.arrRef spec0 1) : S800000x64.Idx → Elt F .f32) (rowIx t y) :=
  funext fun y => blk_rows1 V c t y

/-- Window 2's block at point `t` is rows `8000·t … 8000·t + 7999` of `main_arg1`. -/
theorem blk_rows2 (c : Dev nD) (t : Fin cfg0.N) (y : S8000x64.Idx) :
    ((cfg0.win 2).blk t).view.read (Elt F) (V c (Pipeline.arrRef spec0 2)) y
      = (V c (Pipeline.arrRef spec0 2) : S800000x64.Idx → Elt F .f32) (rowIx t y) := by
  obtain ⟨e0, e1⟩ := index2 t
  show (V c (Pipeline.arrRef spec0 2) : S800000x64.Idx → Elt F .f32) (((cfg0.win 2).blk t).view.emb y) = _
  congr 1
  funext a; apply Fin.ext
  match a with
  | ⟨0, _⟩ => show win0_2.index t (0 : Fin 2) * 8000 + 1 * (y 0).val = 8000 * t.val + (y 0).val; omega
  | ⟨1, _⟩ => show win0_2.index t (1 : Fin 2) * 64 + 1 * (y 1).val = (y 1).val; omega

/-- The same, for the whole block at once. -/
theorem blk_rows2_fun (c : Dev nD) (t : Fin cfg0.N) :
    (((cfg0.win 2).blk t).view.read (Elt F) (V c (Pipeline.arrRef spec0 2)) : S8000x64.Idx → Elt F .f32)
      = fun y => (V c (Pipeline.arrRef spec0 2) : S800000x64.Idx → Elt F .f32) (rowIx t y) :=
  funext fun y => blk_rows2 V c t y

/-! ## The small operands: the block is the array -/

/-- Window 3's block at every point is the whole of `main_arg2`. -/
theorem blk_whole3 (c : Dev nD) (t : Fin cfg0.N) (y : S1x64.Idx) :
    ((cfg0.win 3).blk t).view.read (Elt F) (V c (Pipeline.arrRef spec0 3)) y
      = (V c (Pipeline.arrRef spec0 3) : S1x64.Idx → Elt F .f32) y := by
  obtain ⟨e0, e1⟩ := index3 t
  show (V c (Pipeline.arrRef spec0 3) : S1x64.Idx → Elt F .f32) (((cfg0.win 3).blk t).view.emb y) = _
  congr 1
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The same, for the whole block at once. -/
theorem blk_whole3_fun (c : Dev nD) (t : Fin cfg0.N) :
    (((cfg0.win 3).blk t).view.read (Elt F) (V c (Pipeline.arrRef spec0 3)) : S1x64.Idx → Elt F .f32)
      = V c (Pipeline.arrRef spec0 3) :=
  funext fun y => blk_whole3 V c t y

/-- Window 4's block at every point is the whole of `main_arg3`. -/
theorem blk_whole4 (c : Dev nD) (t : Fin cfg0.N) (y : S256x128.Idx) :
    ((cfg0.win 4).blk t).view.read (Elt F) (V c (Pipeline.arrRef spec0 4)) y
      = (V c (Pipeline.arrRef spec0 4) : S256x128.Idx → Elt F .f32) y := by
  obtain ⟨e0, e1⟩ := index4 t
  show (V c (Pipeline.arrRef spec0 4) : S256x128.Idx → Elt F .f32) (((cfg0.win 4).blk t).view.emb y) = _
  congr 1
  funext a; apply Fin.ext
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- The same, for the whole block at once. -/
theorem blk_whole4_fun (c : Dev nD) (t : Fin cfg0.N) :
    (((cfg0.win 4).blk t).view.read (Elt F) (V c (Pipeline.arrRef spec0 4)) : S256x128.Idx → Elt F .f32)
      = V c (Pipeline.arrRef spec0 4) :=
  funext fun y => blk_whole4 V c t y

/-- Window 5's block at every point is the whole of `main_v2`. -/
theorem blk_whole5 (c : Dev nD) (t : Fin cfg0.N) (y : S1x128.Idx) :
    ((cfg0.win 5).blk t).view.read (Elt F) (V c (Pipeline.arrRef spec0 5)) y
      = (V c (Pipeline.arrRef spec0 5) : S1x128.Idx → Elt F .f32) y := by
  obtain ⟨e0, e1⟩ := index5 t
  show (V c (Pipeline.arrRef spec0 5) : S1x128.Idx → Elt F .f32) (((cfg0.win 5).blk t).view.emb y) = _
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The same, for the whole block at once. -/
theorem blk_whole5_fun (c : Dev nD) (t : Fin cfg0.N) :
    (((cfg0.win 5).blk t).view.read (Elt F) (V c (Pipeline.arrRef spec0 5)) : S1x128.Idx → Elt F .f32)
      = V c (Pipeline.arrRef spec0 5) :=
  funext fun y => blk_whole5 V c t y

/-- Window 6's block at every point is the whole of `main_arg5`. -/
theorem blk_whole6 (c : Dev nD) (t : Fin cfg0.N) (y : S128x64.Idx) :
    ((cfg0.win 6).blk t).view.read (Elt F) (V c (Pipeline.arrRef spec0 6)) y
      = (V c (Pipeline.arrRef spec0 6) : S128x64.Idx → Elt F .f32) y := by
  obtain ⟨e0, e1⟩ := index6 t
  show (V c (Pipeline.arrRef spec0 6) : S128x64.Idx → Elt F .f32) (((cfg0.win 6).blk t).view.emb y) = _
  congr 1
  funext a; apply Fin.ext
  match a with
  | ⟨0, _⟩ => show win0_6.index t (0 : Fin 2) * 128 + 1 * (y 0).val = (y 0).val; omega
  | ⟨1, _⟩ => show win0_6.index t (1 : Fin 2) * 64 + 1 * (y 1).val = (y 1).val; omega

/-- The same, for the whole block at once. -/
theorem blk_whole6_fun (c : Dev nD) (t : Fin cfg0.N) :
    (((cfg0.win 6).blk t).view.read (Elt F) (V c (Pipeline.arrRef spec0 6)) : S128x64.Idx → Elt F .f32)
      = V c (Pipeline.arrRef spec0 6) :=
  funext fun y => blk_whole6 V c t y

/-- Window 7's block at every point is the whole of `main_v3`. -/
theorem blk_whole7 (c : Dev nD) (t : Fin cfg0.N) (y : S1x64.Idx) :
    ((cfg0.win 7).blk t).view.read (Elt F) (V c (Pipeline.arrRef spec0 7)) y
      = (V c (Pipeline.arrRef spec0 7) : S1x64.Idx → Elt F .f32) y := by
  obtain ⟨e0, e1⟩ := index7 t
  show (V c (Pipeline.arrRef spec0 7) : S1x64.Idx → Elt F .f32) (((cfg0.win 7).blk t).view.emb y) = _
  congr 1
  funext a; apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- The same, for the whole block at once. -/
theorem blk_whole7_fun (c : Dev nD) (t : Fin cfg0.N) :
    (((cfg0.win 7).blk t).view.read (Elt F) (V c (Pipeline.arrRef spec0 7)) : S1x64.Idx → Elt F .f32)
      = V c (Pipeline.arrRef spec0 7) :=
  funext fun y => blk_whole7 V c t y

/-! ## The row-tiled results: from the tiles to the array -/

/-- An index of `main_v6_0` is in point `t`'s block iff each coordinate is in the block's range on its axis. -/
theorem mem_blk8 (t : Fin cfg0.N) (i : S800000x64.Idx) :
    i ∈ ((cfg0.win 8).blk t).view.set ↔ ∀ a : Fin 2, win0_8.index t a * S8000x64.size a ≤ (i a).val ∧ (i a).val < win0_8.index t a * S8000x64.size a + S8000x64.size a := by
  show i ∈ ((View.whole main_v6_0).slice (win0_8.rect t)).set ↔ _
  rw [View.set_slice_whole, Rect.mem_set_unit]
  exact Iff.rfl

/-- Row `r` of `main_v6_0` is in the block of point `r / 8000`, which is written back. -/
theorem cover8 (i : S800000x64.Idx) :
    ∃ t : Fin cfg0.N, (cfg0.win 8).flush t = true ∧ i ∈ ((cfg0.win 8).blk t).view.set := by
  have hi0 : (i 0).val < 800000 := idx2_lt0 i
  have hi1 : (i 1).val < 64 := idx2_lt1 i
  have hq : (i 0).val / 8000 < cfg0.N := by rw [show cfg0.N = 100 from N_0]; omega
  obtain ⟨e0, e1⟩ := index8 ⟨(i 0).val / 8000, hq⟩
  have e0' : win0_8.index ⟨(i 0).val / 8000, hq⟩ (0 : Fin 2) = (i 0).val / 8000 := e0
  refine ⟨⟨(i 0).val / 8000, hq⟩, flush0_8 _, ?_⟩
  rw [mem_blk8]
  intro a
  match a with
  | ⟨0, _⟩ => show win0_8.index ⟨(i 0).val / 8000, hq⟩ (0 : Fin 2) * 8000 ≤ (i 0).val ∧ (i 0).val < win0_8.index ⟨(i 0).val / 8000, hq⟩ (0 : Fin 2) * 8000 + 8000; omega
  | ⟨1, _⟩ => show win0_8.index ⟨(i 0).val / 8000, hq⟩ (1 : Fin 2) * 64 ≤ (i 1).val ∧ (i 1).val < win0_8.index ⟨(i 0).val / 8000, hq⟩ (1 : Fin 2) * 64 + 64; omega

/-- When point `t` leaves rows `8000·t …` of `G` in window 8's staging buffer, it writes back block `t` of `G`. -/
theorem flushed8_eq {c : Dev nD} (dat : Dat τ (Elt F) Unit ℕ (UR sig nD τ) ℕ cfg0 c) (G : S800000x64.Idx → Elt F .f32)
    (t : Fin cfg0.N) (h : dat.after 8 t = fun y : S8000x64.Idx => G (rowIx t y)) :
    dat.flushed 8 t = ((cfg0.win 8).blk t).view.read (Elt F) G := by
  obtain ⟨e0, e1⟩ := index8 t
  show (cfg0.win 8).cut (grid0.coords t) (dat.after 8 t) = _
  rw [h]
  funext y
  show G (rowIx t ((cfg0.win 8).xinj (grid0.coords t) y)) = G (((cfg0.win 8).blk t).view.emb y)
  congr 1
  funext a; apply Fin.ext
  match a with
  | ⟨0, _⟩ => show 8000 * t.val + (y 0).val = win0_8.index t (0 : Fin 2) * 8000 + 1 * (y 0).val; omega
  | ⟨1, _⟩ => show (y 1).val = win0_8.index t (1 : Fin 2) * 64 + 1 * (y 1).val; omega

/-- THE ARRAY `main_v6_0` AFTER THE REGION: if every point `t` leaves rows `8000·t … 8000·t + 7999` of one function `G`
    of the array's indices in window 8's staging buffer, the array ends holding `G` (the 100 tiles cover the 800000 rows). -/
theorem arr_of_blocks8 {c : Dev nD} (dat : Dat τ (Elt F) Unit ℕ (UR sig nD τ) ℕ cfg0 c) (G : S800000x64.Idx → Elt F .f32)
    (h : ∀ t : Fin cfg0.N, dat.after 8 t = fun y : S8000x64.Idx => G (rowIx t y)) :
    dat.arrAt 8 cfg0.N = G :=
  dat.arrAt_eq_of_cover 8 G (fun t _ => flushed8_eq dat G t (h t)) cover8

/-- An index of `main_v6_1` is in point `t`'s block iff each coordinate is in the block's range on its axis. -/
theorem mem_blk9 (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v6_1).slice (win0_9.rect t)).set ↔ _
  rw [View.set_slice_whole, Rect.mem_set_unit]
  exact Iff.rfl

/-- Row `r` of `main_v6_1` is in the block of point `r / 8000`, which is written back. -/
theorem cover9 (i : S800000x64.Idx) :
    ∃ t : Fin cfg0.N, (cfg0.win 9).flush t = true ∧ i ∈ ((cfg0.win 9).blk t).view.set := by
  have hi0 : (i 0).val < 800000 := idx2_lt0 i
  have hi1 : (i 1).val < 64 := idx2_lt1 i
  have hq : (i 0).val / 8000 < cfg0.N := by rw [show cfg0.N = 100 from N_0]; omega
  obtain ⟨e0, e1⟩ := index9 ⟨(i 0).val / 8000, hq⟩
  have e0' : win0_9.index ⟨(i 0).val / 8000, hq⟩ (0 : Fin 2) = (i 0).val / 8000 := e0
  refine ⟨⟨(i 0).val / 8000, hq⟩, flush0_9 _, ?_⟩
  rw [mem_blk9]
  intro a
  match a with
  | ⟨0, _⟩ => show win0_9.index ⟨(i 0).val / 8000, hq⟩ (0 : Fin 2) * 8000 ≤ (i 0).val ∧ (i 0).val < win0_9.index ⟨(i 0).val / 8000, hq⟩ (0 : Fin 2) * 8000 + 8000; omega
  | ⟨1, _⟩ => show win0_9.index ⟨(i 0).val / 8000, hq⟩ (1 : Fin 2) * 64 ≤ (i 1).val ∧ (i 1).val < win0_9.index ⟨(i 0).val / 8000, hq⟩ (1 : Fin 2) * 64 + 64; omega

/-- When point `t` leaves rows `8000·t …` of `G` in window 9's staging buffer, it writes back block `t` of `G`. -/
theorem flushed9_eq {c : Dev nD} (dat : Dat τ (Elt F) Unit ℕ (UR sig nD τ) ℕ cfg0 c) (G : S800000x64.Idx → Elt F .f32)
    (t : Fin cfg0.N) (h : dat.after 9 t = fun y : S8000x64.Idx => G (rowIx t y)) :
    dat.flushed 9 t = ((cfg0.win 9).blk t).view.read (Elt F) G := by
  obtain ⟨e0, e1⟩ := index9 t
  show (cfg0.win 9).cut (grid0.coords t) (dat.after 9 t) = _
  rw [h]
  funext y
  show G (rowIx t ((cfg0.win 9).xinj (grid0.coords t) y)) = G (((cfg0.win 9).blk t).view.emb y)
  congr 1
  funext a; apply Fin.ext
  match a with
  | ⟨0, _⟩ => show 8000 * t.val + (y 0).val = win0_9.index t (0 : Fin 2) * 8000 + 1 * (y 0).val; omega
  | ⟨1, _⟩ => show (y 1).val = win0_9.index t (1 : Fin 2) * 64 + 1 * (y 1).val; omega

/-- THE ARRAY `main_v6_1` AFTER THE REGION: if every point `t` leaves rows `8000·t … 8000·t + 7999` of one function `G`
    of the array's indices in window 9's staging buffer, the array ends holding `G` (the 100 tiles cover the 800000 rows). -/
theorem arr_of_blocks9 {c : Dev nD} (dat : Dat τ (Elt F) Unit ℕ (UR sig nD τ) ℕ cfg0 c) (G : S800000x64.Idx → Elt F .f32)
    (h : ∀ t : Fin cfg0.N, dat.after 9 t = fun y : S8000x64.Idx => G (rowIx t y)) :
    dat.arrAt 9 cfg0.N = G :=
  dat.arrAt_eq_of_cover 9 G (fun t _ => flushed9_eq dat G t (h t)) cover9

/-! ## The accumulated result: written back once, after the last point -/

/-- An index of `main_v6_2` is in point `t`'s block iff each coordinate is in the block's range on its axis. -/
theorem mem_blk10 (t : Fin cfg0.N) (i : S1x64.Idx) :
    i ∈ ((cfg0.win 10).blk t).view.set ↔ ∀ a : Fin 2, win0_10.index t a * S1x64.size a ≤ (i a).val ∧ (i a).val < win0_10.index t a * S1x64.size a + S1x64.size a := by
  show i ∈ ((View.whole main_v6_2).slice (win0_10.rect t)).set ↔ _
  rw [View.set_slice_whole, Rect.mem_set_unit]
  exact Iff.rfl

/-- The one point that writes window 10 back is the last. -/
theorem flush10_last (t : Fin cfg0.N) (hf : (cfg0.win 10).flush t = true) : t = lastPoint :=
  Fin.ext (by have := (flush0_10 t).mp hf; have := point_lt t; show t.val = 99; omega)

/-- What the write-back of window 10 writes is what the last point left, as the whole [1,64] array. -/
theorem flushed10_eq {c : Dev nD} (dat : Dat τ (Elt F) Unit ℕ (UR sig nD τ) ℕ cfg0 c) (X : S1x64.Idx → Elt F .f32)
    (h : dat.after 10 lastPoint = X) (t : Fin cfg0.N) (hf : (cfg0.win 10).flush t = true) :
    dat.flushed 10 t = ((cfg0.win 10).blk t).view.read (Elt F) X := by
  have hX : dat.after 10 t = X := (congrArg (dat.after 10) (flush10_last t hf)).trans h
  obtain ⟨e0, e1⟩ := index10 t
  show (cfg0.win 10).cut (grid0.coords t) (dat.after 10 t) = _
  rw [hX]
  funext y
  show X ((cfg0.win 10).xinj (grid0.coords t) y) = X (((cfg0.win 10).blk t).view.emb y)
  congr 1
  funext a; apply Fin.ext
  match a with
  | ⟨0, _⟩ => show (y 0).val = win0_10.index t (0 : Fin 2) * 1 + 1 * (y 0).val; omega
  | ⟨1, _⟩ => show (y 1).val = win0_10.index t (1 : Fin 2) * 64 + 1 * (y 1).val; omega

/-- The last point's block is the whole [1,64] array. -/
theorem cover10 (i : S1x64.Idx) :
    ∃ t : Fin cfg0.N, (cfg0.win 10).flush t = true ∧ i ∈ ((cfg0.win 10).blk t).view.set := by
  have hi0 : (i 0).val < 1 := idx2_lt0 i
  have hi1 : (i 1).val < 64 := idx2_lt1 i
  obtain ⟨e0, e1⟩ := index10 lastPoint
  refine ⟨lastPoint, (flush0_10 lastPoint).mpr rfl, ?_⟩
  rw [mem_blk10]
  intro a
  match a with
  | ⟨0, _⟩ => show win0_10.index lastPoint (0 : Fin 2) * 1 ≤ (i 0).val ∧ (i 0).val < win0_10.index lastPoint (0 : Fin 2) * 1 + 1; omega
  | ⟨1, _⟩ => show win0_10.index lastPoint (1 : Fin 2) * 64 ≤ (i 1).val ∧ (i 1).val < win0_10.index lastPoint (1 : Fin 2) * 64 + 64; omega

/-- THE ACCUMULATOR `main_v6_2` AFTER THE REGION is what the last point left in window 10's staging buffer: the only
    write-back is after point 99 and its block is the whole array. -/
theorem acc_final_last {c : Dev nD} (dat : Dat τ (Elt F) Unit ℕ (UR sig nD τ) ℕ cfg0 c) (X : S1x64.Idx → Elt F .f32)
    (h : dat.after 10 lastPoint = X) : dat.arrAt 10 cfg0.N = X :=
  dat.arrAt_eq_of_cover 10 X (flushed10_eq dat X h) cover10

/-- The same, from a description of what every point leaves. -/
theorem acc_final {c : Dev nD} (dat : Dat τ (Elt F) Unit ℕ (UR sig nD τ) ℕ cfg0 c) (a : Fin cfg0.N → S1x64.Idx → Elt F .f32)
    (h : ∀ t : Fin cfg0.N, dat.after 10 t = a t) : dat.arrAt 10 cfg0.N = a lastPoint :=
  acc_final_last dat (a lastPoint) (h lastPoint)

/-! ## The operands after the region: as the region found them -/

/-- An operand's array is never written: after the region it holds what it held at entry. -/
theorem arr_in {c : Dev nD} (dat : Dat τ (Elt F) Unit ℕ (UR sig nD τ) ℕ cfg0 c)
    (hA : ∀ w, dat.A w = V c (Pipeline.arrRef spec0 w)) (w : Fin cfg0.W) (hin : (cfg0.win w).isOut = false) (n : Nat) :
    dat.arrAt w n = V c (Pipeline.arrRef spec0 w) :=
  (dat.arrAt_in w hin n).trans (hA w)

end Cert.KernelIdeal.EdgeArr

end
-- ==== Proof.KI.EdgeValue.lean ====
/-
  The edge region's three results as whole arrays.

  The region walks 100 tiles of 8000 edges.  At tile `t` the kernel's arithmetic, read at an index (the tile-level
  facts), is the edge update of rows `8000 t … 8000 t + 7999`: the first result's tile is the update's rows, the
  second's the update plus the edge features, and the one-row accumulator gains the tile's column sums.  So the first
  two arrays end as the update and the update plus the features, and the accumulator, cleared before the first tile,
  holds after tile `n` the column sums over tiles `0 … n`; after the last tile that is the sum over all 800000 rows.
-/
import proofs.«426020_j49563922596335_1_alg».proof.Proof.KI.EdgePay
import proofs.«426020_j49563922596335_1_alg».proof.Proof.KI.EdgeArr
import proofs.«426020_j49563922596335_1_alg».proof.Proof.KI.EdgeDat
import proofs.«426020_j49563922596335_1_alg».proof.Proof.Spec

set_option maxRecDepth 16384

noncomputable section

open scoped BigOperators

namespace Cert.KernelIdeal.EdgeValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.KernelIdeal.EdgeArr (rowIx lastPoint point_lt)
open Cert.KernelIdeal.EdgePay (pay1_apply pay2_apply pay3_apply pay4_apply)

/-! ## One tile

  Over whole arrays `XS XD EF` (sender rows, receiver rows, edge features), the global row `U` and the two layers'
  weights and biases.  Tile `t` of a row-tiled array `X` is `fun y => X (rowIx t y)`. -/

section Tile

variable (XS XD EF : Spec.Arr2 800000 64) (U : Spec.Arr2 1 64) (W1 : Spec.Arr2 256 128) (B1 : Spec.Arr2 1 128)
  (W2 : Spec.Arr2 128 64) (B2 : Spec.Arr2 1 64)

/-- The edge update as the kernel adds it up, from the arrays. -/
abbrev updOf : Spec.Arr2 800000 64 :=
  Spec.edgeUpdK XS XD EF (fun k => U (ix2 0 k)) (Spec.mat W1) (fun j => B1 (ix2 0 j)) (Spec.mat W2) (fun d => B2 (ix2 0 d))

/-- The update at row `r` of tile `t`, column `d`, spelt over the tile's rows. -/
theorem upd_row (t : Fin cfg0.N) (r : Fin 8000) (d : Fin 64) :
    updOf XS XD EF U W1 B1 W2 B2 (rowIx t (ix2 r d))
      = Spec.out (Spec.hid4 (fun k => XS (rowIx t (ix2 r k))) (fun k => XD (rowIx t (ix2 r k)))
            (fun k => EF (rowIx t (ix2 r k))) (fun k => U (ix2 0 k)) (fun k j => W1 (ix2 k j)) (fun j => B1 (ix2 0 j)))
          (fun j d => W2 (ix2 j d)) (fun d => B2 (ix2 0 d)) d := rfl

/-- The first result's tile: the update's rows. -/
theorem tile_out (t : Fin cfg0.N) :
    k0_pay1 (k0_pay5 W2) (k0_pay6 B2)
        (k0_pay7 (fun y => XS (rowIx t y)) (fun y => XD (rowIx t y)) (fun y => EF (rowIx t y)) U W1 B1) (Scalar.ofBits (F := Ideal) .f32 0x00000000#32)
      = fun y => updOf XS XD EF U W1 B1 W2 B2 (rowIx t y) := by
  funext y
  obtain ⟨r, d, rfl⟩ : ∃ (r : Fin 8000) (d : Fin 64), y = ix2 r d := ⟨y 0, y 1, eq_ix2 y⟩
  exact (pay1_apply _ _ _ U W1 B1 W2 B2 r d).trans (upd_row XS XD EF U W1 B1 W2 B2 t r d).symm

/-- The second result's tile: the update's rows plus the edge features'. -/
theorem tile_res (t : Fin cfg0.N) :
    k0_pay2 (k0_pay5 W2) (k0_pay6 B2)
        (k0_pay7 (fun y => XS (rowIx t y)) (fun y => XD (rowIx t y)) (fun y => EF (rowIx t y)) U W1 B1) (Scalar.ofBits (F := Ideal) .f32 0x00000000#32)
        (fun y => EF (rowIx t y))
      = fun y => updOf XS XD EF U W1 B1 W2 B2 (rowIx t y) + EF (rowIx t y) := by
  funext y
  obtain ⟨r, d, rfl⟩ : ∃ (r : Fin 8000) (d : Fin 64), y = ix2 r d := ⟨y 0, y 1, eq_ix2 y⟩
  exact (pay2_apply _ _ _ U W1 B1 W2 B2 r d).trans
    (congrArg (· + EF (rowIx t (ix2 r d))) (upd_row XS XD EF U W1 B1 W2 B2 t r d).symm)

/-- The accumulator after tile `t`: what it held plus the tile's column sums of the update. -/
theorem tile_acc (t : Fin cfg0.N) (acc : Vec Ideal S1x64 .f32) (d : Fin 64) :
    k0_pay3 (k0_pay5 W2) (k0_pay6 B2)
        (k0_pay7 (fun y => XS (rowIx t y)) (fun y => XD (rowIx t y)) (fun y => EF (rowIx t y)) U W1 B1) (Scalar.ofBits (F := Ideal) .f32 0x00000000#32)
        acc (ix2 0 d)
      = acc (ix2 0 d) + ∑ r : Fin 8000, updOf XS XD EF U W1 B1 W2 B2 (rowIx t (ix2 r d)) :=
  (pay3_apply _ _ _ U W1 B1 W2 B2 acc d).trans
    (congrArg (acc (ix2 0 d) + ·) (Finset.sum_congr rfl fun r _ => (upd_row XS XD EF U W1 B1 W2 B2 t r d).symm))

/-! ## The accumulator over the tiles -/

/-- A row accumulated tile after tile from the cleared row holds, after tile `n`, the column sums of the update over
    tiles `0 … n`. -/
theorem acc_tiles (acc : (n : ℕ) → n < cfg0.N → Vec Ideal S1x64 .f32)
    (h0 : ∀ h : 0 < cfg0.N, acc 0 h = k0_pay3 (k0_pay5 W2) (k0_pay6 B2)
      (k0_pay7 (fun y => XS (rowIx ⟨0, h⟩ y)) (fun y => XD (rowIx ⟨0, h⟩ y)) (fun y => EF (rowIx ⟨0, h⟩ y)) U W1 B1) (Scalar.ofBits (F := Ideal) .f32 0x00000000#32)
      (k0_pay4 (F := Ideal)))
    (hs : ∀ (n : ℕ) (h : n + 1 < cfg0.N), acc (n + 1) h = k0_pay3 (k0_pay5 W2) (k0_pay6 B2)
      (k0_pay7 (fun y => XS (rowIx ⟨n + 1, h⟩ y)) (fun y => XD (rowIx ⟨n + 1, h⟩ y)) (fun y => EF (rowIx ⟨n + 1, h⟩ y)) U W1 B1) (Scalar.ofBits (F := Ideal) .f32 0x00000000#32)
      (acc n (Nat.lt_of_succ_lt h))) :
    ∀ (n : ℕ) (h : n < cfg0.N) (d : Fin 64),
      acc n h (ix2 0 d)
        = ∑ t' : Fin (n + 1), ∑ r : Fin 8000,
            updOf XS XD EF U W1 B1 W2 B2 (rowIx ⟨t'.val, Nat.lt_of_lt_of_le t'.isLt h⟩ (ix2 r d))
  | 0, h, d => by
    rw [h0 h, tile_acc, pay4_apply, zero_add, Fin.sum_univ_one]
    rfl
  | n + 1, h, d => by
    rw [hs n h, tile_acc, acc_tiles acc h0 hs n (Nat.lt_of_succ_lt h) d, Fin.sum_univ_castSucc (n := n + 1)]
    rfl

/-- After the last tile: the column sums of the update over all 800000 rows. -/
theorem acc_last (acc : (n : ℕ) → n < cfg0.N → Vec Ideal S1x64 .f32)
    (h0 : ∀ h : 0 < cfg0.N, acc 0 h = k0_pay3 (k0_pay5 W2) (k0_pay6 B2)
      (k0_pay7 (fun y => XS (rowIx ⟨0, h⟩ y)) (fun y => XD (rowIx ⟨0, h⟩ y)) (fun y => EF (rowIx ⟨0, h⟩ y)) U W1 B1) (Scalar.ofBits (F := Ideal) .f32 0x00000000#32)
      (k0_pay4 (F := Ideal)))
    (hs : ∀ (n : ℕ) (h : n + 1 < cfg0.N), acc (n + 1) h = k0_pay3 (k0_pay5 W2) (k0_pay6 B2)
      (k0_pay7 (fun y => XS (rowIx ⟨n + 1, h⟩ y)) (fun y => XD (rowIx ⟨n + 1, h⟩ y)) (fun y => EF (rowIx ⟨n + 1, h⟩ y)) U W1 B1) (Scalar.ofBits (F := Ideal) .f32 0x00000000#32)
      (acc n (Nat.lt_of_succ_lt h))) :
    acc lastPoint.val lastPoint.isLt = Spec.colSum (updOf XS XD EF U W1 B1 W2 B2) := by
  funext i
  obtain ⟨u, d, rfl⟩ : ∃ (u : Fin 1) (d : Fin 64), i = ix2 u d := ⟨i 0, i 1, eq_ix2 i⟩
  obtain rfl : u = 0 := Subsingleton.elim _ _
  rw [acc_tiles XS XD EF U W1 B1 W2 B2 acc h0 hs lastPoint.val lastPoint.isLt d]
  exact (Spec.sum_tiles 100 8000 fun e => updOf XS XD EF U W1 B1 W2 B2 (ix2 e d)).symm

end Tile

/-! ## The arrays

  On core `c`, with `V c` the contents the region finds: the sender rows, receiver rows and edge features are the
  three row-tiled inputs, the global row and the two layers' weights and biases the five small ones. -/

section Arrays

variable (V : (c : Dev nD) → (b : Ref sig .tc) → Buf (Elt Ideal) ((c : Thread nD τ).loc b)) (c : Dev nD)

/-- The gathered sender rows. -/
abbrev XS : Spec.Arr2 800000 64 := V c main_v0
/-- The gathered receiver rows. -/
abbrev XD : Spec.Arr2 800000 64 := V c main_v1
/-- The edge features. -/
abbrev EF : Spec.Arr2 800000 64 := V c main_arg1
/-- The global row. -/
abbrev U : Spec.Arr2 1 64 := V c main_arg2
/-- The first layer's weights. -/
abbrev W1 : Spec.Arr2 256 128 := V c main_arg3
/-- The first layer's bias, as a row. -/
abbrev B1 : Spec.Arr2 1 128 := V c main_v2
/-- The second layer's weights. -/
abbrev W2 : Spec.Arr2 128 64 := V c main_arg5
/-- The second layer's bias, as a row. -/
abbrev B2 : Spec.Arr2 1 64 := V c main_v3

/-- The three moving tiles are rows of their arrays; the five small blocks are their arrays. -/
theorem xs_rows (t : Fin cfg0.N) : Edge.xs V c t = fun y => XS V c (rowIx t y) := EdgeArr.blk_rows0_fun V c t
theorem xd_rows (t : Fin cfg0.N) : Edge.xd V c t = fun y => XD V c (rowIx t y) := EdgeArr.blk_rows1_fun V c t
theorem ef_rows (t : Fin cfg0.N) : Edge.ef V c t = fun y => EF V c (rowIx t y) := EdgeArr.blk_rows2_fun V c t
theorem gu_whole (t : Fin cfg0.N) : Edge.gu V c t = U V c := EdgeArr.blk_whole3_fun V c t
theorem ew1_whole (t : Fin cfg0.N) : Edge.ew1 V c t = W1 V c := EdgeArr.blk_whole4_fun V c t
theorem eb1_whole (t : Fin cfg0.N) : Edge.eb1 V c t = B1 V c := EdgeArr.blk_whole5_fun V c t
theorem ew2_whole (t : Fin cfg0.N) : Edge.ew2 V c t = W2 V c := EdgeArr.blk_whole6_fun V c t
theorem eb2_whole (t : Fin cfg0.N) : Edge.eb2 V c t = B2 V c := EdgeArr.blk_whole7_fun V c t

/-- THE FIRST RESULT: the edge update of every row. -/
theorem arr8 :
    (Edge.dat0 V c).arrAt 8 cfg0.N
      = Spec.edgeUpdK (XS V c) (XD V c) (EF V c) (fun k => U V c (ix2 0 k)) (Spec.mat (W1 V c))
          (fun j => B1 V c (ix2 0 j)) (Spec.mat (W2 V c)) (fun d => B2 V c (ix2 0 d)) := by
  refine EdgeArr.arr_of_blocks8 (Edge.dat0 V c) _ fun t => ?_
  rw [Edge.after0_8, xs_rows V c t, xd_rows V c t, ef_rows V c t, gu_whole V c t, ew1_whole V c t, eb1_whole V c t,
    ew2_whole V c t, eb2_whole V c t]
  exact tile_out (XS V c) (XD V c) (EF V c) (U V c) (W1 V c) (B1 V c) (W2 V c) (B2 V c) t

/-- THE SECOND RESULT: the update plus the edge features. -/
theorem arr9 :
    (Edge.dat0 V c).arrAt 9 cfg0.N
      = fun i => Spec.edgeUpdK (XS V c) (XD V c) (EF V c) (fun k => U V c (ix2 0 k)) (Spec.mat (W1 V c))
          (fun j => B1 V c (ix2 0 j)) (Spec.mat (W2 V c)) (fun d => B2 V c (ix2 0 d)) i + EF V c i := by
  refine EdgeArr.arr_of_blocks9 (Edge.dat0 V c) _ fun t => ?_
  rw [Edge.after0_9, xs_rows V c t, xd_rows V c t, ef_rows V c t, gu_whole V c t, ew1_whole V c t, eb1_whole V c t,
    ew2_whole V c t, eb2_whole V c t]
  exact tile_res (XS V c) (XD V c) (EF V c) (U V c) (W1 V c) (B1 V c) (W2 V c) (B2 V c) t

/-- THE THIRD RESULT: the column sums of the update over all rows. -/
theorem arr10 :
    (Edge.dat0 V c).arrAt 10 cfg0.N
      = Spec.colSum (Spec.edgeUpdK (XS V c) (XD V c) (EF V c) (fun k => U V c (ix2 0 k)) (Spec.mat (W1 V c))
          (fun j => B1 V c (ix2 0 j)) (Spec.mat (W2 V c)) (fun d => B2 V c (ix2 0 d))) := by
  refine EdgeArr.acc_final_last (Edge.dat0 V c) _ ?_
  rw [Edge.after0_10]
  refine acc_last (XS V c) (XD V c) (EF V c) (U V c) (W1 V c) (B1 V c) (W2 V c) (B2 V c) (Edge.acc0 V c) (fun h => ?_) (fun n h => ?_)
  · rw [Edge.acc0_zero, Edge.hid0_eq, xs_rows V c, xd_rows V c, ef_rows V c, gu_whole V c, ew1_whole V c, eb1_whole V c,
      ew2_whole V c, eb2_whole V c]
  · rw [Edge.acc0_succ, Edge.hid0_eq, xs_rows V c, xd_rows V c, ef_rows V c, gu_whole V c, ew1_whole V c, eb1_whole V c,
      ew2_whole V c, eb2_whole V c]

end Arrays

end Cert.KernelIdeal.EdgeValue

end
-- ==== Proof.KI.NodeArr.lean ====
/- The node region's geometry, from blocks to arrays: where each window's block at a grid point sits in its array,
   and what the two result arrays hold after the region, for any float values and any proof data of the region. -/
import proofs.«426020_j49563922596335_1_alg».proof.Proof.Gen.KernelIdeal.Launch
import proofs.«426020_j49563922596335_1_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.NodeArr

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The unscoped buffers' contents when the region is entered, per core: a parameter of everything below.
variable (V : (c : Dev nD) → (b : Ref sig .tc) → Buf (Elt F) ((c : Thread nD τ).loc b))

/-! ## The grid and the index maps -/

/-- The grid has five points. -/
theorem point_lt (t : Fin cfg1.N) : t.val < 5 := Nat.lt_of_lt_of_eq t.isLt N_1

/-- The printed index maps, decided over the five points: the row-blocked windows (0, 1 and 7) are at block t on the
    rows and block 0 on the columns; every other window stays at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = 0 ∧ win1_8.index t (1 : Fin 2) = 0) :=
  (by decide +kernel : ∀ t : Fin grid1.N, _)

/-- Row 10000·t + y₀ is a row of a 50000-row array. -/
theorem row_lt (t : Fin cfg1.N) (y0 : Fin 10000) : 10000 * t.val + y0.val < 50000 := by
  have ht := point_lt t
  have hy := y0.isLt
  omega

/-- Where the row block of point t keeps its element y: row 10000·t + y₀, column y₁ of the [50000,64] array. -/
abbrev rowIx (t : Fin cfg1.N) (y : S10000x64.Idx) : S50000x64.Idx :=
  ix2 ⟨10000 * t.val + (y 0).val, row_lt t (y 0)⟩ ⟨(y 1).val, idx2_lt1 y⟩

/-! ## The row-blocked inputs (windows 0 and 1): block t is rows 10000·t … 10000·t + 9999 -/

/-- Window 0's block at point t, read at y, is its array at any index k with the row and column coordinates below. -/
theorem blk_rows0_at (c : Dev nD) (t : Fin cfg1.N) (y : S10000x64.Idx) (k : S50000x64.Idx)
    (hk0 : (k 0).val = 10000 * t.val + (y 0).val) (hk1 : (k 1).val = (y 1).val) :
    ((cfg1.win 0).blk t).view.read (Elt F) (V c (Pipeline.arrRef spec1 0)) y
      = (V c main_v18 : S50000x64.Idx → Elt F .f32) k := by
  obtain ⟨⟨e0, e1⟩, -⟩ := idx_facts t
  rw [View.read_apply]
  show V c main_v18 (((cfg1.win 0).blk t).view.emb y) = V c main_v18 k
  congr 1
  funext a; apply Fin.ext
  match a with
  | ⟨0, _⟩ => show win1_0.index t (0 : Fin 2) * 10000 + 1 * (y 0).val = (k 0).val; rw [e0, hk0]; omega
  | ⟨1, _⟩ => show win1_0.index t (1 : Fin 2) * 64 + 1 * (y 1).val = (k 1).val; rw [e1, hk1]; omega

/-- Window 0's block at point t is its array's rows 10000·t + y₀. -/
theorem blk_rows0 (c : Dev nD) (t : Fin cfg1.N) :
    ((cfg1.win 0).blk t).view.read (Elt F) (V c (Pipeline.arrRef spec1 0))
      = fun y : S10000x64.Idx => (V c main_v18 : S50000x64.Idx → Elt F .f32) (rowIx t y) :=
  funext fun y => blk_rows0_at V c t y (rowIx t y) rfl rfl

/-- Window 1's block at point t, read at y, is its array at any index k with the row and column coordinates below. -/
theorem blk_rows1_at (c : Dev nD) (t : Fin cfg1.N) (y : S10000x64.Idx) (k : S50000x64.Idx)
    (hk0 : (k 0).val = 10000 * t.val + (y 0).val) (hk1 : (k 1).val = (y 1).val) :
    ((cfg1.win 1).blk t).view.read (Elt F) (V c (Pipeline.arrRef spec1 1)) y
      = (V c main_arg0 : S50000x64.Idx → Elt F .f32) k := by
  obtain ⟨-, ⟨e0, e1⟩, -⟩ := idx_facts t
  rw [View.read_apply]
  show V c main_arg0 (((cfg1.win 1).blk t).view.emb y) = V c main_arg0 k
  congr 1
  funext a; apply Fin.ext
  match a with
  | ⟨0, _⟩ => show win1_1.index t (0 : Fin 2) * 10000 + 1 * (y 0).val = (k 0).val; rw [e0, hk0]; omega
  | ⟨1, _⟩ => show win1_1.index t (1 : Fin 2) * 64 + 1 * (y 1).val = (k 1).val; rw [e1, hk1]; omega

/-- Window 1's block at point t is its array's rows 10000·t + y₀. -/
theorem blk_rows1 (c : Dev nD) (t : Fin cfg1.N) :
    ((cfg1.win 1).blk t).view.read (Elt F) (V c (Pipeline.arrRef spec1 1))
      = fun y : S10000x64.Idx => (V c main_arg0 : S50000x64.Idx → Elt F .f32) (rowIx t y) :=
  funext fun y => blk_rows1_at V c t y (rowIx t y) rfl rfl

/-! ## The small inputs (windows 2 to 6): the block at every point is the whole array -/

/-- Window 2's block is its whole [1,64] array. -/
theorem blk_whole2 (c : Dev nD) (t : Fin cfg1.N) :
    ((cfg1.win 2).blk t).view.read (Elt F) (V c (Pipeline.arrRef spec1 2)) = (V c main_arg2 : S1x64.Idx → Elt F .f32) := by
  obtain ⟨-, -, ⟨e0, e1⟩, -⟩ := idx_facts t
  funext y
  rw [View.read_apply]
  show V c main_arg2 (((cfg1.win 2).blk t).view.emb y) = V c main_arg2 y
  congr 1
  funext a; apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- Window 3's block is its whole [192,128] array. -/
theorem blk_whole3 (c : Dev nD) (t : Fin cfg1.N) :
    ((cfg1.win 3).blk t).view.read (Elt F) (V c (Pipeline.arrRef spec1 3)) = (V c main_arg7 : S192x128.Idx → Elt F .f32) := by
  obtain ⟨-, -, -, ⟨e0, e1⟩, -⟩ := idx_facts t
  funext y
  rw [View.read_apply]
  show V c main_arg7 (((cfg1.win 3).blk t).view.emb y) = V c main_arg7 y
  congr 1
  funext a; apply Fin.ext
  match a with
  | ⟨0, _⟩ => show win1_3.index t (0 : Fin 2) * 192 + 1 * (y 0).val = (y 0).val; rw [e0]; omega
  | ⟨1, _⟩ => show win1_3.index t (1 : Fin 2) * 128 + 1 * (y 1).val = (y 1).val; rw [e1]; omega

/-- Window 4's block is its whole [1,128] array. -/
theorem blk_whole4 (c : Dev nD) (t : Fin cfg1.N) :
    ((cfg1.win 4).blk t).view.read (Elt F) (V c (Pipeline.arrRef spec1 4)) = (V c main_v4 : S1x128.Idx → Elt F .f32) := by
  obtain ⟨-, -, -, -, ⟨e0, e1⟩, -⟩ := idx_facts t
  funext y
  rw [View.read_apply]
  show V c main_v4 (((cfg1.win 4).blk t).view.emb y) = V c main_v4 y
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Window 5's block is its whole [128,64] array. -/
theorem blk_whole5 (c : Dev nD) (t : Fin cfg1.N) :
    ((cfg1.win 5).blk t).view.read (Elt F) (V c (Pipeline.arrRef spec1 5)) = (V c main_arg9 : S128x64.Idx → Elt F .f32) := by
  obtain ⟨-, -, -, -, -, ⟨e0, e1⟩, -⟩ := idx_facts t
  funext y
  rw [View.read_apply]
  show V c main_arg9 (((cfg1.win 5).blk t).view.emb y) = V c main_arg9 y
  congr 1
  funext a; apply Fin.ext
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

/-- Window 6's block is its whole [1,64] array. -/
theorem blk_whole6 (c : Dev nD) (t : Fin cfg1.N) :
    ((cfg1.win 6).blk t).view.read (Elt F) (V c (Pipeline.arrRef spec1 6)) = (V c main_v5 : S1x64.Idx → Elt F .f32) := by
  obtain ⟨-, -, -, -, -, -, ⟨e0, e1⟩, -⟩ := idx_facts t
  funext y
  rw [View.read_apply]
  show V c main_v5 (((cfg1.win 6).blk t).view.emb y) = V c main_v5 y
  congr 1
  funext a; apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-! ## The same block reads, with the array named through the window (the spelling the region's proof data uses) -/

theorem blk_rows0_ref (c : Dev nD) (t : Fin cfg1.N) :
    ((cfg1.win 0).blk t).view.read (Elt F) (V c (Pipeline.arrRef spec1 0))
      = fun y : S10000x64.Idx => (V c (Pipeline.arrRef spec1 0) : S50000x64.Idx → Elt F .f32) (rowIx t y) :=
  blk_rows0 V c t

theorem blk_rows1_ref (c : Dev nD) (t : Fin cfg1.N) :
    ((cfg1.win 1).blk t).view.read (Elt F) (V c (Pipeline.arrRef spec1 1))
      = fun y : S10000x64.Idx => (V c (Pipeline.arrRef spec1 1) : S50000x64.Idx → Elt F .f32) (rowIx t y) :=
  blk_rows1 V c t

theorem blk_whole2_ref (c : Dev nD) (t : Fin cfg1.N) :
    ((cfg1.win 2).blk t).view.read (Elt F) (V c (Pipeline.arrRef spec1 2)) = (V c (Pipeline.arrRef spec1 2) : S1x64.Idx → Elt F .f32) :=
  blk_whole2 V c t

theorem blk_whole3_ref (c : Dev nD) (t : Fin cfg1.N) :
    ((cfg1.win 3).blk t).view.read (Elt F) (V c (Pipeline.arrRef spec1 3)) = (V c (Pipeline.arrRef spec1 3) : S192x128.Idx → Elt F .f32) :=
  blk_whole3 V c t

theorem blk_whole4_ref (c : Dev nD) (t : Fin cfg1.N) :
    ((cfg1.win 4).blk t).view.read (Elt F) (V c (Pipeline.arrRef spec1 4)) = (V c (Pipeline.arrRef spec1 4) : S1x128.Idx → Elt F .f32) :=
  blk_whole4 V c t

theorem blk_whole5_ref (c : Dev nD) (t : Fin cfg1.N) :
    ((cfg1.win 5).blk t).view.read (Elt F) (V c (Pipeline.arrRef spec1 5)) = (V c (Pipeline.arrRef spec1 5) : S128x64.Idx → Elt F .f32) :=
  blk_whole5 V c t

theorem blk_whole6_ref (c : Dev nD) (t : Fin cfg1.N) :
    ((cfg1.win 6).blk t).view.read (Elt F) (V c (Pipeline.arrRef spec1 6)) = (V c (Pipeline.arrRef spec1 6) : S1x64.Idx → Elt F .f32) :=
  blk_whole6 V c t

/-! ## After the region -/

section Arrays

variable {V}
variable {c : Dev nD} (dat : Dat τ (Elt F) Unit ℕ (UR sig nD τ) ℕ cfg1 c)

/-- An input window's array is never written: after the region it holds what the region found. -/
theorem arr_in (hA : ∀ w, dat.A w = V c (Pipeline.arrRef spec1 w)) (w : Fin cfg1.W) (hin : (cfg1.win w).isOut = false) :
    dat.arrAt w cfg1.N = V c (Pipeline.arrRef spec1 w) :=
  (dat.arrAt_in w hin _).trans (hA w)

/-- An index of the [50000,64] result is in point t's block iff each coordinate is in the block's range on its axis. -/
theorem mem_blk7 (t : Fin cfg1.N) (i : S50000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v19_0).slice (win1_7.rect t)).set ↔ _
  rw [View.set_slice_whole, Rect.mem_set_unit]
  exact Iff.rfl

/-- THE ROW-BLOCKED RESULT (window 7): if what the body leaves at every point t is rows 10000·t + y₀ of one function G
    of the array's indices, the array ends holding G: the five row blocks tile it, and row r is point r / 10000's. -/
theorem arr_of_blocks (G : S50000x64.Idx → Elt F .f32)
    (hafter : ∀ t : Fin cfg1.N, dat.after 7 t = fun y : S10000x64.Idx => G (rowIx t y)) :
    dat.arrAt 7 cfg1.N = G := by
  refine dat.arrAt_eq_of_cover 7 G (fun t _ => ?_) (fun i => ?_)
  · obtain ⟨-, -, -, -, -, -, -, ⟨e0, e1⟩, -⟩ := idx_facts t
    show (cfg1.win 7).cut (grid1.coords t) (dat.after 7 t) = _
    rw [hafter t]
    funext y
    rw [View.read_apply]
    show G (rowIx t y) = G (((cfg1.win 7).blk t).view.emb y)
    congr 1
    funext a; apply Fin.ext
    match a with
    | ⟨0, _⟩ => show 10000 * t.val + (y 0).val = win1_7.index t (0 : Fin 2) * 10000 + 1 * (y 0).val; rw [e0]; omega
    | ⟨1, _⟩ => show (y 1).val = win1_7.index t (1 : Fin 2) * 64 + 1 * (y 1).val; rw [e1]; omega
  · have hi0 : (i 0).val < 50000 := (i 0).isLt
    have hi1 : (i 1).val < 64 := (i 1).isLt
    have hq : (i 0).val / 10000 < cfg1.N := by rw [show cfg1.N = 5 from N_1]; omega
    obtain ⟨-, -, -, -, -, -, -, ⟨e0, e1⟩, -⟩ := idx_facts ⟨(i 0).val / 10000, hq⟩
    have q0 : win1_7.index ⟨(i 0).val / 10000, hq⟩ (0 : Fin 2) = (i 0).val / 10000 := e0
    refine ⟨⟨(i 0).val / 10000, hq⟩, flush1_7 _, ?_⟩
    rw [mem_blk7]
    intro a
    match a with
    | ⟨0, _⟩ => show win1_7.index ⟨(i 0).val / 10000, hq⟩ (0 : Fin 2) * 10000 ≤ (i 0).val ∧ (i 0).val < win1_7.index ⟨(i 0).val / 10000, hq⟩ (0 : Fin 2) * 10000 + 10000; rw [q0]; omega
    | ⟨1, _⟩ => show win1_7.index ⟨(i 0).val / 10000, hq⟩ (1 : Fin 2) * 64 ≤ (i 1).val ∧ (i 1).val < win1_7.index ⟨(i 0).val / 10000, hq⟩ (1 : Fin 2) * 64 + 64; rw [e1]; omega

/-- An index of the [1,64] result is in point t's block iff each coordinate is in the block's range on its axis. -/
theorem mem_blk8 (t : Fin cfg1.N) (i : S1x64.Idx) :
    i ∈ ((cfg1.win 8).blk t).view.set ↔ ∀ a : Fin 2, win1_8.index t a * S1x64.size a ≤ (i a).val ∧ (i a).val < win1_8.index t a * S1x64.size a + S1x64.size a := by
  show i ∈ ((View.whole main_v19_1).slice (win1_8.rect t)).set ↔ _
  rw [View.set_slice_whole, Rect.mem_set_unit]
  exact Iff.rfl

/-- THE ACCUMULATED RESULT (window 8): its one block is the whole [1,64] array and only the last point writes it back,
    so the array ends holding what the body left at the last point. -/
theorem acc_final (a : Fin cfg1.N → S1x64.Idx → Elt F .f32) (hafter : ∀ t : Fin cfg1.N, dat.after 8 t = a t) :
    dat.arrAt 8 cfg1.N = a t1_4 := by
  refine dat.arrAt_eq_of_cover 8 (a t1_4) (fun t hf => ?_) (fun i => ⟨t1_4, (flush1_8 t1_4).mpr rfl, ?_⟩)
  · have ht := point_lt t
    have h4 : t.val = 4 := by have := (flush1_8 t).mp hf; omega
    obtain rfl : t = t1_4 := Fin.ext h4
    obtain ⟨-, -, -, -, -, -, -, -, ⟨e0, e1⟩⟩ := idx_facts t1_4
    show (cfg1.win 8).cut (grid1.coords t1_4) (dat.after 8 t1_4) = _
    rw [hafter t1_4]
    funext y
    rw [View.read_apply]
    show a t1_4 y = a t1_4 (((cfg1.win 8).blk t1_4).view.emb y)
    congr 1
    funext b; apply Fin.ext
    match b with
    | ⟨0, _⟩ => show (y 0).val = win1_8.index t1_4 (0 : Fin 2) * 1 + 1 * (y 0).val; rw [e0]; omega
    | ⟨1, _⟩ => show (y 1).val = win1_8.index t1_4 (1 : Fin 2) * 64 + 1 * (y 1).val; rw [e1]; omega
  · obtain ⟨-, -, -, -, -, -, -, -, ⟨e0, e1⟩⟩ := idx_facts t1_4
    have hi0 : (i 0).val < 1 := (i 0).isLt
    have hi1 : (i 1).val < 64 := (i 1).isLt
    rw [mem_blk8]
    intro b
    match b with
    | ⟨0, _⟩ => show win1_8.index t1_4 (0 : Fin 2) * 1 ≤ (i 0).val ∧ (i 0).val < win1_8.index t1_4 (0 : Fin 2) * 1 + 1; rw [e0]; omega
    | ⟨1, _⟩ => show win1_8.index t1_4 (1 : Fin 2) * 64 ≤ (i 1).val ∧ (i 1).val < win1_8.index t1_4 (1 : Fin 2) * 64 + 64; rw [e1]; omega

end Arrays

end Cert.KernelIdeal.NodeArr

end
-- ==== Proof.KI.NodePay.lean ====
/-
  THE NODE PERCEPTRON AT ONE ENTRY.

  The node kernel's block of 10000 rows is a two-layer perceptron applied row by row.  At row `r` and output column
  `d` it is `Spec.out (Spec.hid3 …) … d`: the hidden layer adds three partial products (the aggregated-message row,
  the node-feature row and the global row, each against its own 64-row band of the first weights) and the bias; its
  positive part goes against column `d` of the second weights, plus the second bias.  On the extended reals a change
  of format changes nothing, a product into a zero accumulator is the plain sum over the contracted axis, and the zero
  word is `0`; so the equation is read off the operations one at a time.

  The block stored to the node output adds the node-feature block back; the one-row accumulator gains the column sums
  of the perceptron's block; and the accumulator starts from the zero row.
-/
import proofs.«426020_j49563922596335_1_alg».proof.Proof.Gen.KernelIdeal.Skeleton
import proofs.«426020_j49563922596335_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.NodePay

open Idealize.ShloMosaic Idealize.SL.Sem Idealize.ShloMosaic.ValueIdx
open Cert.KernelIdeal Cert.KernelIdeal.Gen

/-! ## The three products, each read at an entry

  Each is a matrix product with one contracted axis, taken into the zero accumulator: at `(r, c)` it is the sum over
  `k` of the left factor at `(r, k)` times the right factor at `(k, c)`.  The four coordinate facts say which
  coordinate of each factor's index is the result's and which the contracted one. -/

theorem lhs_hidBlock_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs_hidBlock_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs_hidBlock_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs_hidBlock_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A block of 10000 rows against a 64-row band of the first weights. -/
theorem hidBlock_apply {φ₁ φ₂ : FTy} (a : FVec Ideal S10000x64 φ₁) (b : FVec Ideal S64x128 φ₂) (r : Fin 10000) (c : Fin 128) :
    matmul dot_S10000x64_S64x128_S10000x128_1_0_0_1_n_n none a b (constant (F := Ideal) S10000x128 .f32 0x00000000#32) (ix2 r c)
      = ∑ k : Fin 64, a (ix2 r k) * b (ix2 k c) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 r c) ((contrEquiv1 dot_S10000x64_S64x128_S10000x128_1_0_0_1_n_n 64 rfl rfl).symm k) = ix2 r k := funext fun ax => Fin.ext (by
    match ax with
    | ⟨0, _⟩ => exact lhs_hidBlock_0 _ _
    | ⟨1, _⟩ => exact (lhs_hidBlock_1 _ _).trans hk)
  have er : dot_S10000x64_S64x128_S10000x128_1_0_0_1_n_n.rhsIdx (ix2 r c) ((contrEquiv1 dot_S10000x64_S64x128_S10000x128_1_0_0_1_n_n 64 rfl rfl).symm k) = ix2 k c := funext fun ax => Fin.ext (by
    match ax with
    | ⟨0, _⟩ => exact (rhs_hidBlock_0 _ _).trans hk
    | ⟨1, _⟩ => exact rhs_hidBlock_1 _ _)
  rw [el, er]

theorem lhs_hidRow_0 (i : S1x128.Idx) (q : dot_S1x64_S64x128_S1x128_1_0_0_1_n_n.contr.Idx) :
    (dot_S1x64_S64x128_S1x128_1_0_0_1_n_n.lhsIdx i q 0).val = (i 0).val := by
  unfold DotDims.lhsIdx
  rw [dif_neg (show ¬(0 : Fin S1x64.rank) ∈ dot_S1x64_S64x128_S1x128_1_0_0_1_n_n.lhsBatch by decide), dif_pos (show (0 : Fin S1x64.rank) ∈ dot_S1x64_S64x128_S1x128_1_0_0_1_n_n.lhsNonContracting by decide)]
  rfl
theorem lhs_hidRow_1 (i : S1x128.Idx) (q : dot_S1x64_S64x128_S1x128_1_0_0_1_n_n.contr.Idx) :
    (dot_S1x64_S64x128_S1x128_1_0_0_1_n_n.lhsIdx i q 1).val = (q ⟨0, by decide⟩).val :=
  dot_S1x64_S64x128_S1x128_1_0_0_1_n_n.lhsIdx_val_of_single rfl i q
theorem rhs_hidRow_0 (i : S1x128.Idx) (q : dot_S1x64_S64x128_S1x128_1_0_0_1_n_n.contr.Idx) :
    (dot_S1x64_S64x128_S1x128_1_0_0_1_n_n.rhsIdx i q 0).val = (q ⟨0, by decide⟩).val :=
  dot_S1x64_S64x128_S1x128_1_0_0_1_n_n.rhsIdx_val_of_single rfl i q
theorem rhs_hidRow_1 (i : S1x128.Idx) (q : dot_S1x64_S64x128_S1x128_1_0_0_1_n_n.contr.Idx) :
    (dot_S1x64_S64x128_S1x128_1_0_0_1_n_n.rhsIdx i q 1).val = (i 1).val := by
  unfold DotDims.rhsIdx
  rw [dif_neg (show ¬(1 : Fin S64x128.rank) ∈ dot_S1x64_S64x128_S1x128_1_0_0_1_n_n.rhsBatch by decide), dif_pos (show (1 : Fin S64x128.rank) ∈ dot_S1x64_S64x128_S1x128_1_0_0_1_n_n.rhsNonContracting by decide)]
  rfl

/-- The one global row against a 64-row band of the first weights. -/
theorem hidRow_apply {φ₁ φ₂ : FTy} (a : FVec Ideal S1x64 φ₁) (b : FVec Ideal S64x128 φ₂) (r : Fin 1) (c : Fin 128) :
    matmul dot_S1x64_S64x128_S1x128_1_0_0_1_n_n none a b (constant (F := Ideal) S1x128 .f32 0x00000000#32) (ix2 r c)
      = ∑ k : Fin 64, a (ix2 r k) * b (ix2 k c) := by
  simp only [matmul]
  rw [Ideal.matmul_constant_zero_apply, ← Equiv.sum_comp (contrEquiv1 dot_S1x64_S64x128_S1x128_1_0_0_1_n_n 64 rfl rfl).symm]
  refine Finset.sum_congr rfl fun k _ => ?_
  have hk := contrEquiv1_symm_val dot_S1x64_S64x128_S1x128_1_0_0_1_n_n 64 rfl rfl k
  have el : dot_S1x64_S64x128_S1x128_1_0_0_1_n_n.lhsIdx (ix2 r c) ((contrEquiv1 dot_S1x64_S64x128_S1x128_1_0_0_1_n_n 64 rfl rfl).symm k) = ix2 r k := funext fun ax => Fin.ext (by
    match ax with
    | ⟨0, _⟩ => exact lhs_hidRow_0 _ _
    | ⟨1, _⟩ => exact (lhs_hidRow_1 _ _).trans hk)
  have er : dot_S1x64_S64x128_S1x128_1_0_0_1_n_n.rhsIdx (ix2 r c) ((contrEquiv1 dot_S1x64_S64x128_S1x128_1_0_0_1_n_n 64 rfl rfl).symm k) = ix2 k c := funext fun ax => Fin.ext (by
    match ax with
    | ⟨0, _⟩ => exact (rhs_hidRow_0 _ _).trans hk
    | ⟨1, _⟩ => exact rhs_hidRow_1 _ _)
  rw [el, er]

theorem lhs_outBlock_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_outBlock_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_outBlock_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_outBlock_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block of hidden rows against the second weights. -/
theorem outBlock_apply {φ₁ φ₂ : FTy} (a : FVec Ideal S10000x128 φ₁) (b : FVec Ideal S128x64 φ₂) (r : Fin 10000) (c : Fin 64) :
    matmul dot_S10000x128_S128x64_S10000x64_1_0_0_1_n_n none a b (constant (F := Ideal) S10000x64 .f32 0x00000000#32) (ix2 r c)
      = ∑ k : Fin 128, a (ix2 r k) * b (ix2 k c) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r c) ((contrEquiv1 dot_S10000x128_S128x64_S10000x64_1_0_0_1_n_n 128 rfl rfl).symm k) = ix2 r k := funext fun ax => Fin.ext (by
    match ax with
    | ⟨0, _⟩ => exact lhs_outBlock_0 _ _
    | ⟨1, _⟩ => exact (lhs_outBlock_1 _ _).trans hk)
  have er : dot_S10000x128_S128x64_S10000x64_1_0_0_1_n_n.rhsIdx (ix2 r c) ((contrEquiv1 dot_S10000x128_S128x64_S10000x64_1_0_0_1_n_n 128 rfl rfl).symm k) = ix2 k c := funext fun ax => Fin.ext (by
    match ax with
    | ⟨0, _⟩ => exact (rhs_outBlock_0 _ _).trans hk
    | ⟨1, _⟩ => exact rhs_outBlock_1 _ _)
  rw [el, er]

/-! ## The perceptron's block at an entry -/

/-- The zero word is the extended real `0`. -/
theorem zeroWord : (FloatOps.ofBits (F := Ideal) .f32 0x00000000#32) = 0 := Ideal.ofBits_zero_f32

/-- THE PERCEPTRON AT `(r, d)`: the output layer over the positive part of the hidden layer of row `r`. -/
theorem pay4_apply (x0 x1 : Vec Ideal S10000x64 .f32) (u : Vec Ideal S1x64 .f32) (w1 : Vec Ideal S192x128 .f32) (w2 : Vec Ideal S128x64 .f32) (b1 : Vec Ideal S1x128 .f32) (b2 : Vec Ideal S1x64 .f32) (r : Fin 10000) (d : Fin 64) :
    k1_pay4 x0 x1 u w1 w2 b1 b2 (ix2 r d) = Spec.out (Spec.hid3 (fun k => x0 (ix2 r k)) (fun k => x1 (ix2 r k)) (fun k => u (ix2 0 k)) (fun k j => w1 (ix2 k j)) (fun j => b1 (ix2 0 j))) (fun j d => w2 (ix2 j d)) (fun d => b2 (ix2 0 d)) d := by
  unfold k1_pay4
  -- a cast to the same shape is the identity
  rw [shapeCast_self x0, shapeCast_self b1, shapeCast_self b2]
  -- the output layer: a sum over the hidden units, plus the second bias
  rw [addf_apply, outBlock_apply, broadcastTo_1b_ab_apply]
  unfold Spec.out
  refine congrArg₂ (· + ·) (Finset.sum_congr rfl fun j _ => ?_) rfl
  rw [truncf_apply, truncf_apply, maximumf_apply, broadcast_apply, zeroWord]
  refine congrArg (fun h => max h 0 * w2 (ix2 j d)) ?_
  -- the hidden layer at unit `j`: three partial products, plus the first bias
  rw [addf_apply, addf_apply, addf_apply, hidBlock_apply, hidBlock_apply, broadcastTo_1b_ab_apply, hidRow_apply,
    broadcastTo_1b_ab_apply]
  unfold Spec.hid3
  refine congrArg₂ (· + ·) (congrArg₂ (· + ·) (congrArg₂ (· + ·) ?_ ?_) ?_) rfl <;>
    refine Finset.sum_congr rfl fun k _ => ?_
  · -- rows 0 … 63 of the first weights
    rw [truncf_apply,
      slice2_axis0_apply (n0 := 192) 0 _ _ k j ⟨k.val, by omega⟩ (Nat.zero_add _).symm, truncf_apply]
  · -- rows 64 … 127
    rw [truncf_apply, slice2_axis0_eq, truncf_apply]
  · -- rows 128 … 191
    rw [truncf_apply, slice2_axis0_eq, truncf_apply]

/-! ## What the body stores -/

/-- The node output's block: the perceptron plus the node's own features. -/
theorem pay1_apply (x0 x1 : Vec Ideal S10000x64 .f32) (u : Vec Ideal S1x64 .f32) (w1 : Vec Ideal S192x128 .f32) (w2 : Vec Ideal S128x64 .f32) (b1 : Vec Ideal S1x128 .f32) (b2 : Vec Ideal S1x64 .f32) (r : Fin 10000) (d : Fin 64) :
    k1_pay1 (k1_pay4 x0 x1 u w1 w2 b1 b2) x1 (ix2 r d) = Spec.out (Spec.hid3 (fun k => x0 (ix2 r k)) (fun k => x1 (ix2 r k)) (fun k => u (ix2 0 k)) (fun k j => w1 (ix2 k j)) (fun j => b1 (ix2 0 j))) (fun j d => w2 (ix2 j d)) (fun d => b2 (ix2 0 d)) d + x1 (ix2 r d) := by
  unfold k1_pay1
  rw [addf_apply, pay4_apply]

/-- The column sums of a block of 10000 rows: at column `d`, the sum over the rows. -/
theorem colSums_apply (src : FVec Ideal S10000x64 .f32) (hφ : FKind.Formats .f32)
    (hacc : (0x00000000#32 : BitVec FTy.f32.bits) = FKind.add.neutral .f32 hφ) (d : Fin 64) :
    multiReduction (F := Ideal) .add [0] S64 src 0x00000000#32 reduces_S10000x64_S64 hφ hacc (ix1 d)
      = ∑ r : Fin 10000, src (ix2 r d) :=
  (Ideal.multiReduction_add_single src 0x00000000#32 reduces_S10000x64_S64 hφ hacc (ix1 d)).trans
    (Finset.sum_congr rfl fun r _ => congrArg src (funext fun a => Fin.ext (by
      match a with
      | ⟨0, _⟩ => rfl
      | ⟨1, _⟩ => rfl)))

/-- The one-row accumulator after a block: what it held, plus the column sums of the perceptron's block. -/
theorem pay2_apply (x0 x1 : Vec Ideal S10000x64 .f32) (u : Vec Ideal S1x64 .f32) (w1 : Vec Ideal S192x128 .f32) (w2 : Vec Ideal S128x64 .f32) (b1 : Vec Ideal S1x128 .f32) (b2 : Vec Ideal S1x64 .f32) (acc : Vec Ideal S1x64 .f32) (d : Fin 64) :
    k1_pay2 (k1_pay4 x0 x1 u w1 w2 b1 b2) acc (ix2 0 d)
      = acc (ix2 0 d) + ∑ r : Fin 10000, Spec.out (Spec.hid3 (fun k => x0 (ix2 r k)) (fun k => x1 (ix2 r k)) (fun k => u (ix2 0 k)) (fun k j => w1 (ix2 k j)) (fun j => b1 (ix2 0 j))) (fun j d => w2 (ix2 j d)) (fun d => b2 (ix2 0 d)) d := by
  unfold k1_pay2
  rw [addf_apply, shapeCast_self, shapeCast_a_1a_apply]
  exact congrArg (acc (ix2 0 d) + ·)
    ((colSums_apply _ _ _ d).trans (Finset.sum_congr rfl fun r _ => pay4_apply x0 x1 u w1 w2 b1 b2 r d))

/-- The accumulator's first value: the zero row. -/
theorem pay3_apply (d : Fin 64) : k1_pay3 (F := Ideal) (ix2 0 d) = 0 := by
  unfold k1_pay3
  rw [broadcast_apply]
  exact zeroWord

end Cert.KernelIdeal.NodePay

end
-- ==== Proof.KI.NodeValue.lean ====
/-
  THE NODE REGION'S TWO RESULT ARRAYS.

  At point `t` of the five the body applies the perceptron to rows 10000·t … 10000·t + 9999 of the aggregated
  messages and the node features, with the global row, the weights and the biases whole.  So the block it leaves in the
  node output is the restriction, to those rows, of ONE function of the array's indices: the node update of the arrays
  plus the node features; the five blocks tile the array.  The one-row accumulator starts from zero at the first point
  and gains each block's column sums, so after the last point it holds the sum over the five tiles of each tile's
  column sums, which is the column sums of the node update over all 50000 rows.
-/
import proofs.«426020_j49563922596335_1_alg».proof.Proof.KI.NodeDat
import proofs.«426020_j49563922596335_1_alg».proof.Proof.KI.NodeArr
import proofs.«426020_j49563922596335_1_alg».proof.Proof.KI.NodePay
import proofs.«426020_j49563922596335_1_alg».proof.Proof.Spec

noncomputable section

open scoped BigOperators

namespace Cert.KernelIdeal.NodeValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- The unscoped buffers' contents when the region is entered, per core, over the extended reals.
variable (V : (c : Dev nD) → (b : Ref sig .tc) → Buf (Elt Ideal) ((c : Thread nD τ).loc b)) (c : Dev nD)

/-! ## One point's perceptron, over its blocks -/

/-- The perceptron of point `t`'s blocks at row `r` of the tile and column `d`. -/
def tileOut (t : Fin cfg1.N) (r : Fin 10000) (d : Fin 64) : EReal :=
  Spec.out (Spec.hid3 (fun k => Node.agg V c t (ix2 r k)) (fun k => Node.nfeat V c t (ix2 r k))
      (fun k => Node.glob V c t (ix2 0 k)) (fun k j => Node.wgt1 V c t (ix2 k j)) (fun j => Node.bias1 V c t (ix2 0 j)))
    (fun j d => Node.wgt2 V c t (ix2 j d)) (fun d => Node.bias2 V c t (ix2 0 d)) d

/-- The tile's new features at an entry. -/
theorem hid1_apply (t : Fin cfg1.N) (r : Fin 10000) (d : Fin 64) : Node.hid1 V c t (ix2 r d) = tileOut V c t r d := by
  unfold Node.hid1 tileOut
  exact NodePay.pay4_apply _ _ _ _ _ _ _ r d

/-! ## The accumulator, point by point -/

/-- After the body at point `n` the accumulator holds, at column `d`, the sum over the tiles up to `n` of each tile's
    column sum. -/
theorem acc1_apply : ∀ (n : ℕ) (h : n < cfg1.N) (d : Fin 64),
    Node.acc1 V c n h (ix2 0 d)
      = ∑ t : Fin (n + 1), ∑ r : Fin 10000, tileOut V c ⟨t.val, Nat.lt_of_lt_of_le t.isLt h⟩ r d
  | 0, h, d => by
    rw [Node.acc1_zero]
    unfold Node.hid1
    rw [NodePay.pay2_apply, NodePay.pay3_apply]
    refine Eq.trans ?_ (Fin.sum_univ_castSucc (fun t : Fin (0 + 1) => ∑ r : Fin 10000, tileOut V c ⟨t.val, Nat.lt_of_lt_of_le t.isLt h⟩ r d)).symm
    rw [Fin.sum_univ_zero]
    rfl
  | n + 1, h, d => by
    rw [Node.acc1_succ]
    unfold Node.hid1
    rw [NodePay.pay2_apply, acc1_apply n (Nat.lt_of_succ_lt h) d]
    exact (Fin.sum_univ_castSucc (fun t : Fin (n + 1 + 1) => ∑ r : Fin 10000, tileOut V c ⟨t.val, Nat.lt_of_lt_of_le t.isLt h⟩ r d)).symm

/-! ## The arrays the region finds, and the node update of them -/

/-- The aggregated messages. -/
abbrev AGG : Spec.Arr2 50000 64 := V c main_v18
/-- The node features. -/
abbrev NF : Spec.Arr2 50000 64 := V c main_arg0
/-- The global row. -/
abbrev U : Spec.Arr2 1 64 := V c main_arg2
/-- The first layer's weights and bias. -/
abbrev W1 : Spec.Arr2 192 128 := V c main_arg7
abbrev B1 : Spec.Arr2 1 128 := V c main_v4
/-- The second layer's weights and bias. -/
abbrev W2 : Spec.Arr2 128 64 := V c main_arg9
abbrev B2 : Spec.Arr2 1 64 := V c main_v5

/-- THE NODE UPDATE of those arrays, one partial product per piece of the concatenated row. -/
abbrev upd : Spec.Arr2 50000 64 :=
  Spec.nodeUpdK (AGG V c) (NF V c) (fun k => U V c (ix2 0 k)) (Spec.mat (W1 V c)) (fun j => B1 V c (ix2 0 j))
    (Spec.mat (W2 V c)) (fun d => B2 V c (ix2 0 d))

/-- Point `t`'s perceptron at row `r` of its tile is the node update at row 10000·t + r of the arrays: the two
    row-blocked inputs are those rows, the other five are whole. -/
theorem tileOut_eq (t : Fin cfg1.N) (r : Fin 10000) (d : Fin 64) :
    tileOut V c t r d = upd V c (NodeArr.rowIx t (ix2 r d)) := by
  have h0 : Node.agg V c t = fun y : S10000x64.Idx => AGG V c (NodeArr.rowIx t y) := NodeArr.blk_rows0 V c t
  have h1 : Node.nfeat V c t = fun y : S10000x64.Idx => NF V c (NodeArr.rowIx t y) := NodeArr.blk_rows1 V c t
  have h2 : Node.glob V c t = U V c := NodeArr.blk_whole2 V c t
  have h3 : Node.wgt1 V c t = W1 V c := NodeArr.blk_whole3 V c t
  have h4 : Node.bias1 V c t = B1 V c := NodeArr.blk_whole4 V c t
  have h5 : Node.wgt2 V c t = W2 V c := NodeArr.blk_whole5 V c t
  have h6 : Node.bias2 V c t = B2 V c := NodeArr.blk_whole6 V c t
  unfold tileOut
  rw [h0, h1, h2, h3, h4, h5, h6]
  rfl

/-! ## The node output -/

/-- THE NODE OUTPUT after the region: the node update plus the node features, at every index. -/
theorem arr7 :
    (Node.dat1 V c).arrAt 7 cfg1.N
      = fun i => Spec.nodeUpdK (AGG V c) (NF V c) (fun k => U V c (ix2 0 k)) (Spec.mat (W1 V c)) (fun j => B1 V c (ix2 0 j))
          (Spec.mat (W2 V c)) (fun d => B2 V c (ix2 0 d)) i + NF V c i := by
  refine NodeArr.arr_of_blocks (Node.dat1 V c) (fun i => upd V c i + NF V c i) (fun t => ?_)
  rw [Node.after1_7]
  funext y
  obtain ⟨r, d, rfl⟩ : ∃ (r : Fin 10000) (d : Fin 64), y = ix2 r d := ⟨y 0, y 1, eq_ix2 y⟩
  rw [NodePay.pay1_apply]
  exact congrArg₂ (· + ·) (tileOut_eq V c t r d) (congrFun (NodeArr.blk_rows1 V c t) (ix2 r d))

/-! ## The column sums -/

/-- THE ACCUMULATED ROW after the region: the column sums of the node update over all 50000 rows. -/
theorem arr8 :
    (Node.dat1 V c).arrAt 8 cfg1.N
      = Spec.colSum (Spec.nodeUpdK (AGG V c) (NF V c) (fun k => U V c (ix2 0 k)) (Spec.mat (W1 V c))
          (fun j => B1 V c (ix2 0 j)) (Spec.mat (W2 V c)) (fun d => B2 V c (ix2 0 d))) := by
  refine (NodeArr.acc_final (Node.dat1 V c) (fun t => Node.acc1 V c t.val t.isLt) (Node.after1_8 V c)).trans ?_
  funext i
  obtain ⟨z, d, rfl⟩ : ∃ (z : Fin 1) (d : Fin 64), i = ix2 z d := ⟨i 0, i 1, eq_ix2 i⟩
  obtain rfl : z = 0 := Subsingleton.elim _ _
  -- the last point is point 4: five tiles
  refine (acc1_apply V c 4 t1_4.isLt d).trans ?_
  refine (Finset.sum_congr rfl fun t _ => Finset.sum_congr rfl fun r _ => tileOut_eq V c ⟨t.val, _⟩ r d).trans ?_
  exact (Spec.sum_tiles 5 10000 (fun e : Fin 50000 => upd V c (ix2 e d))).symm

end Cert.KernelIdeal.NodeValue

end
-- ==== Proof.RefRead.lean ====
/-
  The reference program's stages, one operation at a time, with their read-at-an-index lemmas, under one import
  for the modules that compare the reference's three results with the kernel's.
-/
import proofs.«426020_j49563922596335_1_alg».proof.Proof.RefStages
-- ==== Proof.RefSpec.lean ====
/-
  The reference program computes the specification.

  Read at an index, the reference's edge stage is the two-layer perceptron of `Cert.Spec` applied to the concatenation
  of four 64-long rows (the sender's features, the receiver's features, the edge's own features, the global row), and
  its node stage is the same perceptron applied to three rows (the averaged incoming messages, the node's own
  features, the global row).  The two gathers and the scatter-mean stay the terms the reference builds: what is
  proved is what the reference computes FROM them.  Each readout's row sum starts from the zero word, so it is the
  plain column sum `colSum`; the two residual results add the unchanged input back, index by index.

  The only non-pointwise steps are the concatenation, read piece by piece (a column below 64 falls in the first
  piece, below 128 in the second, and so on, which is exactly the case split of `cat4` / `cat3`), and the two
  contractions, whose index functions at `(e, j)` are `(e, k)` on the left and `(k, j)` on the right.
-/
import proofs.«426020_j49563922596335_1_alg».proof.Proof.RefRead
import proofs.«426020_j49563922596335_1_alg».proof.Proof.Spec
import Idealize.ShloMosaic.Lib.Pipeline.Value
import Idealize.ShloMosaic.Lib.ValueIdx
import Idealize.ShloMosaic.PureOps.Ideal.Laws

noncomputable section

open scoped BigOperators

namespace Cert.RefSpec

open Cert.ReferenceIdeal Cert.ReferenceIdeal.Read Idealize.ShloMosaic Idealize.ShloMosaic.ValueIdx

/-! ## A concatenation along the columns, read at `(row, column)`

  Column `k` of the joined array lies in the piece whose span holds `k`, at `k` less the widths before it. -/

/-- Four arrays of 64 columns joined along the columns: at `(e, k)` the join reads the four rows `e` laid end to end. -/
theorem cat4_read (h : Shape.Concatenates [S800000x64, S800000x64, S800000x64, S800000x64] S800000x256 1)
    (a b c d : S800000x64.Idx → EReal) (e : Fin 800000) (k : Fin 256) :
    concatenate S800000x256 1 [⟨S800000x64, a⟩, ⟨S800000x64, b⟩, ⟨S800000x64, c⟩, ⟨S800000x64, d⟩] h (ix2 e k)
      = Spec.cat4 (Spec.row a e) (Spec.row b e) (Spec.row c e) (Spec.row d e) k := by
  have hk := k.isLt
  have piece := concatenate_apply_piece (t := S800000x256) 1
    ([⟨S800000x64, a⟩, ⟨S800000x64, b⟩, ⟨S800000x64, c⟩, ⟨S800000x64, d⟩] : List ((s : Shape) × (s.Idx → EReal)))
    h (ix2 e k)
  unfold Spec.cat4 Spec.row
  by_cases h₁ : k.val < 64
  · rw [dif_pos h₁]
    exact piece 0 (by show (0 : Nat) < 4; omega) S800000x64 a rfl rfl 0 rfl (ix2 e ⟨k.val, h₁⟩)
      (fun a => match a with | ⟨0, _⟩ => fun _ => rfl | ⟨1, _⟩ => fun hb => absurd rfl hb)
      (by show 0 + k.val = k.val; omega)
  · rw [dif_neg h₁]
    by_cases h₂ : k.val < 128
    · rw [dif_pos h₂]
      exact piece 1 (by show (1 : Nat) < 4; omega) S800000x64 b rfl rfl 64 rfl (ix2 e ⟨k.val - 64, by omega⟩)
        (fun a => match a with | ⟨0, _⟩ => fun _ => rfl | ⟨1, _⟩ => fun hb => absurd rfl hb)
        (by show 64 + (k.val - 64) = k.val; omega)
    · rw [dif_neg h₂]
      by_cases h₃ : k.val < 192
      · rw [dif_pos h₃]
        exact piece 2 (by show (2 : Nat) < 4; omega) S800000x64 c rfl rfl 128 rfl (ix2 e ⟨k.val - 128, by omega⟩)
          (fun a => match a with | ⟨0, _⟩ => fun _ => rfl | ⟨1, _⟩ => fun hb => absurd rfl hb)
          (by show 128 + (k.val - 128) = k.val; omega)
      · rw [dif_neg h₃]
        exact piece 3 (by show (3 : Nat) < 4; omega) S800000x64 d rfl rfl 192 rfl (ix2 e ⟨k.val - 192, by omega⟩)
          (fun a => match a with | ⟨0, _⟩ => fun _ => rfl | ⟨1, _⟩ => fun hb => absurd rfl hb)
          (by show 192 + (k.val - 192) = k.val; omega)

/-- Three arrays of 64 columns joined along the columns: at `(n, k)` the join reads the three rows `n` laid end to end. -/
theorem cat3_read (h : Shape.Concatenates [S50000x64, S50000x64, S50000x64] S50000x192 1)
    (a b c : S50000x64.Idx → EReal) (n : Fin 50000) (k : Fin 192) :
    concatenate S50000x192 1 [⟨S50000x64, a⟩, ⟨S50000x64, b⟩, ⟨S50000x64, c⟩] h (ix2 n k)
      = Spec.cat3 (Spec.row a n) (Spec.row b n) (Spec.row c n) k := by
  have hk := k.isLt
  have piece := concatenate_apply_piece (t := S50000x192) 1
    ([⟨S50000x64, a⟩, ⟨S50000x64, b⟩, ⟨S50000x64, c⟩] : List ((s : Shape) × (s.Idx → EReal)))
    h (ix2 n k)
  unfold Spec.cat3 Spec.row
  by_cases h₁ : k.val < 64
  · rw [dif_pos h₁]
    exact piece 0 (by show (0 : Nat) < 3; omega) S50000x64 a rfl rfl 0 rfl (ix2 n ⟨k.val, h₁⟩)
      (fun a => match a with | ⟨0, _⟩ => fun _ => rfl | ⟨1, _⟩ => fun hb => absurd rfl hb)
      (by show 0 + k.val = k.val; omega)
  · rw [dif_neg h₁]
    by_cases h₂ : k.val < 128
    · rw [dif_pos h₂]
      exact piece 1 (by show (1 : Nat) < 3; omega) S50000x64 b rfl rfl 64 rfl (ix2 n ⟨k.val - 64, by omega⟩)
        (fun a => match a with | ⟨0, _⟩ => fun _ => rfl | ⟨1, _⟩ => fun hb => absurd rfl hb)
        (by show 64 + (k.val - 64) = k.val; omega)
    · rw [dif_neg h₂]
      exact piece 2 (by show (2 : Nat) < 3; omega) S50000x64 c rfl rfl 128 rfl (ix2 n ⟨k.val - 128, by omega⟩)
        (fun a => match a with | ⟨0, _⟩ => fun _ => rfl | ⟨1, _⟩ => fun hb => absurd rfl hb)
        (by show 128 + (k.val - 128) = k.val; omega)

/-! ## The reference's index functions at explicit coordinates -/

/-- The global row broadcast over the edges reads the global row's column. -/
theorem idx_v0_at (e : Fin 800000) (k : Fin 64) : idx_main_v0 (ix2 e k) = ix2 0 k :=
  funext fun a => Fin.ext (by match a with | ⟨0, _⟩ => rfl | ⟨1, _⟩ => rfl)

/-- The first edge contraction at `(e, j)`: the left operand at `(e, k)` … -/
theorem lidx_v16_at (e : Fin 800000) (j : Fin 128) (k : Fin 256) : lidx_main_v16 (ix2 e j) k = ix2 e k :=
  funext fun a => Fin.ext (by match a with | ⟨0, _⟩ => rfl | ⟨1, _⟩ => rfl)
/-- … and the right operand at `(k, j)`. -/
theorem ridx_v16_at (e : Fin 800000) (j : Fin 128) (k : Fin 256) : ridx_main_v16 (ix2 e j) k = ix2 k j :=
  funext fun a => Fin.ext (by match a with | ⟨0, _⟩ => rfl | ⟨1, _⟩ => rfl)
/-- The first edge bias, broadcast twice, reads the bias at the column. -/
theorem idx_v18_at (e : Fin 800000) (j : Fin 128) : idx_main_v17 (idx_main_v18 (ix2 e j)) = ix1 j :=
  funext fun a => Fin.ext (by match a with | ⟨0, _⟩ => rfl)

/-- The second edge contraction at `(e, d)`: the left operand at `(e, j)` … -/
theorem lidx_v21_at (e : Fin 800000) (d : Fin 64) (j : Fin 128) : lidx_main_v21 (ix2 e d) j = ix2 e j :=
  funext fun a => Fin.ext (by match a with | ⟨0, _⟩ => rfl | ⟨1, _⟩ => rfl)
/-- … and the right operand at `(j, d)`. -/
theorem ridx_v21_at (e : Fin 800000) (d : Fin 64) (j : Fin 128) : ridx_main_v21 (ix2 e d) j = ix2 j d :=
  funext fun a => Fin.ext (by match a with | ⟨0, _⟩ => rfl | ⟨1, _⟩ => rfl)
/-- The second edge bias, broadcast twice, reads the bias at the column. -/
theorem idx_v23_at (e : Fin 800000) (d : Fin 64) : idx_main_v22 (idx_main_v23 (ix2 e d)) = ix1 d :=
  funext fun a => Fin.ext (by match a with | ⟨0, _⟩ => rfl)

/-- The global row broadcast over the nodes reads the global row's column. -/
theorem idx_v37_at (n : Fin 50000) (k : Fin 64) : idx_main_v37 (ix2 n k) = ix2 0 k :=
  funext fun a => Fin.ext (by match a with | ⟨0, _⟩ => rfl | ⟨1, _⟩ => rfl)

/-- The first node contraction at `(n, j)`: the left operand at `(n, k)` … -/
theorem lidx_v39_at (n : Fin 50000) (j : Fin 128) (k : Fin 192) : lidx_main_v39 (ix2 n j) k = ix2 n k :=
  funext fun a => Fin.ext (by match a with | ⟨0, _⟩ => rfl | ⟨1, _⟩ => rfl)
/-- … and the right operand at `(k, j)`. -/
theorem ridx_v39_at (n : Fin 50000) (j : Fin 128) (k : Fin 192) : ridx_main_v39 (ix2 n j) k = ix2 k j :=
  funext fun a => Fin.ext (by match a with | ⟨0, _⟩ => rfl | ⟨1, _⟩ => rfl)
/-- The first node bias, broadcast twice, reads the bias at the column. -/
theorem idx_v41_at (n : Fin 50000) (j : Fin 128) : idx_main_v40 (idx_main_v41 (ix2 n j)) = ix1 j :=
  funext fun a => Fin.ext (by match a with | ⟨0, _⟩ => rfl)

/-- The second node contraction at `(n, d)`: the left operand at `(n, j)` … -/
theorem lidx_v44_at (n : Fin 50000) (d : Fin 64) (j : Fin 128) : lidx_main_v44 (ix2 n d) j = ix2 n j :=
  funext fun a => Fin.ext (by match a with | ⟨0, _⟩ => rfl | ⟨1, _⟩ => rfl)
/-- … and the right operand at `(j, d)`. -/
theorem ridx_v44_at (n : Fin 50000) (d : Fin 64) (j : Fin 128) : ridx_main_v44 (ix2 n d) j = ix2 j d :=
  funext fun a => Fin.ext (by match a with | ⟨0, _⟩ => rfl | ⟨1, _⟩ => rfl)
/-- The second node bias, broadcast twice, reads the bias at the column. -/
theorem idx_v46_at (n : Fin 50000) (d : Fin 64) : idx_main_v45 (idx_main_v46 (ix2 n d)) = ix1 d :=
  funext fun a => Fin.ext (by match a with | ⟨0, _⟩ => rfl)

/-! ## The argument arrays -/

variable (x0 : (⟨S50000x64, .f32⟩ : BufTy).Contents (Elt Ideal)) (x1 : (⟨S800000x64, .f32⟩ : BufTy).Contents (Elt Ideal))
  (x2 : (⟨S1x64, .f32⟩ : BufTy).Contents (Elt Ideal)) (x3 : (⟨S256x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S192x128, .f32⟩ : BufTy).Contents (Elt Ideal))
  (x8 : (⟨S128, .f32⟩ : BufTy).Contents (Elt Ideal)) (x9 : (⟨S128x64, .f32⟩ : BufTy).Contents (Elt Ideal))
  (x10 : (⟨S64, .f32⟩ : BufTy).Contents (Elt Ideal)) (x15 x16 : (⟨S800000, .i32⟩ : BufTy).Contents (Elt Ideal))

/-! ## The edge stage -/

/-- Edge `e`'s input row: its sender's features, its receiver's features, its own features and the global row, end
    to end. -/
abbrev edgeIn (e : Fin 800000) : Fin 256 → EReal :=
  Spec.cat4 (Spec.row (val_main_v7 (F := Ideal) x0 x15) e) (Spec.row (val_main_v14 (F := Ideal) x0 x16) e)
    (Spec.row x1 e) (fun k => x2 (ix2 0 k))

/-- The concatenated edge input at `(e, k)`. -/
theorem v15_at (e : Fin 800000) (k : Fin 256) :
    val_main_v15 (F := Ideal) x0 x1 x2 x15 x16 (ix2 e k) = edgeIn x0 x1 x2 x15 x16 e k := by
  unfold val_main_v15 edgeIn
  generalize val_main_v7 (F := Ideal) x0 x15 = a
  generalize val_main_v14 (F := Ideal) x0 x16 = b
  refine (cat4_read _ a b x1 (val_main_v0 (F := Ideal) x2) e k).trans ?_
  refine congrArg (fun u => Spec.cat4 (Spec.row a e) (Spec.row b e) (Spec.row x1 e) u k) (funext fun k' => ?_)
  exact (val_main_v0_apply x2 (ix2 e k')).trans (congrArg x2 (idx_v0_at e k'))

/-- The edge perceptron's hidden layer at `(e, j)`. -/
theorem v19_at (e : Fin 800000) (j : Fin 128) :
    val_main_v19 (F := Ideal) x0 x1 x2 x3 x4 x15 x16 (ix2 e j)
      = Spec.hid (edgeIn x0 x1 x2 x15 x16 e) (Spec.mat x3) (fun j' => x4 (ix1 j')) j := by
  rw [val_main_v19_apply, val_main_v16_apply, val_main_v18_apply, val_main_v17_apply, Ideal.addf_def]
  unfold Spec.hid
  refine congrArg₂ (· + ·) (Finset.sum_congr rfl fun k _ => ?_) (congrArg x4 (idx_v18_at e j))
  rw [lidx_v16_at, ridx_v16_at, v15_at]
  rfl

/-- Its positive part. -/
theorem v20_at (e : Fin 800000) (j : Fin 128) :
    val_main_v20 (F := Ideal) x0 x1 x2 x3 x4 x15 x16 (ix2 e j)
      = max (Spec.hid (edgeIn x0 x1 x2 x15 x16 e) (Spec.mat x3) (fun j' => x4 (ix1 j')) j) 0 := by
  rw [val_main_v20_apply, val_main_call0_v0_apply, val_main_call0_cst_apply, v19_at, Ideal.maximumf_def,
    Ideal.ofBits_def, Ideal.ofBits_zero_f32]

/-- THE EDGE UPDATE: the reference's edge stage is the specification's, on the gathered sender and receiver rows. -/
theorem ref_edge :
    val_main_v24 (F := Ideal) x0 x1 x2 x3 x4 x5 x6 x15 x16
      = Spec.edgeUpd (val_main_v7 (F := Ideal) x0 x15) (val_main_v14 (F := Ideal) x0 x16) x1 (fun k => x2 (ix2 0 k))
          (Spec.mat x3) (fun j => x4 (ix1 j)) (Spec.mat x5) (fun d => x6 (ix1 d)) := by
  funext i
  obtain ⟨e, d, rfl⟩ : ∃ (e : Fin 800000) (d : Fin 64), i = ix2 e d := ⟨_, _, eq_ix2 i⟩
  rw [val_main_v24_apply, val_main_v21_apply, val_main_v23_apply, val_main_v22_apply, Ideal.addf_def]
  show _ = Spec.out (Spec.hid (edgeIn x0 x1 x2 x15 x16 e) (Spec.mat x3) (fun j => x4 (ix1 j))) (Spec.mat x5)
    (fun d => x6 (ix1 d)) d
  unfold Spec.out
  refine congrArg₂ (· + ·) (Finset.sum_congr rfl fun j _ => ?_) (congrArg x6 (idx_v23_at e d))
  rw [lidx_v21_at, ridx_v21_at, v20_at]
  rfl

/-- The edge result adds the edge's own features back. -/
theorem ref_v65 :
    val_main_v65 (F := Ideal) x0 x1 x2 x3 x4 x5 x6 x15 x16
      = fun i => val_main_v24 (F := Ideal) x0 x1 x2 x3 x4 x5 x6 x15 x16 i + x1 i := by
  funext i
  rw [val_main_v65_apply, Ideal.addf_def]

/-- The edge readout's sum: the column sums of the edge update, as one row. -/
theorem ref_edge_sum :
    val_main_v53 (F := Ideal) x0 x1 x2 x3 x4 x5 x6 x15 x16
      = Spec.colSum (val_main_v24 (F := Ideal) x0 x1 x2 x3 x4 x5 x6 x15 x16) := by
  funext i
  obtain ⟨z, d, rfl⟩ : ∃ (z : Fin 1) (d : Fin 64), i = ix2 z d := ⟨_, _, eq_ix2 i⟩
  rw [val_main_v53_apply, val_main_v52_apply, val_main_cst_8_apply]
  generalize val_main_v24 (F := Ideal) x0 x1 x2 x3 x4 x5 x6 x15 x16 = y
  rw [Ideal.ofBits_def, Ideal.ofBits_zero_f32, zero_add]
  unfold Spec.colSum
  refine Finset.sum_congr rfl fun k _ => congrArg y ?_
  exact funext fun a => Fin.ext (by match a with | ⟨0, _⟩ => rfl | ⟨1, _⟩ => rfl)

/-! ## The node stage -/

/-- Node `n`'s input row: its averaged incoming messages, its own features and the global row, end to end. -/
abbrev nodeIn (n : Fin 50000) : Fin 192 → EReal :=
  Spec.cat3 (Spec.row (val_main_v36 (F := Ideal) x0 x1 x2 x3 x4 x5 x6 x15 x16) n) (Spec.row x0 n)
    (fun k => x2 (ix2 0 k))

/-- The concatenated node input at `(n, k)`. -/
theorem v38_at (n : Fin 50000) (k : Fin 192) :
    val_main_v38 (F := Ideal) x0 x1 x2 x3 x4 x5 x6 x15 x16 (ix2 n k) = nodeIn x0 x1 x2 x3 x4 x5 x6 x15 x16 n k := by
  unfold val_main_v38 nodeIn
  generalize val_main_v36 (F := Ideal) x0 x1 x2 x3 x4 x5 x6 x15 x16 = a
  refine (cat3_read _ a x0 (val_main_v37 (F := Ideal) x2) n k).trans ?_
  refine congrArg (fun u => Spec.cat3 (Spec.row a n) (Spec.row x0 n) u k) (funext fun k' => ?_)
  exact (val_main_v37_apply x2 (ix2 n k')).trans (congrArg x2 (idx_v37_at n k'))

/-- The node perceptron's hidden layer at `(n, j)`. -/
theorem v42_at (n : Fin 50000) (j : Fin 128) :
    val_main_v42 (F := Ideal) x0 x1 x2 x3 x4 x5 x6 x7 x8 x15 x16 (ix2 n j)
      = Spec.hid (nodeIn x0 x1 x2 x3 x4 x5 x6 x15 x16 n) (Spec.mat x7) (fun j' => x8 (ix1 j')) j := by
  rw [val_main_v42_apply, val_main_v39_apply, val_main_v41_apply, val_main_v40_apply, Ideal.addf_def]
  unfold Spec.hid
  refine congrArg₂ (· + ·) (Finset.sum_congr rfl fun k _ => ?_) (congrArg x8 (idx_v41_at n j))
  rw [lidx_v39_at, ridx_v39_at, v38_at]
  rfl

/-- Its positive part. -/
theorem v43_at (n : Fin 50000) (j : Fin 128) :
    val_main_v43 (F := Ideal) x0 x1 x2 x3 x4 x5 x6 x7 x8 x15 x16 (ix2 n j)
      = max (Spec.hid (nodeIn x0 x1 x2 x3 x4 x5 x6 x15 x16 n) (Spec.mat x7) (fun j' => x8 (ix1 j')) j) 0 := by
  rw [val_main_v43_apply, val_main_call1_v0_apply, val_main_call1_cst_apply, v42_at, Ideal.maximumf_def,
    Ideal.ofBits_def, Ideal.ofBits_zero_f32]

/-- THE NODE UPDATE: the reference's node stage is the specification's, on the averaged incoming messages. -/
theorem ref_node :
    val_main_v47 (F := Ideal) x0 x1 x2 x3 x4 x5 x6 x7 x8 x9 x10 x15 x16
      = Spec.nodeUpd (val_main_v36 (F := Ideal) x0 x1 x2 x3 x4 x5 x6 x15 x16) x0 (fun k => x2 (ix2 0 k))
          (Spec.mat x7) (fun j => x8 (ix1 j)) (Spec.mat x9) (fun d => x10 (ix1 d)) := by
  funext i
  obtain ⟨n, d, rfl⟩ : ∃ (n : Fin 50000) (d : Fin 64), i = ix2 n d := ⟨_, _, eq_ix2 i⟩
  rw [val_main_v47_apply, val_main_v44_apply, val_main_v46_apply, val_main_v45_apply, Ideal.addf_def]
  show _ = Spec.out (Spec.hid (nodeIn x0 x1 x2 x3 x4 x5 x6 x15 x16 n) (Spec.mat x7) (fun j => x8 (ix1 j))) (Spec.mat x9)
    (fun d => x10 (ix1 d)) d
  unfold Spec.out
  refine congrArg₂ (· + ·) (Finset.sum_congr rfl fun j _ => ?_) (congrArg x10 (idx_v46_at n d))
  rw [lidx_v44_at, ridx_v44_at, v43_at]
  rfl

/-- The node result adds the node's own features back. -/
theorem ref_v64 :
    val_main_v64 (F := Ideal) x0 x1 x2 x3 x4 x5 x6 x7 x8 x9 x10 x15 x16
      = fun i => val_main_v47 (F := Ideal) x0 x1 x2 x3 x4 x5 x6 x7 x8 x9 x10 x15 x16 i + x0 i := by
  funext i
  rw [val_main_v64_apply, Ideal.addf_def]

/-- The node readout's sum: the column sums of the node update, as one row. -/
theorem ref_node_sum :
    val_main_v49 (F := Ideal) x0 x1 x2 x3 x4 x5 x6 x7 x8 x9 x10 x15 x16
      = Spec.colSum (val_main_v47 (F := Ideal) x0 x1 x2 x3 x4 x5 x6 x7 x8 x9 x10 x15 x16) := by
  funext i
  obtain ⟨z, d, rfl⟩ : ∃ (z : Fin 1) (d : Fin 64), i = ix2 z d := ⟨_, _, eq_ix2 i⟩
  rw [val_main_v49_apply, val_main_v48_apply, val_main_cst_6_apply]
  generalize val_main_v47 (F := Ideal) x0 x1 x2 x3 x4 x5 x6 x7 x8 x9 x10 x15 x16 = y
  rw [Ideal.ofBits_def, Ideal.ofBits_zero_f32, zero_add]
  unfold Spec.colSum
  refine Finset.sum_congr rfl fun k _ => congrArg y ?_
  exact funext fun a => Fin.ext (by match a with | ⟨0, _⟩ => rfl | ⟨1, _⟩ => rfl)

end Cert.RefSpec

end
-- ==== Proof.RefHost.lean ====
/-
  The reference's host chains as named functions of their inputs.

  Three stretches of the reference are kept as the terms it builds rather than read index by index: the two row
  gathers (a node table read at the edges' sender / receiver numbers, a negative number first moved up by the table's
  height), the mean of the incoming messages (the edge updates added into their receivers' rows, divided by the
  number of incoming edges, at least one), and the global update (the two readouts' means and the global row through
  a two-layer perceptron, plus the global row).  Each is stated here as ONE function of exactly the arrays it reads,
  for every float instance, so that two programs that build the same chain are compared by comparing the inputs.
-/
import proofs.«426020_j49563922596335_1_alg».proof.Proof.RefRead

noncomputable section

namespace Cert.RefHost

open Cert.ReferenceIdeal Cert.ReferenceIdeal.Gen Cert.ReferenceIdeal.Read Idealize.ShloMosaic
  Idealize.ShloMosaic.StableHlo

variable {F : FTy → Type} [FloatOps F]

/-! ## The row gather -/

/-- Rows of a node table at a list of node numbers: a negative number is first moved up by 50000, the table's
    height, then the gather reads the row (clamping what is still out of range). -/
def gatherR (tbl : (⟨S50000x64, .f32⟩ : BufTy).Contents (Elt F)) (idx : (⟨S800000, .i32⟩ : BufTy).Contents (Elt F)) :
    (⟨S800000x64, .f32⟩ : BufTy).Contents (Elt F) :=
  Host.gather gather_S50000x64_S800000x1_S800000x64_1_0_n_n_0_1_164 tbl
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 50000#32))) idx))

/-- The senders' rows, as the chain the reference builds. -/
theorem v7_eq (x0 : (⟨S50000x64, .f32⟩ : BufTy).Contents (Elt F)) (x15 : (⟨S800000, .i32⟩ : BufTy).Contents (Elt F)) :
    val_main_v7 (F := F) x0 x15
      = Host.gather gather_S50000x64_S800000x1_S800000x64_1_0_n_n_0_1_164 x0
          (broadcastInDim S800000x1 ![0] bcast_S800000_S800000x1_0
            (select (cmpi .slt x15 (broadcastInDim S800000 ![] bcast_S_S800000 (constantI S_ 32 0#32)))
              (addi x15 (broadcastInDim S800000 ![] bcast_S_S800000 (constantI S_ 32 50000#32))) x15)) := rfl

/-- The receivers' rows, as the chain the reference builds. -/
theorem v14_eq (x0 : (⟨S50000x64, .f32⟩ : BufTy).Contents (Elt F)) (x16 : (⟨S800000, .i32⟩ : BufTy).Contents (Elt F)) :
    val_main_v14 (F := F) x0 x16
      = Host.gather gather_S50000x64_S800000x1_S800000x64_1_0_n_n_0_1_164 x0
          (broadcastInDim S800000x1 ![0] bcast_S800000_S800000x1_0
            (select (cmpi .slt x16 (broadcastInDim S800000 ![] bcast_S_S800000 (constantI S_ 32 0#32)))
              (addi x16 (broadcastInDim S800000 ![] bcast_S_S800000 (constantI S_ 32 50000#32))) x16)) := rfl

/-- The same two, through the one function. -/
theorem v7_eq_gatherR (x0 : (⟨S50000x64, .f32⟩ : BufTy).Contents (Elt F)) (x15 : (⟨S800000, .i32⟩ : BufTy).Contents (Elt F)) :
    val_main_v7 (F := F) x0 x15 = gatherR x0 x15 := rfl
theorem v14_eq_gatherR (x0 : (⟨S50000x64, .f32⟩ : BufTy).Contents (Elt F)) (x16 : (⟨S800000, .i32⟩ : BufTy).Contents (Elt F)) :
    val_main_v14 (F := F) x0 x16 = gatherR x0 x16 := rfl

/-! ## The mean of the incoming messages -/

/-- The per-edge rows `raw` added into their receivers' rows (from zero), each row divided by the number of its
    incoming edges (ones added up from zero), or by one if it has none. -/
def aggR (raw : (⟨S800000x64, .f32⟩ : BufTy).Contents (Elt F)) (dst : (⟨S800000, .i32⟩ : BufTy).Contents (Elt F)) :
    (⟨S50000x64, .f32⟩ : BufTy).Contents (Elt F) :=
  Host.divf
    (Host.scatterAdd scatter_S50000x64_S800000x1_S800000x64_1_0_0_1
      (broadcastInDim S50000x64 ![] bcast_S_S50000x64 (constant (F := F) S_ .f32 0x00000000#32))
      (broadcastInDim S800000x1 ![0] bcast_S800000_S800000x1_0 dst)
      raw)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant (F := F) S_ .f32 0x00000000#32))
            (broadcastInDim S800000x1 ![0] bcast_S800000_S800000x1_0 dst)
            (broadcastInDim S800000 ![] bcast_S_S800000 (constant (F := F) S_ .f32 0x3F800000#32)))
          (broadcastInDim S50000 ![] bcast_S_S50000 (constant (F := F) S_ .f32 0x3F800000#32)))))

/-- The reference's averaged messages are that function of its edge update and the receivers' numbers. -/
theorem v36_eq (x0 : (⟨S50000x64, .f32⟩ : BufTy).Contents (Elt F)) (x1 : (⟨S800000x64, .f32⟩ : BufTy).Contents (Elt F))
    (x2 : (⟨S1x64, .f32⟩ : BufTy).Contents (Elt F)) (x3 : (⟨S256x128, .f32⟩ : BufTy).Contents (Elt F))
    (x4 : (⟨S128, .f32⟩ : BufTy).Contents (Elt F)) (x5 : (⟨S128x64, .f32⟩ : BufTy).Contents (Elt F))
    (x6 : (⟨S64, .f32⟩ : BufTy).Contents (Elt F)) (x15 x16 : (⟨S800000, .i32⟩ : BufTy).Contents (Elt F)) :
    val_main_v36 (F := F) x0 x1 x2 x3 x4 x5 x6 x15 x16
      = aggR (val_main_v24 (F := F) x0 x1 x2 x3 x4 x5 x6 x15 x16) x16 := rfl

/-! ## The global update -/

/-- From the two readouts' row sums and the global row: the sums divided by the numbers of rows (50000 nodes, 800000
    edges), the three rows end to end through the two-layer perceptron, plus the global row. -/
def tailR (nodeSum edgeSum u : (⟨S1x64, .f32⟩ : BufTy).Contents (Elt F))
    (gW1 : (⟨S192x128, .f32⟩ : BufTy).Contents (Elt F)) (gb1 : (⟨S128, .f32⟩ : BufTy).Contents (Elt F))
    (gW2 : (⟨S128x64, .f32⟩ : BufTy).Contents (Elt F)) (gb2 : (⟨S64, .f32⟩ : BufTy).Contents (Elt F)) :
    (⟨S1x64, .f32⟩ : BufTy).Contents (Elt F) :=
  addf
    (addf
      (Host.dotGeneral dot_S1x128_S128x64_S1x64_1_0_0_1_n_n none
        (maximumf
          (addf
            (Host.dotGeneral dot_S1x192_S192x128_S1x128_1_0_0_1_n_n none
              (concatenate S1x192 1
                [⟨S1x64, Host.divf nodeSum (broadcastInDim S1x64 ![] bcast_S_S1x64 (constant (F := F) S_ .f32 0x47435000#32))⟩,
                 ⟨S1x64, Host.divf edgeSum (broadcastInDim S1x64 ![] bcast_S_S1x64 (constant (F := F) S_ .f32 0x49435000#32))⟩,
                 ⟨S1x64, u⟩]
                concatenates_S1x64_S1x64_S1x64_S1x192_d1)
              gW1)
            (broadcastInDim S1x128 ![1] bcast_S128_S1x128_1 gb1))
          (broadcastInDim S1x128 ![] bcast_S_S1x128 (constant (F := F) S_ .f32 0x00000000#32)))
        gW2)
      (broadcastInDim S1x64 ![1] bcast_S64_S1x64_1 gb2))
    u

/-- The reference's global result is that function of its two readout sums, the global row and the global
    perceptron's weights. -/
theorem v66_eq (x0 : (⟨S50000x64, .f32⟩ : BufTy).Contents (Elt F)) (x1 : (⟨S800000x64, .f32⟩ : BufTy).Contents (Elt F))
    (x2 : (⟨S1x64, .f32⟩ : BufTy).Contents (Elt F)) (x3 : (⟨S256x128, .f32⟩ : BufTy).Contents (Elt F))
    (x4 : (⟨S128, .f32⟩ : BufTy).Contents (Elt F)) (x5 : (⟨S128x64, .f32⟩ : BufTy).Contents (Elt F))
    (x6 : (⟨S64, .f32⟩ : BufTy).Contents (Elt F)) (x7 : (⟨S192x128, .f32⟩ : BufTy).Contents (Elt F))
    (x8 : (⟨S128, .f32⟩ : BufTy).Contents (Elt F)) (x9 : (⟨S128x64, .f32⟩ : BufTy).Contents (Elt F))
    (x10 : (⟨S64, .f32⟩ : BufTy).Contents (Elt F)) (x11 : (⟨S192x128, .f32⟩ : BufTy).Contents (Elt F))
    (x12 : (⟨S128, .f32⟩ : BufTy).Contents (Elt F)) (x13 : (⟨S128x64, .f32⟩ : BufTy).Contents (Elt F))
    (x14 : (⟨S64, .f32⟩ : BufTy).Contents (Elt F)) (x15 x16 : (⟨S800000, .i32⟩ : BufTy).Contents (Elt F)) :
    val_main_v66 (F := F) x0 x1 x2 x3 x4 x5 x6 x7 x8 x9 x10 x11 x12 x13 x14 x15 x16
      = tailR (val_main_v49 (F := F) x0 x1 x2 x3 x4 x5 x6 x7 x8 x9 x10 x15 x16)
          (val_main_v53 (F := F) x0 x1 x2 x3 x4 x5 x6 x15 x16) x2 x11 x12 x13 x14 := rfl

end Cert.RefHost

end
-- ==== Proof.Bridge.lean ====
/-
  THE BRIDGE between the two programs' results.

  The kernel program's three results are read off the contents of its buffers followed through @main (the fold
  `W3 … W9`): the edge region's second output, the node region's first output, and the global perceptron's row computed
  on the host from the two regions' accumulators.  Each is shown equal to the reference's corresponding stage, as a
  function of the SAME seventeen argument arrays:

  * the edge region's first output is the edge update of the gathered sender and receiver rows (the region's value,
    in the form with one partial product per piece, then `Spec.edgeUpdK_eq`), which is the reference's edge stage;
  * the scatter-mean between the regions and the global perceptron after them are, in both programs, ONE AND THE SAME
    chain of host operations (`agg_cross`, `tail_cross`), so they agree as soon as their inputs do, and are never opened;
  * the node region's outputs are the node update of that mean plus the node features, and its column sums.

  The two row lookups enter as hypotheses `hxs`, `hxd`: the kernel program's guarded lookup (which fills a row with a
  non-number pattern when its index is out of range) returns the plain gather.  That is where the index range of the
  precondition is used; nothing else needs it, and no step needs the inputs to be finite.
-/
import proofs.«426020_j49563922596335_1_alg».proof.Proof.KI.HostRead
import proofs.«426020_j49563922596335_1_alg».proof.Proof.KI.EdgeValue
import proofs.«426020_j49563922596335_1_alg».proof.Proof.KI.NodeValue
import proofs.«426020_j49563922596335_1_alg».proof.Proof.RefSpec
import proofs.«426020_j49563922596335_1_alg».proof.Proof.RefHost

noncomputable section

namespace Cert.Bridge

open Cert.KernelIdeal Cert.KernelIdeal.Gen Cert.KernelIdeal.Whole
open Idealize.ShloMosaic Idealize.ShloMosaic.TcCoe Idealize.ShloMosaic.ValueIdx
open Idealize.SL Idealize.SL.Sem
open Cert.ReferenceIdeal.Read (val_main_v7 val_main_v14 val_main_v24 val_main_v36 val_main_v47 val_main_v49 val_main_v53
  val_main_v64 val_main_v65 val_main_v66)

/-! ## The two programs' host chains are the same functions -/

section Cross

variable {F : FTy → Type} [FloatOps F]

/-- The scatter-mean between the regions is the reference's. -/
theorem agg_cross (raw : (⟨S800000x64, .f32⟩ : BufTy).Contents (Elt F)) (dst : (⟨S800000, .i32⟩ : BufTy).Contents (Elt F)) :
    HostRead.agg raw dst = Cert.RefHost.aggR raw dst := rfl

/-- The global perceptron after the regions is the reference's. -/
theorem tail_cross (ns es u : (⟨S1x64, .f32⟩ : BufTy).Contents (Elt F)) (gW1 : (⟨S192x128, .f32⟩ : BufTy).Contents (Elt F))
    (gb1 : (⟨S128, .f32⟩ : BufTy).Contents (Elt F)) (gW2 : (⟨S128x64, .f32⟩ : BufTy).Contents (Elt F))
    (gb2 : (⟨S64, .f32⟩ : BufTy).Contents (Elt F)) :
    HostRead.tail ns es u gW1 gb1 gW2 gb2 = Cert.RefHost.tailR ns es u gW1 gb1 gW2 gb2 := rfl

/-- The row lookup by a wrapped index is the reference's. -/
theorem gather_cross (tbl : (⟨S50000x64, .f32⟩ : BufTy).Contents (Elt F)) (idx : (⟨S800000, .i32⟩ : BufTy).Contents (Elt F)) :
    Host.gather gather_S50000x64_S800000x1_S800000x64_1_0_n_n_0_1_164 tbl (broadcastInDim S800000x1 ![0] bcast_S800000_S800000x1_0 (select (cmpi .slt (idx) (broadcastInDim S800000 ![] bcast_S_S800000 (constantI S_ 32 0#32))) (addi (idx) (broadcastInDim S800000 ![] bcast_S_S800000 (constantI S_ 32 50000#32))) (idx))) = Cert.RefHost.gatherR tbl idx := rfl

end Cross

/-! ## The results, over the extended reals -/

section Results

variable (m : (ℓ : Loc nD τ sig) → Buf (Elt Ideal) ℓ) (c : Dev nD)

/-- Argument `r`'s array at launch. -/
abbrev arg (r : Ref sig .tc) : Buf (Elt Ideal) ((c : Thread nD τ).loc r) := m ((c : Thread nD τ).loc r)

-- the guarded row lookups return the plain gathers
variable (hxs : StableHlo.after (hostOps0 (F := Ideal)) (V0 m c) main_v0
    = Host.gather gather_S50000x64_S800000x1_S800000x64_1_0_n_n_0_1_164 (V0 m c main_arg0) (broadcastInDim S800000x1 ![0] bcast_S800000_S800000x1_0 (select (cmpi .slt (V0 m c main_arg15) (broadcastInDim S800000 ![] bcast_S_S800000 (constantI S_ 32 0#32))) (addi (V0 m c main_arg15) (broadcastInDim S800000 ![] bcast_S_S800000 (constantI S_ 32 50000#32))) (V0 m c main_arg15))))
variable (hxd : StableHlo.after (hostOps0_1 (F := Ideal)) (V1 m c) main_v1
    = Host.gather gather_S50000x64_S800000x1_S800000x64_1_0_n_n_0_1_164 (V1 m c main_arg0) (broadcastInDim S800000x1 ![0] bcast_S800000_S800000x1_0 (select (cmpi .slt (V1 m c main_arg16) (broadcastInDim S800000 ![] bcast_S_S800000 (constantI S_ 32 0#32))) (addi (V1 m c main_arg16) (broadcastInDim S800000 ![] bcast_S_S800000 (constantI S_ 32 50000#32))) (V1 m c main_arg16))))

include hxs in
/-- The sender rows the edge region reads are the reference's first gather. -/
theorem xs_eq : W3 m c main_v0 = val_main_v7 (F := Ideal) (arg m c main_arg0) (arg m c main_arg15) := by
  rw [HostRead.W3_main_v0, hxs, Cert.RefHost.v7_eq_gatherR]
  exact gather_cross _ _

include hxd in
/-- The receiver rows are the reference's second gather. -/
theorem xd_eq : W3 m c main_v1 = val_main_v14 (F := Ideal) (arg m c main_arg0) (arg m c main_arg16) := by
  rw [HostRead.W3_main_v1, hxd, HostRead.V1_main_arg0, HostRead.V1_main_arg16, Cert.RefHost.v14_eq_gatherR]
  exact gather_cross _ _

/-- The reference's edge stage at the launch arguments. -/
abbrev refEdge : Spec.Arr2 800000 64 :=
  val_main_v24 (F := Ideal) (arg m c main_arg0) (arg m c main_arg1) (arg m c main_arg2) (arg m c main_arg3) (arg m c main_arg4)
    (arg m c main_arg5) (arg m c main_arg6) (arg m c main_arg15) (arg m c main_arg16)

/-- The reference's node stage at the launch arguments. -/
abbrev refNode : Spec.Arr2 50000 64 :=
  val_main_v47 (F := Ideal) (arg m c main_arg0) (arg m c main_arg1) (arg m c main_arg2) (arg m c main_arg3) (arg m c main_arg4)
    (arg m c main_arg5) (arg m c main_arg6) (arg m c main_arg7) (arg m c main_arg8) (arg m c main_arg9) (arg m c main_arg10)
    (arg m c main_arg15) (arg m c main_arg16)

include hxs hxd in
/-- The edge update the region computes, in the kernel's form, is the reference's edge stage. -/
theorem edge_eq :
    Spec.edgeUpdK (EdgeValue.XS (fun c b => W3 m c b) c) (EdgeValue.XD (fun c b => W3 m c b) c) (EdgeValue.EF (fun c b => W3 m c b) c)
        (fun k => EdgeValue.U (fun c b => W3 m c b) c (ix2 0 k)) (Spec.mat (EdgeValue.W1 (fun c b => W3 m c b) c))
        (fun j => EdgeValue.B1 (fun c b => W3 m c b) c (ix2 0 j)) (Spec.mat (EdgeValue.W2 (fun c b => W3 m c b) c))
        (fun d => EdgeValue.B2 (fun c b => W3 m c b) c (ix2 0 d))
      = refEdge m c := by
  rw [Spec.edgeUpdK_eq]
  unfold refEdge
  rw [Cert.RefSpec.ref_edge]
  have h0 : EdgeValue.XS (fun c b => W3 m c b) c = val_main_v7 (F := Ideal) (arg m c main_arg0) (arg m c main_arg15) := xs_eq m c hxs
  have h1 : EdgeValue.XD (fun c b => W3 m c b) c = val_main_v14 (F := Ideal) (arg m c main_arg0) (arg m c main_arg16) := xd_eq m c hxd
  have h2 : EdgeValue.EF (fun c b => W3 m c b) c = arg m c main_arg1 := HostRead.W3_main_arg1 m c
  have h3 : EdgeValue.U (fun c b => W3 m c b) c = arg m c main_arg2 := HostRead.W3_main_arg2 m c
  have h4 : EdgeValue.W1 (fun c b => W3 m c b) c = arg m c main_arg3 := HostRead.W3_main_arg3 m c
  have h5 : EdgeValue.W2 (fun c b => W3 m c b) c = arg m c main_arg5 := HostRead.W3_main_arg5 m c
  have h6 : (fun j : Fin 128 => EdgeValue.B1 (fun c b => W3 m c b) c (ix2 0 j)) = fun j => arg m c main_arg4 (ix1 j) :=
    funext fun j => HostRead.W3_main_v2 m c j
  have h7 : (fun d : Fin 64 => EdgeValue.B2 (fun c b => W3 m c b) c (ix2 0 d)) = fun d => arg m c main_arg6 (ix1 d) :=
    funext fun d => HostRead.W3_main_v3 m c d
  rw [h0, h1, h2, h3, h4, h5, h6, h7]

include hxs hxd in
/-- The edge region's first output array is the reference's edge stage. -/
theorem raw_eq : W4 m c main_v6_0 = refEdge m c := by
  rw [HostRead.W4_main_v6_0, EdgeValue.arr8]
  exact edge_eq m c hxs hxd

include hxs hxd in
/-- SECOND RESULT: the edge region's second output is the reference's `main_v65`. -/
theorem res_ef_eq :
    W9 m c main_v6_1 = val_main_v65 (F := Ideal) (arg m c main_arg0) (arg m c main_arg1) (arg m c main_arg2) (arg m c main_arg3)
      (arg m c main_arg4) (arg m c main_arg5) (arg m c main_arg6) (arg m c main_arg15) (arg m c main_arg16) := by
  rw [W9_main_v6_1, EdgeValue.arr9, Cert.RefSpec.ref_v65, edge_eq m c hxs hxd]
  funext i
  exact congrArg (refEdge m c i + ·) (congrFun (HostRead.W3_main_arg1 m c) i)

include hxs hxd in
/-- The mean of the incoming messages the node region reads is the reference's. -/
theorem agg_eq :
    W5 m c main_v18 = val_main_v36 (F := Ideal) (arg m c main_arg0) (arg m c main_arg1) (arg m c main_arg2) (arg m c main_arg3)
      (arg m c main_arg4) (arg m c main_arg5) (arg m c main_arg6) (arg m c main_arg15) (arg m c main_arg16) := by
  rw [HostRead.W5_main_v18, raw_eq m c hxs hxd, agg_cross, Cert.RefHost.v36_eq]

include hxs hxd in
/-- The node update the region computes, in the kernel's form, is the reference's node stage. -/
theorem node_eq :
    Spec.nodeUpdK (NodeValue.AGG (fun c b => W5 m c b) c) (NodeValue.NF (fun c b => W5 m c b) c)
        (fun k => NodeValue.U (fun c b => W5 m c b) c (ix2 0 k)) (Spec.mat (NodeValue.W1 (fun c b => W5 m c b) c))
        (fun j => NodeValue.B1 (fun c b => W5 m c b) c (ix2 0 j)) (Spec.mat (NodeValue.W2 (fun c b => W5 m c b) c))
        (fun d => NodeValue.B2 (fun c b => W5 m c b) c (ix2 0 d))
      = refNode m c := by
  rw [Spec.nodeUpdK_eq]
  unfold refNode
  rw [Cert.RefSpec.ref_node]
  have h0 : NodeValue.AGG (fun c b => W5 m c b) c = val_main_v36 (F := Ideal) (arg m c main_arg0) (arg m c main_arg1)
      (arg m c main_arg2) (arg m c main_arg3) (arg m c main_arg4) (arg m c main_arg5) (arg m c main_arg6) (arg m c main_arg15)
      (arg m c main_arg16) := agg_eq m c hxs hxd
  have h1 : NodeValue.NF (fun c b => W5 m c b) c = arg m c main_arg0 := HostRead.W5_main_arg0 m c
  have h2 : NodeValue.U (fun c b => W5 m c b) c = arg m c main_arg2 := HostRead.W5_main_arg2 m c
  have h3 : NodeValue.W1 (fun c b => W5 m c b) c = arg m c main_arg7 := HostRead.W5_main_arg7 m c
  have h4 : NodeValue.W2 (fun c b => W5 m c b) c = arg m c main_arg9 := HostRead.W5_main_arg9 m c
  have h5 : (fun j : Fin 128 => NodeValue.B1 (fun c b => W5 m c b) c (ix2 0 j)) = fun j => arg m c main_arg8 (ix1 j) :=
    funext fun j => HostRead.W5_main_v4 m c j
  have h6 : (fun d : Fin 64 => NodeValue.B2 (fun c b => W5 m c b) c (ix2 0 d)) = fun d => arg m c main_arg10 (ix1 d) :=
    funext fun d => HostRead.W5_main_v5 m c d
  rw [h0, h1, h2, h3, h4, h5, h6]

include hxs hxd in
/-- FIRST RESULT: the node region's first output is the reference's `main_v64`. -/
theorem res_nf_eq :
    W9 m c main_v19_0 = val_main_v64 (F := Ideal) (arg m c main_arg0) (arg m c main_arg1) (arg m c main_arg2) (arg m c main_arg3)
      (arg m c main_arg4) (arg m c main_arg5) (arg m c main_arg6) (arg m c main_arg7) (arg m c main_arg8) (arg m c main_arg9)
      (arg m c main_arg10) (arg m c main_arg15) (arg m c main_arg16) := by
  rw [W9_main_v19_0, NodeValue.arr7, Cert.RefSpec.ref_v64, node_eq m c hxs hxd]
  funext i
  exact congrArg (refNode m c i + ·) (congrFun (HostRead.W5_main_arg0 m c) i)

include hxs hxd in
/-- THIRD RESULT: the global row is the reference's `main_v66`. -/
theorem res_u_eq :
    W9 m c main_v32 = val_main_v66 (F := Ideal) (arg m c main_arg0) (arg m c main_arg1) (arg m c main_arg2) (arg m c main_arg3)
      (arg m c main_arg4) (arg m c main_arg5) (arg m c main_arg6) (arg m c main_arg7) (arg m c main_arg8) (arg m c main_arg9)
      (arg m c main_arg10) (arg m c main_arg11) (arg m c main_arg12) (arg m c main_arg13) (arg m c main_arg14) (arg m c main_arg15)
      (arg m c main_arg16) := by
  rw [HostRead.W9_main_v32', W6_main_v19_1, W6_main_v6_2, NodeValue.arr8, EdgeValue.arr10, node_eq m c hxs hxd,
    edge_eq m c hxs hxd, tail_cross, Cert.RefHost.v66_eq, Cert.RefSpec.ref_node_sum, Cert.RefSpec.ref_edge_sum]

end Results

end Cert.Bridge

end
-- ==== Proof.PreIdx.lean ====
/-
  The two integer inputs name rows of the node table, and the precondition says so: beside the finiteness of the float
  inputs it is the conjunction of `all (x ≥ 0)` and `all (x < 50000)` for each of them. Read back lane by lane, every
  word of either input, read signed, lies in [0, 50000).

  The program looks rows up as: the index wrapped by the table's height when negative, laid as a column; the gather of
  the table's rows at that column; and a select that keeps a gathered row where its index lies in [0, 49999] and puts NaN
  elsewhere. Under the range no index is negative, so the wrap changes no word; every wrapped index lies in [0, 49999],
  so every lane of the range mask is set and the select keeps every gathered row: the lookup is the gather itself.
-/
import proofs.«426020_j49563922596335_1_alg».proof.Pre_finite_inputs
import proofs.«426020_j49563922596335_1_alg».proof.Proof.Gen.KernelIdeal.Launch
import Idealize.ShloMosaic.Lib.StableHlo.Predicate
import Idealize.ShloMosaic.Lib.StableHlo.Run
import Idealize.ShloMosaic.Lib.Pipeline.Frame
import Idealize.ShloMosaic.Lib.ReduceAll
import Idealize.ShloMosaic.Lib.ValueIdx

noncomputable section

namespace Cert.PreIdx

open Idealize.ShloMosaic Idealize.ShloMosaic.ValueIdx

/-! ## Words -/

theorem toInt_zero32 : (0#32 : BitVec 32).toInt = 0 := by decide
theorem toInt_49999 : (49999#32 : BitVec 32).toInt = 49999 := by decide
theorem toInt_50000 : (50000#32 : BitVec 32).toInt = 50000 := by decide

/-- A word on which both comparisons `w ≥ 0` and `w < 50000` are set lies in [0, 50000), read signed. -/
theorem lane_range (w : BitVec 32) (h0 : IntOp.cmpi .sge w 0#32 = 1#1) (h1 : IntOp.cmpi .slt w 50000#32 = 1#1) :
    0 ≤ w.toInt ∧ w.toInt < 50000 := by
  have a := IntOp.cmpi_sge.1 h0
  have b := IntOp.cmpi_slt.1 h1
  rw [toInt_zero32] at a
  rw [toInt_50000] at b
  exact ⟨a, b⟩

/-- A word that is not negative is not wrapped: `w < 0 ? w + 50000 : w` is `w`. -/
theorem wrap_lane (w : BitVec 32) (h0 : 0 ≤ w.toInt) :
    Scalar.select (IntOp.cmpi .slt w 0#32) (IntOp.addi w 50000#32) w = w := by
  have hn : ¬ IntOp.cmpi .slt w 0#32 = 1#1 := fun hc => by
    have hlt := IntOp.cmpi_slt.1 hc
    rw [toInt_zero32] at hlt
    omega
  exact if_neg hn

/-- A word in [0, 50000) passes the range test `0 ≤ v ∧ v ≤ 49999`. -/
theorem mask_lane (v : BitVec 32) (h : 0 ≤ v.toInt ∧ v.toInt < 50000) :
    IntOp.andi (IntOp.cmpi .sge v 0#32) (IntOp.cmpi .sle v 49999#32) = 1#1 :=
  IntOp.andi_eq_one.2 ⟨IntOp.cmpi_sge.2 (by rw [toInt_zero32]; exact h.1), IntOp.cmpi_sle.2 (by rw [toInt_49999]; omega)⟩

/-- A left fold by `and` from 1 over one-bit words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    have h11 : IntOp.andi (1#1 : BitVec 1) 1#1 = 1#1 := by decide
    rw [List.foldl_cons, hf a List.mem_cons_self, h11]
    exact ih fun n hn => hf n (List.mem_cons_of_mem _ hn)

/-- A reduction by `and` from 1 of a mask whose every lane is 1 is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun i _ => hx i

/-! ## The precondition read back -/

section Range
open Cert.Pre_finite_inputs

variable [Cert.Pre_finite_inputs.Facts]

/-- The scalar shape has one index. -/
instance scalarIdx_subsingleton : Subsingleton S_.Idx := ⟨fun a b => funext fun d => d.elim0⟩

/-- The precondition's last four conjuncts, each an `all` of a comparison against a constant, read at every lane:
    both integer inputs lie in [0, 50000). -/
theorem idx_ranges
    (a0 : FVec Ideal S50000x64 .f32) (a1 : FVec Ideal S800000x64 .f32) (a2 : FVec Ideal S1x64 .f32)
    (a3 : FVec Ideal S256x128 .f32) (a4 : FVec Ideal S128 .f32) (a5 : FVec Ideal S128x64 .f32) (a6 : FVec Ideal S64 .f32)
    (a7 : FVec Ideal S192x128 .f32) (a8 : FVec Ideal S128 .f32) (a9 : FVec Ideal S128x64 .f32) (a10 : FVec Ideal S64 .f32)
    (a11 : FVec Ideal S192x128 .f32) (a12 : FVec Ideal S128 .f32) (a13 : FVec Ideal S128x64 .f32) (a14 : FVec Ideal S64 .f32)
    (a15 a16 : IVec S800000 32)
    (h : fn (F := Ideal) a0 a1 a2 a3 a4 a5 a6 a7 a8 a9 a10 a11 a12 a13 a14 a15 a16 = fun _ => 1#1) :
    (∀ k : S800000.Idx, 0 ≤ (a15 k).toInt ∧ (a15 k).toInt < 50000)
      ∧ ∀ k : S800000.Idx, 0 ≤ (a16 k).toInt ∧ (a16 k).toInt < 50000 := by
  have h0 := congrFun h ix0
  dsimp only [fn, fn_part1, fn_part2, fn_part3, fn_part4, fn_part5] at h0
  obtain ⟨h1, d50⟩ := IntOp.andi_eq_one.1 h0
  obtain ⟨h2, d0⟩ := IntOp.andi_eq_one.1 h1
  obtain ⟨h3, s50⟩ := IntOp.andi_eq_one.1 h2
  obtain ⟨-, s0⟩ := IntOp.andi_eq_one.1 h3
  exact ⟨fun k => lane_range _ (Host.reduce_andi_all _ _ _ _ _ s0 k) (Host.reduce_andi_all _ _ _ _ _ s50 k),
    fun k => lane_range _ (Host.reduce_andi_all _ _ _ _ _ d0 k) (Host.reduce_andi_all _ _ _ _ _ d50 k)⟩

/-- Every source index names a row of the node table. -/
theorem src_range
    (a0 : FVec Ideal S50000x64 .f32) (a1 : FVec Ideal S800000x64 .f32) (a2 : FVec Ideal S1x64 .f32)
    (a3 : FVec Ideal S256x128 .f32) (a4 : FVec Ideal S128 .f32) (a5 : FVec Ideal S128x64 .f32) (a6 : FVec Ideal S64 .f32)
    (a7 : FVec Ideal S192x128 .f32) (a8 : FVec Ideal S128 .f32) (a9 : FVec Ideal S128x64 .f32) (a10 : FVec Ideal S64 .f32)
    (a11 : FVec Ideal S192x128 .f32) (a12 : FVec Ideal S128 .f32) (a13 : FVec Ideal S128x64 .f32) (a14 : FVec Ideal S64 .f32)
    (a15 a16 : IVec S800000 32)
    (h : fn (F := Ideal) a0 a1 a2 a3 a4 a5 a6 a7 a8 a9 a10 a11 a12 a13 a14 a15 a16 = fun _ => 1#1) :
    ∀ e : Fin 800000, 0 ≤ (a15 (ix1 e)).toInt ∧ (a15 (ix1 e)).toInt < 50000 :=
  fun e => (idx_ranges a0 a1 a2 a3 a4 a5 a6 a7 a8 a9 a10 a11 a12 a13 a14 a15 a16 h).1 (ix1 e)

/-- Every destination index names a row of the node table. -/
theorem dst_range
    (a0 : FVec Ideal S50000x64 .f32) (a1 : FVec Ideal S800000x64 .f32) (a2 : FVec Ideal S1x64 .f32)
    (a3 : FVec Ideal S256x128 .f32) (a4 : FVec Ideal S128 .f32) (a5 : FVec Ideal S128x64 .f32) (a6 : FVec Ideal S64 .f32)
    (a7 : FVec Ideal S192x128 .f32) (a8 : FVec Ideal S128 .f32) (a9 : FVec Ideal S128x64 .f32) (a10 : FVec Ideal S64 .f32)
    (a11 : FVec Ideal S192x128 .f32) (a12 : FVec Ideal S128 .f32) (a13 : FVec Ideal S128x64 .f32) (a14 : FVec Ideal S64 .f32)
    (a15 a16 : IVec S800000 32)
    (h : fn (F := Ideal) a0 a1 a2 a3 a4 a5 a6 a7 a8 a9 a10 a11 a12 a13 a14 a15 a16 = fun _ => 1#1) :
    ∀ e : Fin 800000, 0 ≤ (a16 (ix1 e)).toInt ∧ (a16 (ix1 e)).toInt < 50000 :=
  fun e => (idx_ranges a0 a1 a2 a3 a4 a5 a6 a7 a8 a9 a10 a11 a12 a13 a14 a15 a16 h).2 (ix1 e)

end Range

/-! ## The row lookup under the range -/

section Take
open Cert.KernelIdeal Cert.KernelIdeal.Gen
open Idealize.ShloMosaic.TcCoe Idealize.ShloMosaic.StableHlo

/-- The index column the lookup gathers at: the input wrapped by the table's height where negative, as an
    [800000 × 1] column. -/
abbrev wrapIdx (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The range mask: lane e is set when the wrapped index of lane e lies in [0, 49999] (the conjunction of the two
    comparisons, reduced by `and` along the column's unit axis). -/
abbrev rangeMask (x : IVec S800000 32) : IVec S800000 1 :=
  Host.reduce IntOp.andi
    (andi (cmpi .sge (wrapIdx x) (broadcastInDim S800000x1 ![] bcast_S_S800000x1 (constantI S_ 32 0#32)))
      (cmpi .sle (wrapIdx x) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Under the range every word of the index column is a word of the input, so it lies in [0, 50000). -/
theorem wrapIdx_range (x : IVec S800000 32)
    (hr : ∀ e : Fin 800000, 0 ≤ (x (ix1 e)).toInt ∧ (x (ix1 e)).toInt < 50000) (i : S800000x1.Idx) :
    0 ≤ (wrapIdx x i).toInt ∧ (wrapIdx x i).toInt < 50000 := by
  have hk : ∀ k : S800000.Idx, 0 ≤ (x k).toInt ∧ (x k).toInt < 50000 := fun k => by
    rw [eq_ix1 k]; exact hr (k 0)
  have e : wrapIdx x i = x _ := wrap_lane (x _) (hk _).1
  rw [e]
  exact hk _

/-- Under the range every lane of the mask is set. -/
theorem rangeMask_ones (x : IVec S800000 32)
    (hr : ∀ e : Fin 800000, 0 ≤ (x (ix1 e)).toInt ∧ (x (ix1 e)).toInt < 50000) (k : S800000.Idx) :
    rangeMask x k = 1#1 :=
  reduce_andi_ones _ _ _ _ rfl (fun i => mask_lane (wrapIdx x i) (wrapIdx_range x hr i)) k

/-- THE LOOKUP IS THE GATHER. With every index in [0, 50000) the select by the range mask keeps every gathered row. -/
theorem lookup_eq_gather (nf : FVec Ideal S50000x64 .f32) (x : IVec S800000 32)
    (hr : ∀ e : Fin 800000, 0 ≤ (x (ix1 e)).toInt ∧ (x (ix1 e)).toInt < 50000) :
    select (broadcastInDim S800000x64 ![0] bcast_S800000_S800000x64_0 (rangeMask x))
        (Host.gather gather_S50000x64_S800000x1_S800000x64_1_0_n_n_0_1_164 nf (wrapIdx x))
        (broadcastInDim S800000x64 ![] bcast_S_S800000x64 (constant (F := Ideal) S_ .f32 0x7FC00000#32))
      = Host.gather gather_S50000x64_S800000x1_S800000x64_1_0_n_n_0_1_164 nf (wrapIdx x) := by
  funext j
  rw [select_apply]
  have hj : broadcastInDim S800000x64 ![0] bcast_S800000_S800000x64_0 (rangeMask x) j = 1#1 := rangeMask_ones x hr _
  rw [hj]
  exact select_one _ _

/-! ### The source lookup: `hostOps0` -/

set_option maxHeartbeats 2000000 in
/-- The operations' index column is the wrapped input as a column. -/
theorem src_col (W : Valuation τ sig (Elt Ideal)) :
    StableHlo.after (hostOps0 (F := Ideal)) W main_call0_v5 = wrapIdx (W main_arg15) := by
  show StableHlo.after hostOps0 W (Proc.devRef .tc main_call0_v5) = _
  after_results
  rfl

set_option maxHeartbeats 2000000 in
/-- The operations' range mask is the mask of the wrapped input. -/
theorem src_mask (W : Valuation τ sig (Elt Ideal)) :
    StableHlo.after (hostOps0 (F := Ideal)) W main_call0_v12 = rangeMask (W main_arg15) := by
  show StableHlo.after hostOps0 W (Proc.devRef .tc main_call0_v12) = _
  after_results
  simp only [TRef.ofBuf, TRef.toBuf, cast_cast, cast_eq]

set_option maxHeartbeats 2000000 in
/-- The operations' gathered rows are the table's rows at the wrapped input. -/
theorem src_rows (W : Valuation τ sig (Elt Ideal)) :
    StableHlo.after (hostOps0 (F := Ideal)) W main_call0_v13
      = Host.gather gather_S50000x64_S800000x1_S800000x64_1_0_n_n_0_1_164 (W main_arg0) (wrapIdx (W main_arg15)) := by
  show StableHlo.after hostOps0 W (Proc.devRef .tc main_call0_v13) = _
  after_results
  rfl

set_option maxHeartbeats 2000000 in
/-- The last four operations, from any contents: the mask laid along the rows, the NaN splat, and the select of the
    gathered rows by the mask. -/
theorem src_tail (V : Valuation τ sig (Elt Ideal)) :
    StableHlo.after (List.drop 19 (hostOps0 (F := Ideal))) V main_v0
      = select (broadcastInDim S800000x64 ![0] bcast_S800000_S800000x64_0 (V main_call0_v12))
          (V main_call0_v13)
          (broadcastInDim S800000x64 ![] bcast_S_S800000x64 (constant (F := Ideal) S_ .f32 0x7FC00000#32)) := by
  show StableHlo.after (List.drop 19 hostOps0) V (Proc.devRef .tc main_v0) = _
  simp only [List.drop_succ_cons, List.drop_zero]
  after_results
  rfl

set_option maxHeartbeats 2000000 in
/-- The last four operations write neither the mask nor the gathered rows. -/
theorem src_tail_keeps (V : Valuation τ sig (Elt Ideal)) :
    StableHlo.after (List.drop 19 (hostOps0 (F := Ideal))) V main_call0_v12 = V main_call0_v12
      ∧ StableHlo.after (List.drop 19 (hostOps0 (F := Ideal))) V main_call0_v13 = V main_call0_v13 := by
  constructor
  · show StableHlo.after (List.drop 19 hostOps0) V (Proc.devRef .tc main_call0_v12) = _
    simp only [List.drop_succ_cons, List.drop_zero]
    after_results
  · show StableHlo.after (List.drop 19 hostOps0) V (Proc.devRef .tc main_call0_v13) = _
    simp only [List.drop_succ_cons, List.drop_zero]
    after_results

/-- What the source lookup leaves in its result: the gathered rows selected by the range mask, NaN elsewhere. -/
theorem after_src (W : Valuation τ sig (Elt Ideal)) :
    StableHlo.after (hostOps0 (F := Ideal)) W main_v0
      = select (broadcastInDim S800000x64 ![0] bcast_S800000_S800000x64_0 (rangeMask (W main_arg15)))
          (Host.gather gather_S50000x64_S800000x1_S800000x64_1_0_n_n_0_1_164 (W main_arg0) (wrapIdx (W main_arg15)))
          (broadcastInDim S800000x64 ![] bcast_S_S800000x64 (constant (F := Ideal) S_ .f32 0x7FC00000#32)) := by
  have hsplit : StableHlo.after (hostOps0 (F := Ideal)) W
      = StableHlo.after (List.drop 19 hostOps0) (StableHlo.after (List.take 19 hostOps0) W) := by
    rw [← StableHlo.after_append, List.take_append_drop]
  have e12 : StableHlo.after (List.take 19 (hostOps0 (F := Ideal))) W main_call0_v12 = rangeMask (W main_arg15) :=
    ((src_tail_keeps (StableHlo.after (List.take 19 hostOps0) W)).1.symm.trans (congrFun hsplit.symm _)).trans (src_mask W)
  have e13 : StableHlo.after (List.take 19 (hostOps0 (F := Ideal))) W main_call0_v13
      = Host.gather gather_S50000x64_S800000x1_S800000x64_1_0_n_n_0_1_164 (W main_arg0) (wrapIdx (W main_arg15)) :=
    ((src_tail_keeps (StableHlo.after (List.take 19 hostOps0) W)).2.symm.trans (congrFun hsplit.symm _)).trans (src_rows W)
  rw [hsplit, src_tail, e12, e13]

/-- THE SOURCE LOOKUP IS THE GATHER of the table's rows at the wrapped indices, whenever the indices lie in [0, 50000). -/
theorem take_src (W : Valuation τ sig (Elt Ideal))
    (hr : ∀ e : Fin 800000, 0 ≤ ((W main_arg15 : IVec S800000 32) (ix1 e)).toInt ∧ ((W main_arg15 : IVec S800000 32) (ix1 e)).toInt < 50000) :
    StableHlo.after (hostOps0 (F := Ideal)) W main_v0
      = Host.gather gather_S50000x64_S800000x1_S800000x64_1_0_n_n_0_1_164 (W main_arg0)
          (broadcastInDim S800000x1 ![0] bcast_S800000_S800000x1_0
            (select (cmpi .slt (W main_arg15) (broadcastInDim S800000 ![] bcast_S_S800000 (constantI S_ 32 0#32)))
              (addi (W main_arg15) (broadcastInDim S800000 ![] bcast_S_S800000 (constantI S_ 32 50000#32))) (W main_arg15))) :=
  (after_src W).trans (lookup_eq_gather (W main_arg0) (W main_arg15) hr)

/-! ### The destination lookup: `hostOps0_1` -/

set_option maxHeartbeats 2000000 in
/-- The operations' index column is the wrapped input as a column. -/
theorem dst_col (W : Valuation τ sig (Elt Ideal)) :
    StableHlo.after (hostOps0_1 (F := Ideal)) W main_call1_v5 = wrapIdx (W main_arg16) := by
  show StableHlo.after hostOps0_1 W (Proc.devRef .tc main_call1_v5) = _
  after_results
  rfl

set_option maxHeartbeats 2000000 in
/-- The operations' range mask is the mask of the wrapped input. -/
theorem dst_mask (W : Valuation τ sig (Elt Ideal)) :
    StableHlo.after (hostOps0_1 (F := Ideal)) W main_call1_v12 = rangeMask (W main_arg16) := by
  show StableHlo.after hostOps0_1 W (Proc.devRef .tc main_call1_v12) = _
  after_results
  simp only [TRef.ofBuf, TRef.toBuf, cast_cast, cast_eq]

set_option maxHeartbeats 2000000 in
/-- The operations' gathered rows are the table's rows at the wrapped input. -/
theorem dst_rows (W : Valuation τ sig (Elt Ideal)) :
    StableHlo.after (hostOps0_1 (F := Ideal)) W main_call1_v13
      = Host.gather gather_S50000x64_S800000x1_S800000x64_1_0_n_n_0_1_164 (W main_arg0) (wrapIdx (W main_arg16)) := by
  show StableHlo.after hostOps0_1 W (Proc.devRef .tc main_call1_v13) = _
  after_results
  rfl

set_option maxHeartbeats 2000000 in
/-- The last four operations, from any contents: the mask laid along the rows, the NaN splat, and the select of the
    gathered rows by the mask. -/
theorem dst_tail (V : Valuation τ sig (Elt Ideal)) :
    StableHlo.after (List.drop 19 (hostOps0_1 (F := Ideal))) V main_v1
      = select (broadcastInDim S800000x64 ![0] bcast_S800000_S800000x64_0 (V main_call1_v12))
          (V main_call1_v13)
          (broadcastInDim S800000x64 ![] bcast_S_S800000x64 (constant (F := Ideal) S_ .f32 0x7FC00000#32)) := by
  show StableHlo.after (List.drop 19 hostOps0_1) V (Proc.devRef .tc main_v1) = _
  simp only [List.drop_succ_cons, List.drop_zero]
  after_results
  rfl

set_option maxHeartbeats 2000000 in
/-- The last four operations write neither the mask nor the gathered rows. -/
theorem dst_tail_keeps (V : Valuation τ sig (Elt Ideal)) :
    StableHlo.after (List.drop 19 (hostOps0_1 (F := Ideal))) V main_call1_v12 = V main_call1_v12
      ∧ StableHlo.after (List.drop 19 (hostOps0_1 (F := Ideal))) V main_call1_v13 = V main_call1_v13 := by
  constructor
  · show StableHlo.after (List.drop 19 hostOps0_1) V (Proc.devRef .tc main_call1_v12) = _
    simp only [List.drop_succ_cons, List.drop_zero]
    after_results
  · show StableHlo.after (List.drop 19 hostOps0_1) V (Proc.devRef .tc main_call1_v13) = _
    simp only [List.drop_succ_cons, List.drop_zero]
    after_results

/-- What the destination lookup leaves in its result: the gathered rows selected by the range mask, NaN elsewhere. -/
theorem after_dst (W : Valuation τ sig (Elt Ideal)) :
    StableHlo.after (hostOps0_1 (F := Ideal)) W main_v1
      = select (broadcastInDim S800000x64 ![0] bcast_S800000_S800000x64_0 (rangeMask (W main_arg16)))
          (Host.gather gather_S50000x64_S800000x1_S800000x64_1_0_n_n_0_1_164 (W main_arg0) (wrapIdx (W main_arg16)))
          (broadcastInDim S800000x64 ![] bcast_S_S800000x64 (constant (F := Ideal) S_ .f32 0x7FC00000#32)) := by
  have hsplit : StableHlo.after (hostOps0_1 (F := Ideal)) W
      = StableHlo.after (List.drop 19 hostOps0_1) (StableHlo.after (List.take 19 hostOps0_1) W) := by
    rw [← StableHlo.after_append, List.take_append_drop]
  have e12 : StableHlo.after (List.take 19 (hostOps0_1 (F := Ideal))) W main_call1_v12 = rangeMask (W main_arg16) :=
    ((dst_tail_keeps (StableHlo.after (List.take 19 hostOps0_1) W)).1.symm.trans (congrFun hsplit.symm _)).trans (dst_mask W)
  have e13 : StableHlo.after (List.take 19 (hostOps0_1 (F := Ideal))) W main_call1_v13
      = Host.gather gather_S50000x64_S800000x1_S800000x64_1_0_n_n_0_1_164 (W main_arg0) (wrapIdx (W main_arg16)) :=
    ((dst_tail_keeps (StableHlo.after (List.take 19 hostOps0_1) W)).2.symm.trans (congrFun hsplit.symm _)).trans (dst_rows W)
  rw [hsplit, dst_tail, e12, e13]

/-- THE DESTINATION LOOKUP IS THE GATHER of the table's rows at the wrapped indices, whenever the indices lie in [0, 50000). -/
theorem take_dst (W : Valuation τ sig (Elt Ideal))
    (hr : ∀ e : Fin 800000, 0 ≤ ((W main_arg16 : IVec S800000 32) (ix1 e)).toInt ∧ ((W main_arg16 : IVec S800000 32) (ix1 e)).toInt < 50000) :
    StableHlo.after (hostOps0_1 (F := Ideal)) W main_v1
      = Host.gather gather_S50000x64_S800000x1_S800000x64_1_0_n_n_0_1_164 (W main_arg0)
          (broadcastInDim S800000x1 ![0] bcast_S800000_S800000x1_0
            (select (cmpi .slt (W main_arg16) (broadcastInDim S800000 ![] bcast_S_S800000 (constantI S_ 32 0#32)))
              (addi (W main_arg16) (broadcastInDim S800000 ![] bcast_S_S800000 (constantI S_ 32 50000#32))) (W main_arg16))) :=
  (after_dst W).trans (lookup_eq_gather (W main_arg0) (W main_arg16) hr)

end Take

end Cert.PreIdx

end
-- ==== Proof.LibNary3.lean ====
/-
  Two aids for reading back the results of a line of host operations in one pass of the simplifier.

  (1) A host operation over a literal family of THREE references (a three-piece concatenate): its result is its function
  of the three operands' contents, each read at its own reference.  The library states this for four references;
  the three-reference form is proved the same way (the family applied to a literal index is that reference).

  (2) The concatenate of three or of four pieces with the pieces' contents as SEPARATE arguments.  The library's
  concatenate takes a list of (shape, contents) pairs and a proof about the list's shapes, so the proof's type depends
  on the list; standing as a whole vector (not applied to an index) it then admits no rewriting inside the list by
  congruence.  With the pieces as separate arguments, and the proof about the shapes alone, each piece is an ordinary
  argument and goes on being read.  Both forms are the same function by definition.

  Stated over the library's types only.
-/
import Idealize.ShloMosaic.Lib.StableHlo.Run

noncomputable section

namespace Cert.LibNary3

open Idealize.ShloMosaic Idealize.ShloMosaic.StableHlo

open Idealize.SL.Sem TcCoe

section Nary3

variable {τ : Topo} {sig : RefSig} {Val : EltTy → Type} {x a b y : Ref sig .tc}

/-- The result of an operation over a literal family of three references is its function of the three operands'
    contents, each read at its own reference (the family applied to a literal index is that reference). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rewriting index, for one pass of the simplifier. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

/-- The results of a line of operations by one pass of the simplifier, three- and four-operand operations read operand by operand. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-! ## A concatenate of three or of four pieces, the pieces as separate arguments

The library's concatenate takes its pieces as a list of (shape, contents) pairs and a proof about the list of shapes,
so the proof's type depends on the list. Here the same function takes the shapes, the proof about the shapes, and then
each piece's contents on its own: no argument's type depends on a piece's contents. -/

section Cat
variable {α : Type}

/-- The concatenate of three pieces along an axis, the pieces' contents as three arguments. -/
def cat3 (t : Shape) (a : Fin t.rank) (s0 s1 s2 : Shape) (h : Shape.Concatenates [s0, s1, s2] t a)
    (A : s0.Idx → α) (B : s1.Idx → α) (C : s2.Idx → α) : t.Idx → α :=
  concatenate t a [⟨s0, A⟩, ⟨s1, B⟩, ⟨s2, C⟩] h

/-- The concatenate of four pieces along an axis, the pieces' contents as four arguments. -/
def cat4 (t : Shape) (a : Fin t.rank) (s0 s1 s2 s3 : Shape) (h : Shape.Concatenates [s0, s1, s2, s3] t a)
    (A : s0.Idx → α) (B : s1.Idx → α) (C : s2.Idx → α) (D : s3.Idx → α) : t.Idx → α :=
  concatenate t a [⟨s0, A⟩, ⟨s1, B⟩, ⟨s2, C⟩, ⟨s3, D⟩] h

/-- The library's concatenate of a list of three pieces is the three-argument one. -/
theorem cat3_fold (t : Shape) (a : Fin t.rank) (s0 s1 s2 : Shape) (h : Shape.Concatenates [s0, s1, s2] t a)
    (A : s0.Idx → α) (B : s1.Idx → α) (C : s2.Idx → α) :
    concatenate t a [⟨s0, A⟩, ⟨s1, B⟩, ⟨s2, C⟩] h = cat3 t a s0 s1 s2 h A B C := rfl

/-- The library's concatenate of a list of four pieces is the four-argument one. -/
theorem cat4_fold (t : Shape) (a : Fin t.rank) (s0 s1 s2 s3 : Shape) (h : Shape.Concatenates [s0, s1, s2, s3] t a)
    (A : s0.Idx → α) (B : s1.Idx → α) (C : s2.Idx → α) (D : s3.Idx → α) :
    concatenate t a [⟨s0, A⟩, ⟨s1, B⟩, ⟨s2, C⟩, ⟨s3, D⟩] h = cat4 t a s0 s1 s2 s3 h A B C D := rfl

end Cat

/-- The results of a line of operations by one pass of the simplifier. An operation over a literal family of references
    is read through the family, the family at a literal index is that reference, and a concatenate of three or four
    pieces is taken with its pieces as separate arguments, so that each piece goes on being read. -/
macro "after_results_simpc" : tactic =>
  `(tactic| (simp (disch := decide) only [after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne', Matrix.cons_val, cat3_fold, cat4_fold]))

end Cert.LibNary3

end
-- ==== Proof.lean ====
/-
  The certificate of the graph-network step: the word-level kernel program, its idealization and the idealized jnp
  reference.

  THE PROGRAMS.  The kernel program gathers the sender and receiver rows of the node features on the host, runs an
  edge perceptron over 800000 edges in 100 tiles of 8000 rows (one partial product per 64-long piece of the
  concatenated input row; the tiles' outputs, their residual sums with the edge features, and the column sums of the
  outputs accumulated over the tiles), takes the mean of the incoming messages per node by two scatter-adds on the
  host, runs a node perceptron over 50000 nodes in 5 tiles of 10000 rows the same way, and finishes with a one-row
  global perceptron on the host over the two column-sum readouts.  The reference does the same with whole-array
  operations on concatenated inputs.

  THE FRAMES.  Each kernel program's @main is nine segments, seven host stretches and the two pipelined regions; each
  region's body is run once per control case (the first point, which clears the accumulator, and the later points,
  which continue from what the point before left), and the library's several-regions launch carries every unscoped
  buffer through the segments.  The reference's frame is its run with the results dropped.

  THE VALUES.  Over the extended reals the two programs compute the same three arrays wherever the two index
  inputs lie in [0, 50000) — the added conjunct of the precondition; outside it the kernel's guarded row lookup fills
  rows with a non-number pattern where the reference's gather clamps.  The only laws used are that a sum over the 256
  (or 192) concatenated columns is the sum of the sums over its 64-long bands, and that a sum over all rows is the sum
  over the tiles of each tile's rows: both hold on all extended reals, so finiteness of the inputs is never used.
-/
import proofs.«426020_j49563922596335_1_alg».proof.Defs
import proofs.«426020_j49563922596335_1_alg».proof.Proof.Gen.Kernel
import proofs.«426020_j49563922596335_1_alg».proof.Proof.Gen.KernelIdeal
import proofs.«426020_j49563922596335_1_alg».proof.Proof.Gen.ReferenceIdeal
import proofs.«426020_j49563922596335_1_alg».proof.Proof.Gen.Pre_finite_inputs
import proofs.«426020_j49563922596335_1_alg».proof.Proof.K.Regions
import proofs.«426020_j49563922596335_1_alg».proof.Proof.KI.Regions
import proofs.«426020_j49563922596335_1_alg».proof.Proof.KI.HostRead
import proofs.«426020_j49563922596335_1_alg».proof.Proof.Bridge
import proofs.«426020_j49563922596335_1_alg».proof.Proof.PreIdx
import proofs.«426020_j49563922596335_1_alg».proof.Proof.RefRun
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Whole.frame m ρ

theorem frame_ki : Cert.frame_KernelIdeal := fun m ρ _ => Cert.KernelIdeal.Whole.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: the idealization is the program's own text read over the extended reals. -/
theorem preserves : Cert.preserves_Kernel_KernelIdeal := trivial

/-! ## The values -/

/-- The reference's third result, which its run states by name, is its last stage at the launch arguments. -/
theorem ref_u (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v66 (F := Ideal) m c
      = Cert.ReferenceIdeal.Read.val_main_v66 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) := by
  unfold Cert.ReferenceIdeal.Value.res_main_v66; rfl

/-- From memories that agree on the seventeen arguments, with the index inputs in range, both idealized programs run
    and end with the same three arrays: the kernel program's, read off its buffers followed through @main. -/
theorem algebraic : Cert.algebraic_KernelIdeal_ReferenceIdeal := by
  intro m ρ m' ρ' hpre hagree
  refine ⟨fun c => Cert.KernelIdeal.Whole.W9 m c Cert.KernelIdeal.main_v19_0, fun c => Cert.KernelIdeal.Whole.W9 m c Cert.KernelIdeal.main_v6_1,
    fun c => Cert.KernelIdeal.Whole.W9 m c Cert.KernelIdeal.main_v32, Cert.KernelIdeal.Whole.run_results m ρ, ?_⟩
  refine (θ_run Cert.ReferenceIdeal.defs _ _).mono (fun r h c => ?_) (Cert.ReferenceIdeal.Value.run (F := Ideal) m' ρ')
  obtain ⟨h64, h65, h66, hargs⟩ := h c
  obtain ⟨e0, e1, e2, e3, e4, e5, e6, e7, e8, e9, e10, e11, e12, e13, e14, e15, e16⟩ := hagree c
  -- the index inputs are in range, so the kernel program's guarded row lookups are the plain gathers
  have hs := Cert.PreIdx.src_range _ _ _ _ _ _ _ _ _ _ _ _ _ _ _ _ _ (hpre c)
  have hd := Cert.PreIdx.dst_range _ _ _ _ _ _ _ _ _ _ _ _ _ _ _ _ _ (hpre c)
  have hxs := Cert.PreIdx.take_src (Cert.KernelIdeal.Gen.V0 m c) hs
  have hxd := Cert.PreIdx.take_dst (Cert.KernelIdeal.Gen.V1 m c) (by rw [Cert.KernelIdeal.HostRead.V1_main_arg16]; exact hd)
  refine ⟨h64.trans ?_, h65.trans ?_, h66.trans ?_, hargs⟩
  · refine (Cert.ReferenceIdeal.Read.val_main_v64_eq _ _ _ _ _ _ _ _ _ _ _ _ _).trans ?_
    rw [e0, e1, e2, e3, e4, e5, e6, e7, e8, e9, e10, e15, e16]
    exact (Cert.Bridge.res_nf_eq m c hxs hxd).symm
  · refine (Cert.ReferenceIdeal.Read.val_main_v65_eq _ _ _ _ _ _ _ _ _).trans ?_
    rw [e0, e1, e2, e3, e4, e5, e6, e15, e16]
    exact (Cert.Bridge.res_ef_eq m c hxs hxd).symm
  · refine (ref_u m' c).trans ?_
    rw [e0, e1, e2, e3, e4, e5, e6, e7, e8, e9, e10, e11, e12, e13, e14, e15, e16]
    exact (Cert.Bridge.res_u_eq m c hxs hxd).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
